-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S100000x128 .f32) (main_v33 : IVec S_ 1) : IVec S_ 1 :=
  let main_v34 : FVec F S100000x128 .f32 := Host.absf main_arg7
  let main_cst_12 : FVec F S_ .f32 := constant S_ .f32 0x7F800000#32
  let main_v35 : FVec F S100000x128 .f32 := broadcastInDim S100000x128 ![] bcast_S_S100000x128 main_cst_12
  let main_v36 : IVec S100000x128 1 := cmpf .olt main_v34 main_v35
  let main_c_13 : IVec S_ 1 := constantI S_ 1 1#1
  let main_v37 : IVec S_ 1 := (fun x v => Host.reduce IntOp.andi x v reducesTo_S100000x128_S_d0_1 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128 .f32) (main_arg7 : FVec F S100000x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128 .f32) (main_arg6 : FVec F S128 .f32) (main_arg7 : FVec F S100000x128 .f32) (main_arg8 : IVec S1600000 32) (main_arg9 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 57
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S100000x128, .f32⟩
  | .hbm, ⟨54, _⟩ => ⟨S1x128, .f32⟩
  | .hbm, ⟨55, _⟩ => ⟨S1x128, .f32⟩
  | .hbm, ⟨56, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31_0 : Ref sig .tc := ⟨.hbm, 53, rfl⟩
abbrev main_v31_1 : Ref sig .tc := ⟨.hbm, 54, rfl⟩
abbrev main_v31_2 : Ref sig .tc := ⟨.hbm, 55, rfl⟩
abbrev main_v32 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v41 : BitVec 1 := Scalar.cmpi .eq arg0 c49_i32
  let v42 : BitVec 32 := Scalar.extui v41
  let c0_i32_27 : BitVec 32 := 0#32
  let v43 : BitVec 1 := Scalar.cmpi .ne v42 c0_i32_27
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S1x128_S2000x128 : S1x128.Broadcasts S2000x128
  reduces_S2000x128_S128 : S2000x128.Reduces [0] S128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S2000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v31_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v31_1) S1x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31_2) S1x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v31_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_1) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31_2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.StatsKit.lean ====
/-
  Region 0 (the statistics kernel: both matrix products, the mask, the running column sums and sums of
  squares, and at the last grid point the mean and the variance) — what its three whole-body runs share:
  the windows' blocks read off the arrays as the region finds them, the two branch conditions of the body
  decided over the fifty grid points, where the two small outputs are idle, the staging and scratch
  memrefs, and the region invariant with the two scratch buffers owned as memrefs.
-/
import proofs.«167465_j80161269613387_1_alg».proof.Proof.Gen.Kernel.Launch
import proofs.«167465_j80161269613387_1_alg».proof.Proof.Gen.Kernel.Skeleton
import proofs.«167465_j80161269613387_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched input's block index has not
    moved, so the buffer still holds the block of the point before, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched input's block index has not
    moved, so the buffer still holds the block of the point before, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched input's block index has not
    moved, so the buffer still holds the block of the point before, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched input's block index has not
    moved, so the buffer still holds the block of the point before, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: an unfetched input's block index has not
    moved, so the buffer still holds the block of the point before, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: an unfetched input's block index has not
    moved, so the buffer still holds the block of the point before, which is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place: an unfetched input's block index has not
    moved, so the buffer still holds the block of the point before, which is this point's. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The condition of the body's first conditional (the zeroing of the two running sums), from the grid coordinate. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the mean and the variance written out), from the grid coordinate. -/
abbrev cond0_1 (i : grid0.Coords) : Prop := k0_cond2 i = 1#1
/-- It holds at the last point only — decided over the grid. -/
theorem hcond0_1 : ∀ t : Fin cfg0.N, cond0_1 (grid0.coords t) ↔ t.val = 49 :=
  (by decide +kernel : ∀ t : Fin grid0.N, cond0_1 (grid0.coords t) ↔ t.val = 49)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- Window 6 is never idle. -/
theorem liveAt0_6 : ∀ t : Fin cfg0.N, cfg0.idle 6 (grid0.coords t) = false := by decide +kernel
/-- Window 7 is never idle. -/
theorem liveAt0_7 : ∀ t : Fin cfg0.N, cfg0.idle 7 (grid0.coords t) = false := by decide +kernel
/-- Off the last point output 8 is idle: the body stores nothing into it there, -/
theorem idleAt0_8 : ∀ t : Fin cfg0.N, ¬cond0_1 (grid0.coords t) → cfg0.idle 8 (grid0.coords t) = true :=
  (by decide +kernel : ∀ t : Fin grid0.N, ¬cond0_1 (grid0.coords t) → idle0 8 (grid0.coords t) = true)
/-- and the pipeline does not write its block back there. -/
theorem noFlush0_8 : ∀ t : Fin cfg0.N, ¬cond0_1 (grid0.coords t) → (cfg0.win 8).flush t = false :=
  (by decide +kernel : ∀ t : Fin grid0.N, ¬cond0_1 (grid0.coords t) → win0_8.flush t = false)
/-- At the last point output 8 is live: the body stores into it. -/
theorem liveAt0_8 : ∀ t : Fin cfg0.N, cond0_1 (grid0.coords t) → cfg0.idle 8 (grid0.coords t) = false :=
  (by decide +kernel : ∀ t : Fin grid0.N, cond0_1 (grid0.coords t) → idle0 8 (grid0.coords t) = false)
/-- Off the last point output 9 is idle: the body stores nothing into it there, -/
theorem idleAt0_9 : ∀ t : Fin cfg0.N, ¬cond0_1 (grid0.coords t) → cfg0.idle 9 (grid0.coords t) = true :=
  (by decide +kernel : ∀ t : Fin grid0.N, ¬cond0_1 (grid0.coords t) → idle0 9 (grid0.coords t) = true)
/-- and the pipeline does not write its block back there. -/
theorem noFlush0_9 : ∀ t : Fin cfg0.N, ¬cond0_1 (grid0.coords t) → (cfg0.win 9).flush t = false :=
  (by decide +kernel : ∀ t : Fin grid0.N, ¬cond0_1 (grid0.coords t) → win0_9.flush t = false)
/-- At the last point output 9 is live: the body stores into it. -/
theorem liveAt0_9 : ∀ t : Fin cfg0.N, cond0_1 (grid0.coords t) → cfg0.idle 9 (grid0.coords t) = false :=
  (by decide +kernel : ∀ t : Fin grid0.N, cond0_1 (grid0.coords t) → idle0 9 (grid0.coords t) = false)

/-! ## The staging and scratch memrefs -/

/-- Window 0's current staging memref at point `t`, as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
/-- Window 1's current staging memref at point `t`, as the pipeline passes it, and its wholeness. -/
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
/-- Window 2's current staging memref at point `t`, as the pipeline passes it, and its wholeness. -/
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
/-- Window 3's current staging memref at point `t`, as the pipeline passes it, and its wholeness. -/
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
/-- Window 4's current staging memref at point `t`, as the pipeline passes it, and its wholeness. -/
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
/-- Window 5's current staging memref at point `t`, as the pipeline passes it, and its wholeness. -/
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- Window 6's current staging memref at point `t`, as the pipeline passes it, and its wholeness. -/
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
/-- Window 7's current staging memref at point `t`, as the pipeline passes it, and its wholeness. -/
abbrev ms0_7 (t : Fin cfg0.N) : Memref sig .tc .vmem S2000x128 .f32 := win0_7.stage (cfg0.slots t 7)
abbrev hs0_7 (t : Fin cfg0.N) : (ms0_7 t).IsWhole := hstage0_7 ((cfg0.slots t 7).cast nbuf0_7)
/-- Window 8's current staging memref at point `t`, as the pipeline passes it, and its wholeness. -/
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- Window 9's current staging memref at point `t`, as the pipeline passes it, and its wholeness. -/
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
/-- One staging buffer of each output window, through which its contents are stated (the choice does not matter). -/
abbrev VO0_7 : View sig .tc .vmem S2000x128 .f32 := (Memref.whole cc0_stg7_0 : Memref sig .tc .vmem S2000x128 .f32).view
abbrev VO0_8 : View sig .tc .vmem S1x128 .f32 := (Memref.whole cc0_stg8_0 : Memref sig .tc .vmem S1x128 .f32).view
abbrev VO0_9 : View sig .tc .vmem S1x128 .f32 := (Memref.whole cc0_stg9_0 : Memref sig .tc .vmem S1x128 .f32).view
/-- The two scratch operands (the running column sums, the running column sums of squares): whole scoped buffers of
    the kernel's own, passed beside the windows and carried from point to point. -/
abbrev scM0_0 : Memref sig .tc .vmem S1x128 .f32 := Memref.whole cc0_scratch0
abbrev scM0_1 : Memref sig .tc .vmem S1x128 .f32 := Memref.whole cc0_scratch1
/-- The same as views: what they hold is stated through these. -/
abbrev VS0_0 : View sig .tc .vmem S1x128 .f32 := scM0_0.view
abbrev VS0_1 : View sig .tc .vmem S1x128 .f32 := scM0_1.view

/-- The scoped buffers of the core that are neither this region's staging buffers nor its scratch — the other
    region's eight staging buffers —, each whole at some contents: this region never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region invariant as the launch states it, with the two scratch operands as memrefs owned at some contents:
    what the body is handed before the first point and what the region gives back at its end. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

end Cert.Kernel.Hand

end
-- ==== Proof.K.StatsRunFirst.lean ====
/-
  Region 0's body run whole at the first grid point: the two running sums are zeroed, then this block's column
  sum and column sum of squares are added to them and the block itself is stored to the big output.
-/
import proofs.«167465_j80161269613387_1_alg».proof.Proof.K.StatsKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the FIRST grid point (the zeroing conditional taken, the closing one not). On whole memrefs — the seven
    inputs' at their contents `x·`, the big output's at anything, the two small outputs' (idle here) at contents
    `xi·` handed back untouched, the two scratch buffers at anything — the body runs to the continuation holding the
    inputs as they were, the big output's and the two scratch buffers with their pieces written. The pieces are the
    witness the run finds: each scratch is zeroed, read back and overwritten with the zero plus this block's column sum
    (sum of squares), so it ends with two pieces. -/
noncomputable def kernelRun0_first (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) :
    Σ' (L7 : List (View.Piece (Elt F) S2000x128 .f32)) (LS0 : List (View.Piece (Elt F) S1x128 .f32)), { LS1 : List (View.Piece (Elt F) S1x128 .f32) //
      ∀ (xi8 : Vec F S1x128 .f32) (xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__kernel_a_body i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

end Cert.Kernel.Hand

end
-- ==== Proof.K.StatsRunMid.lean ====
/-
  Region 0's body run whole at a middle grid point: this block's column sum and column sum of squares are added
  to the running sums the point before left, and the block itself is stored to the big output.
-/
import proofs.«167465_j80161269613387_1_alg».proof.Proof.K.StatsRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a MIDDLE grid point (neither conditional taken). On whole memrefs — the seven inputs' at their contents
    `x·`, the big output's at anything, the two small outputs' (idle here) at contents `xi·` handed back untouched,
    the two scratch buffers at what the point before left (`xs·`) — the body runs to the continuation holding the
    inputs as they were, the big output's and the two scratch buffers with their pieces written: each scratch one
    piece, what it held plus this block's column sum (sum of squares). -/
noncomputable def kernelRun0_mid (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    Σ' (L7 : List (View.Piece (Elt F) S2000x128 .f32)) (LS0 : List (View.Piece (Elt F) S1x128 .f32)), { LS1 : List (View.Piece (Elt F) S1x128 .f32) //
      ∀ (xi8 : Vec F S1x128 .f32) (xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__kernel_a_body i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

end Cert.Kernel.Hand

end
-- ==== Proof.K.StatsRunLast.lean ====
/-
  Region 0's body run whole at the last grid point: as at a middle point, and then the mean and the variance are
  computed from the two running sums and stored to the two small outputs.
-/
import proofs.«167465_j80161269613387_1_alg».proof.Proof.K.StatsRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the LAST grid point (the zeroing conditional not taken, the closing one taken). On whole memrefs — the
    seven inputs' at their contents `x·`, the three outputs' at anything, the two scratch buffers at what the point
    before left (`xs·`) — the body runs to the continuation holding the inputs as they were and every output's and
    both scratch buffers with their pieces written: the big output its block, the scratch buffers the running sums
    through this block, the two small outputs the mean and the variance computed from those sums. -/
noncomputable def kernelRun0_last (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    Σ' (L7 : List (View.Piece (Elt F) S2000x128 .f32)) (L8 : List (View.Piece (Elt F) S1x128 .f32)) (L9 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__kernel_a_body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]; · iexists _; iexact HS0
    iexists _; iexact HS1

end Cert.Kernel.Hand

end
-- ==== Proof.K.StatsRegion.lean ====
/-
  Region 0 (the statistics kernel) as a pipeline region: what its outputs and its two carried scratch buffers
  hold after each grid point, the proof data over them, the body obligation at every point, and the region
  invariant's entry and exit.

  The grid has fifty points and the body three control cases. At the first point the two running sums are
  zeroed and then take this block's column sum and column sum of squares; at every later point they take what
  the point before left plus this block's; at the last point, after that, the mean and the variance are
  computed from them and stored to the two small outputs. The big output takes the masked block at every
  point. The two small outputs are idle off the last point: their staging buffers are handed back as found.
-/
import proofs.«167465_j80161269613387_1_alg».proof.Proof.K.StatsRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point's own memrefs and blocks -/

/-- The first case's run at point `t` (the first point), on the point's staging memrefs, the two scratch memrefs and
    the seven input blocks there. -/
def runFirst (c : Dev nD) (t : Fin cfg0.N) (h0 : t.val = 0) :=
  kernelRun0_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
    ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t)

/-- The middle case's run at point `t` (neither first nor last), the scratch buffers at `xs0`, `xs1`. -/
def runMid (c : Dev nD) (t : Fin cfg0.N) (h0 : t.val ≠ 0) (h1 : t.val ≠ 49) (xs0 xs1 : Vec F S1x128 .f32) :=
  kernelRun0_mid (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs0 xs1

/-- The last case's run at point `t` (the last point), the scratch buffers at `xs0`, `xs1`. -/
def runLast (c : Dev nD) (t : Fin cfg0.N) (h0 : t.val ≠ 0) (h1 : t.val = 49) (xs0 xs1 : Vec F S1x128 .f32) :=
  kernelRun0_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0 xs1

/-! ## What each case leaves: covers and contents -/

/-- The first case's pieces for the big output tile its block (one whole store), so they cover it. -/
theorem cover0_first_7 (c : Dev nD) (t : Fin cfg0.N) (h0 : t.val = 0) (y : S2000x128.Idx) : ∃ pc ∈ (runFirst V c t h0).1, y ∈ pc.1.set :=
  View.cover_of_tiledL (runFirst V c t h0).1 S2000x128.size (by sl_kernel_rfl) y
/-- What the first case leaves in the big output's staging buffer: its pieces read back over junk. -/
def out0_first_7 (c : Dev nD) (t : Fin cfg0.N) (h0 : t.val = 0) : Vec F S2000x128 .f32 :=
  VO0_7.read (Elt F) (VO0_7.writes (Elt F) VO0_7.junk (runFirst V c t h0).1)
/-- The first case's pieces for scratch 0 cover it (whole stores). -/
theorem scover0_first_0 (c : Dev nD) (t : Fin cfg0.N) (h0 : t.val = 0) (y : S1x128.Idx) : ∃ pc ∈ (runFirst V c t h0).2.1, y ∈ pc.1.set :=
  View.cover_of_tiledL (runFirst V c t h0).2.1 S1x128.size (by sl_kernel_rfl) y
/-- What the first case leaves in scratch 0: its pieces read back over junk. -/
def sout0_first_0 (c : Dev nD) (t : Fin cfg0.N) (h0 : t.val = 0) : Vec F S1x128 .f32 :=
  VS0_0.read (Elt F) (VS0_0.writes (Elt F) VS0_0.junk (runFirst V c t h0).2.1)
/-- The first case's pieces for scratch 1 cover it (whole stores). -/
theorem scover0_first_1 (c : Dev nD) (t : Fin cfg0.N) (h0 : t.val = 0) (y : S1x128.Idx) : ∃ pc ∈ (runFirst V c t h0).2.2.1, y ∈ pc.1.set :=
  View.cover_of_tiledL (runFirst V c t h0).2.2.1 S1x128.size (by sl_kernel_rfl) y
/-- What the first case leaves in scratch 1: its pieces read back over junk. -/
def sout0_first_1 (c : Dev nD) (t : Fin cfg0.N) (h0 : t.val = 0) : Vec F S1x128 .f32 :=
  VS0_1.read (Elt F) (VS0_1.writes (Elt F) VS0_1.junk (runFirst V c t h0).2.2.1)

/-- The middle case's pieces for the big output tile its block (one whole store), so they cover it. -/
theorem cover0_mid_7 (c : Dev nD) (t : Fin cfg0.N) (h0 : t.val ≠ 0) (h1 : t.val ≠ 49) (xs0 xs1 : Vec F S1x128 .f32) (y : S2000x128.Idx) : ∃ pc ∈ (runMid V c t h0 h1 xs0 xs1).1, y ∈ pc.1.set :=
  View.cover_of_tiledL (runMid V c t h0 h1 xs0 xs1).1 S2000x128.size (by sl_kernel_rfl) y
/-- What the middle case leaves in the big output's staging buffer: its pieces read back over junk. -/
def out0_mid_7 (c : Dev nD) (t : Fin cfg0.N) (h0 : t.val ≠ 0) (h1 : t.val ≠ 49) (xs0 xs1 : Vec F S1x128 .f32) : Vec F S2000x128 .f32 :=
  VO0_7.read (Elt F) (VO0_7.writes (Elt F) VO0_7.junk (runMid V c t h0 h1 xs0 xs1).1)
/-- The middle case's pieces for scratch 0 cover it (whole stores). -/
theorem scover0_mid_0 (c : Dev nD) (t : Fin cfg0.N) (h0 : t.val ≠ 0) (h1 : t.val ≠ 49) (xs0 xs1 : Vec F S1x128 .f32) (y : S1x128.Idx) : ∃ pc ∈ (runMid V c t h0 h1 xs0 xs1).2.1, y ∈ pc.1.set :=
  View.cover_of_tiledL (runMid V c t h0 h1 xs0 xs1).2.1 S1x128.size (by sl_kernel_rfl) y
/-- What the middle case leaves in scratch 0: its pieces read back over junk. -/
def sout0_mid_0 (c : Dev nD) (t : Fin cfg0.N) (h0 : t.val ≠ 0) (h1 : t.val ≠ 49) (xs0 xs1 : Vec F S1x128 .f32) : Vec F S1x128 .f32 :=
  VS0_0.read (Elt F) (VS0_0.writes (Elt F) VS0_0.junk (runMid V c t h0 h1 xs0 xs1).2.1)
/-- The middle case's pieces for scratch 1 cover it (whole stores). -/
theorem scover0_mid_1 (c : Dev nD) (t : Fin cfg0.N) (h0 : t.val ≠ 0) (h1 : t.val ≠ 49) (xs0 xs1 : Vec F S1x128 .f32) (y : S1x128.Idx) : ∃ pc ∈ (runMid V c t h0 h1 xs0 xs1).2.2.1, y ∈ pc.1.set :=
  View.cover_of_tiledL (runMid V c t h0 h1 xs0 xs1).2.2.1 S1x128.size (by sl_kernel_rfl) y
/-- What the middle case leaves in scratch 1: its pieces read back over junk. -/
def sout0_mid_1 (c : Dev nD) (t : Fin cfg0.N) (h0 : t.val ≠ 0) (h1 : t.val ≠ 49) (xs0 xs1 : Vec F S1x128 .f32) : Vec F S1x128 .f32 :=
  VS0_1.read (Elt F) (VS0_1.writes (Elt F) VS0_1.junk (runMid V c t h0 h1 xs0 xs1).2.2.1)

/-- The last case's pieces for the big output tile its block (one whole store), so they cover it. -/
theorem cover0_last_7 (c : Dev nD) (t : Fin cfg0.N) (h0 : t.val ≠ 0) (h1 : t.val = 49) (xs0 xs1 : Vec F S1x128 .f32) (y : S2000x128.Idx) : ∃ pc ∈ (runLast V c t h0 h1 xs0 xs1).1, y ∈ pc.1.set :=
  View.cover_of_tiledL (runLast V c t h0 h1 xs0 xs1).1 S2000x128.size (by sl_kernel_rfl) y
/-- What the last case leaves in the big output's staging buffer: its pieces read back over junk. -/
def out0_last_7 (c : Dev nD) (t : Fin cfg0.N) (h0 : t.val ≠ 0) (h1 : t.val = 49) (xs0 xs1 : Vec F S1x128 .f32) : Vec F S2000x128 .f32 :=
  VO0_7.read (Elt F) (VO0_7.writes (Elt F) VO0_7.junk (runLast V c t h0 h1 xs0 xs1).1)
/-- The last case's pieces for output 8 tile its block (one whole store), so they cover it. -/
theorem cover0_last_8 (c : Dev nD) (t : Fin cfg0.N) (h0 : t.val ≠ 0) (h1 : t.val = 49) (xs0 xs1 : Vec F S1x128 .f32) (y : S1x128.Idx) : ∃ pc ∈ (runLast V c t h0 h1 xs0 xs1).2.1, y ∈ pc.1.set :=
  View.cover_of_tiledL (runLast V c t h0 h1 xs0 xs1).2.1 S1x128.size (by sl_kernel_rfl) y
/-- What the last case leaves in output 8's staging buffer: its pieces read back over junk. -/
def out0_last_8 (c : Dev nD) (t : Fin cfg0.N) (h0 : t.val ≠ 0) (h1 : t.val = 49) (xs0 xs1 : Vec F S1x128 .f32) : Vec F S1x128 .f32 :=
  VO0_8.read (Elt F) (VO0_8.writes (Elt F) VO0_8.junk (runLast V c t h0 h1 xs0 xs1).2.1)
/-- The last case's pieces for output 9 tile its block (one whole store), so they cover it. -/
theorem cover0_last_9 (c : Dev nD) (t : Fin cfg0.N) (h0 : t.val ≠ 0) (h1 : t.val = 49) (xs0 xs1 : Vec F S1x128 .f32) (y : S1x128.Idx) : ∃ pc ∈ (runLast V c t h0 h1 xs0 xs1).2.2.1, y ∈ pc.1.set :=
  View.cover_of_tiledL (runLast V c t h0 h1 xs0 xs1).2.2.1 S1x128.size (by sl_kernel_rfl) y
/-- What the last case leaves in output 9's staging buffer: its pieces read back over junk. -/
def out0_last_9 (c : Dev nD) (t : Fin cfg0.N) (h0 : t.val ≠ 0) (h1 : t.val = 49) (xs0 xs1 : Vec F S1x128 .f32) : Vec F S1x128 .f32 :=
  VO0_9.read (Elt F) (VO0_9.writes (Elt F) VO0_9.junk (runLast V c t h0 h1 xs0 xs1).2.2.1)
/-- The last case's pieces for scratch 0 cover it (whole stores). -/
theorem scover0_last_0 (c : Dev nD) (t : Fin cfg0.N) (h0 : t.val ≠ 0) (h1 : t.val = 49) (xs0 xs1 : Vec F S1x128 .f32) (y : S1x128.Idx) : ∃ pc ∈ (runLast V c t h0 h1 xs0 xs1).2.2.2.1, y ∈ pc.1.set :=
  View.cover_of_tiledL (runLast V c t h0 h1 xs0 xs1).2.2.2.1 S1x128.size (by sl_kernel_rfl) y
/-- What the last case leaves in scratch 0: its pieces read back over junk. -/
def sout0_last_0 (c : Dev nD) (t : Fin cfg0.N) (h0 : t.val ≠ 0) (h1 : t.val = 49) (xs0 xs1 : Vec F S1x128 .f32) : Vec F S1x128 .f32 :=
  VS0_0.read (Elt F) (VS0_0.writes (Elt F) VS0_0.junk (runLast V c t h0 h1 xs0 xs1).2.2.2.1)
/-- The last case's pieces for scratch 1 cover it (whole stores). -/
theorem scover0_last_1 (c : Dev nD) (t : Fin cfg0.N) (h0 : t.val ≠ 0) (h1 : t.val = 49) (xs0 xs1 : Vec F S1x128 .f32) (y : S1x128.Idx) : ∃ pc ∈ (runLast V c t h0 h1 xs0 xs1).2.2.2.2.1, y ∈ pc.1.set :=
  View.cover_of_tiledL (runLast V c t h0 h1 xs0 xs1).2.2.2.2.1 S1x128.size (by sl_kernel_rfl) y
/-- What the last case leaves in scratch 1: its pieces read back over junk. -/
def sout0_last_1 (c : Dev nD) (t : Fin cfg0.N) (h0 : t.val ≠ 0) (h1 : t.val = 49) (xs0 xs1 : Vec F S1x128 .f32) : Vec F S1x128 .f32 :=
  VS0_1.read (Elt F) (VS0_1.writes (Elt F) VS0_1.junk (runLast V c t h0 h1 xs0 xs1).2.2.2.2.1)

/-- At a point where a small output is idle nothing consults what is recorded for it (the window is neither written
    back there nor read at the next point): a placeholder. -/
def idleOut0_8 : Vec F S1x128 .f32 := VO0_8.read (Elt F) VO0_8.junk
def idleOut0_9 : Vec F S1x128 .f32 := VO0_9.read (Elt F) VO0_9.junk

/-! ## What the outputs and the scratch buffers hold after each point -/

/-- The accumulation. After the body at position `n`: the big output's staging buffer, the two small outputs', then the
    two scratch buffers (running column sums, running column sums of squares) — the case position `n` is in, run at
    the point's memrefs and input blocks, the scratch buffers at what this leaves at `n - 1`. -/
def outsAt0 (c : Dev nD) : (n : ℕ) → n < cfg0.N → Vec F S2000x128 .f32 × Vec F S1x128 .f32 × Vec F S1x128 .f32 × Vec F S1x128 .f32 × Vec F S1x128 .f32
  | 0, hn => (out0_first_7 V c ⟨0, hn⟩ rfl, idleOut0_8, idleOut0_9, sout0_first_0 V c ⟨0, hn⟩ rfl, sout0_first_1 V c ⟨0, hn⟩ rfl)
  | n + 1, hn =>
    if h1 : n + 1 = 49 then
      (out0_last_7 V c ⟨n + 1, hn⟩ (Nat.succ_ne_zero n) h1 (outsAt0 c n (Nat.lt_of_succ_lt hn)).2.2.2.1 (outsAt0 c n (Nat.lt_of_succ_lt hn)).2.2.2.2,
       out0_last_8 V c ⟨n + 1, hn⟩ (Nat.succ_ne_zero n) h1 (outsAt0 c n (Nat.lt_of_succ_lt hn)).2.2.2.1 (outsAt0 c n (Nat.lt_of_succ_lt hn)).2.2.2.2,
       out0_last_9 V c ⟨n + 1, hn⟩ (Nat.succ_ne_zero n) h1 (outsAt0 c n (Nat.lt_of_succ_lt hn)).2.2.2.1 (outsAt0 c n (Nat.lt_of_succ_lt hn)).2.2.2.2,
       sout0_last_0 V c ⟨n + 1, hn⟩ (Nat.succ_ne_zero n) h1 (outsAt0 c n (Nat.lt_of_succ_lt hn)).2.2.2.1 (outsAt0 c n (Nat.lt_of_succ_lt hn)).2.2.2.2,
       sout0_last_1 V c ⟨n + 1, hn⟩ (Nat.succ_ne_zero n) h1 (outsAt0 c n (Nat.lt_of_succ_lt hn)).2.2.2.1 (outsAt0 c n (Nat.lt_of_succ_lt hn)).2.2.2.2)
    else
      (out0_mid_7 V c ⟨n + 1, hn⟩ (Nat.succ_ne_zero n) h1 (outsAt0 c n (Nat.lt_of_succ_lt hn)).2.2.2.1 (outsAt0 c n (Nat.lt_of_succ_lt hn)).2.2.2.2,
       idleOut0_8, idleOut0_9,
       sout0_mid_0 V c ⟨n + 1, hn⟩ (Nat.succ_ne_zero n) h1 (outsAt0 c n (Nat.lt_of_succ_lt hn)).2.2.2.1 (outsAt0 c n (Nat.lt_of_succ_lt hn)).2.2.2.2,
       sout0_mid_1 V c ⟨n + 1, hn⟩ (Nat.succ_ne_zero n) h1 (outsAt0 c n (Nat.lt_of_succ_lt hn)).2.2.2.1 (outsAt0 c n (Nat.lt_of_succ_lt hn)).2.2.2.2)

/-- The point before `t`, as a position below the grid's size. -/
theorem pred_lt (t : Fin cfg0.N) : t.val - 1 < cfg0.N := Nat.lt_of_le_of_lt (Nat.sub_le _ _) t.isLt

/-- `outsAt0` at the first point: the first case's contents. -/
theorem outsAt0_first (c : Dev nD) (t : Fin cfg0.N) (h0 : t.val = 0) :
    outsAt0 V c t.val t.isLt = (out0_first_7 V c t h0, idleOut0_8, idleOut0_9, sout0_first_0 V c t h0, sout0_first_1 V c t h0) := by
  obtain ⟨n, hn⟩ := t
  cases n with
  | zero => rfl
  | succ n => exact absurd h0 (Nat.succ_ne_zero n)

/-- `outsAt0` at a middle point: the middle case's contents, over what the point before left in the scratch buffers. -/
theorem outsAt0_mid (c : Dev nD) (t : Fin cfg0.N) (h0 : t.val ≠ 0) (h1 : t.val ≠ 49) :
    outsAt0 V c t.val t.isLt =
      (out0_mid_7 V c t h0 h1 (outsAt0 V c (t.val - 1) (pred_lt t)).2.2.2.1 (outsAt0 V c (t.val - 1) (pred_lt t)).2.2.2.2,
       idleOut0_8, idleOut0_9,
       sout0_mid_0 V c t h0 h1 (outsAt0 V c (t.val - 1) (pred_lt t)).2.2.2.1 (outsAt0 V c (t.val - 1) (pred_lt t)).2.2.2.2,
       sout0_mid_1 V c t h0 h1 (outsAt0 V c (t.val - 1) (pred_lt t)).2.2.2.1 (outsAt0 V c (t.val - 1) (pred_lt t)).2.2.2.2) := by
  obtain ⟨n, hn⟩ := t
  cases n with
  | zero => exact absurd rfl h0
  | succ n => exact (dif_neg h1).trans rfl

/-- `outsAt0` at the last point: the last case's contents, over what the point before left in the scratch buffers. -/
theorem outsAt0_last (c : Dev nD) (t : Fin cfg0.N) (h0 : t.val ≠ 0) (h1 : t.val = 49) :
    outsAt0 V c t.val t.isLt =
      (out0_last_7 V c t h0 h1 (outsAt0 V c (t.val - 1) (pred_lt t)).2.2.2.1 (outsAt0 V c (t.val - 1) (pred_lt t)).2.2.2.2,
       out0_last_8 V c t h0 h1 (outsAt0 V c (t.val - 1) (pred_lt t)).2.2.2.1 (outsAt0 V c (t.val - 1) (pred_lt t)).2.2.2.2,
       out0_last_9 V c t h0 h1 (outsAt0 V c (t.val - 1) (pred_lt t)).2.2.2.1 (outsAt0 V c (t.val - 1) (pred_lt t)).2.2.2.2,
       sout0_last_0 V c t h0 h1 (outsAt0 V c (t.val - 1) (pred_lt t)).2.2.2.1 (outsAt0 V c (t.val - 1) (pred_lt t)).2.2.2.2,
       sout0_last_1 V c t h0 h1 (outsAt0 V c (t.val - 1) (pred_lt t)).2.2.2.1 (outsAt0 V c (t.val - 1) (pred_lt t)).2.2.2.2) := by
  obtain ⟨n, hn⟩ := t
  cases n with
  | zero => exact absurd rfl h0
  | succ n => exact (dif_pos h1).trans rfl

/-! ## The region invariant, point by point -/

/-- The region invariant before position `n`: before the first point the launch's (every scratch at anything);
    afterwards the two scratch buffers at what the point before left in them, the other region's staging buffers at
    anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restS0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the scratch buffers at that point's contents. -/
theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restS0 (F := F) c) ∗ (∃ r, prngReg c r)) := rfl

/-- Before a point that is not the first: the scratch buffers at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restS0 (F := F) c) ∗ (∃ r, prngReg c r)) := by
  cases n with
  | zero => exact absurd rfl hz
  | succ n => rfl

/-! ## The pipeline's proof data -/

/-- The proof data of region 0 on core `c`: the arrays as the region finds them (`V`); after the body at point `t`
    each input's buffer at its block and the outputs' at `outsAt0`'s components; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]
theorem after0_9 (c : Dev nD) (t : Fin cfg0.N) : (dat0 V c).after 9 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
/-- The body at any point. The inputs' memrefs hold their blocks; the point's position says which case it is in; the
    invariant hands the body the two scratch buffers at what the point before left (at anything at the first point) and
    takes them back at this point's contents; the big output's buffer is taken at anything and handed back at the
    masked block; the two small outputs' are handed back as found off the last point and at the mean and the variance
    at it; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val = 0
  · have h1 : ¬t.val = 49 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [show (dat0 V c).leavesExact 7 t = owns (c : Thread nD τ) (ms0_7 t) fullShare ((dat0 V c).after 7 t) from by
      unfold Dat.leavesExact; rw [liveAt0_7 t], after0_7]
    rw [Dat.leavesExact_idle (dat0 V c) 8 t (idleAt0_8 t (fun h => h1 ((hcond0_1 t).mp h))) (noFlush0_8 t (fun h => h1 ((hcond0_1 t).mp h)))]
    rw [Dat.leavesExact_idle (dat0 V c) 9 t (idleAt0_9 t (fun h => h1 ((hcond0_1 t).mp h))) (noFlush0_9 t (fun h => h1 ((hcond0_1 t).mp h)))]
    rw [outsAt0_first V c t h0]
    unfold out0_first_7 sout0_first_0 sout0_first_1; (try dsimp only)
    rw [PhiS_castSucc V c t, PhiS_zero V c _ _ h0, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, ⟨%e7, H7⟩, H8, H9, ⟨%es0, HS0⟩, ⟨%es1, HS1⟩⟩
    isplitl [HS0 HS1 Hr Hg]
    · isplitr [Hg]
      · isplitl [HS0]
        · unfold owns; iexists _; isplitr
          swap; · iexact HS0
          ipureintro; exact View.read_writes_of_cover _ _ _ _ _ (scover0_first_0 V c t h0)
        isplitl [HS1]
        · unfold owns; iexists _; isplitr
          swap; · iexact HS1
          ipureintro; exact View.read_writes_of_cover _ _ _ _ _ (scover0_first_1 V c t h0)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_first_7 V c t h0)
    isplitl [H8]; · iexists _; iexact H8
    iexists _; iexact H9
  · by_cases h1 : t.val = 49
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [show (dat0 V c).leavesExact 9 t = owns (c : Thread nD τ) (ms0_9 t) fullShare ((dat0 V c).after 9 t) from by
        unfold Dat.leavesExact; rw [liveAt0_9 t ((hcond0_1 t).mpr h1)], after0_9]
      rw [outsAt0_last V c t h0 h1]
      unfold out0_last_7 out0_last_8 out0_last_9 sout0_last_0 sout0_last_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLast V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e7, H7⟩, ⟨%e8, H8⟩, ⟨%e9, H9⟩, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_last_0 V c t h0 h1 _ _)
          isplitl [HS1]
          · unfold owns; iexists _; isplitr
            swap; · iexact HS1
            ipureintro; exact View.read_writes_of_cover _ _ _ _ _ (scover0_last_1 V c t h0 h1 _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_last_7 V c t h0 h1 _ _)
      isplitl [H8]
      · unfold owns; iexists _; isplitr
        swap; · iexact H8
        ipureintro; exact View.read_writes_of_cover _ _ _ _ _ (cover0_last_8 V c t h0 h1 _ _)
      unfold owns; iexists _; isplitr
      swap; · iexact H9
      ipureintro; exact View.read_writes_of_cover _ _ _ _ _ (cover0_last_9 V c t h0 h1 _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8 t (fun h => h1 ((hcond0_1 t).mp h))) (noFlush0_8 t (fun h => h1 ((hcond0_1 t).mp h)))]
      rw [Dat.leavesExact_idle (dat0 V c) 9 t (idleAt0_9 t (fun h => h1 ((hcond0_1 t).mp h))) (noFlush0_9 t (fun h => h1 ((hcond0_1 t).mp h)))]
      rw [outsAt0_mid V c t h0 h1]
      unfold out0_mid_7 sout0_mid_0 sout0_mid_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runMid V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e7, H7⟩, H8, H9, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_mid_0 V c t h0 h1 _ _)
          isplitl [HS1]
          · unfold owns; iexists _; isplitr
            swap; · iexact HS1
            ipureintro; exact View.read_writes_of_cover _ _ _ _ _ (scover0_mid_1 V c t h0 h1 _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_mid_7 V c t h0 h1 _ _)
      isplitl [H8]; · iexists _; iexact H8
      iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the scratch buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitr [Hg]
  · isplitl [HS0]; · iexists _; iexact HS0
    isplitl [HS1]; · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.K.BnRegion.lean ====
/-
  Region 1 of @main, the BatchNorm-apply call, on one core: the body's half of the frame.

  At every grid point the body reads the five input staging buffers once each — a block x of 2000 rows and
  the four rows mean, var, gamma, beta —, forms

      gamma * (x - mean) * rsqrt (var + eps) + beta        (rows broadcast down the 2000 rows)

  and writes the result over the whole output staging buffer. Nothing is carried from point to point, so what
  the output buffer holds after the body is a closed function of the five input blocks at that point
  (bnBlock), and each input buffer still holds its block.

  Everything is stated at a parameter V, the buffers' contents when the region is entered. The row windows
  1..4 have a constant block index: the pipeline copies them in at the first point only, and at a later point
  the buffer still holds that same block because the body never writes it.
-/
import proofs.«167465_j80161269613387_1_alg».proof.Proof.Gen.Kernel.Launch
import proofs.«167465_j80161269613387_1_alg».proof.Proof.Gen.Kernel.Skeleton
import proofs.«167465_j80161269613387_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- The block of window w at grid point t, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two rectangles the body touches: all of a 2000 x 128 buffer, all of a 1 x 128 buffer -/

abbrev rBlk : Rect S2000x128 := Rect.unit (s := S2000x128) ![0, 0] S2000x128.size inb_S2000x128_S2000x128_0_0
abbrev rRow : Rect S1x128 := Rect.unit (s := S1x128) ![0, 0] S1x128.size inb_S1x128_S1x128_0_0

/-! ## What the body leaves in the output buffer -/

/-- The output staging buffer after the body, as a function of the five input blocks: the single store's payload
    laid over the buffer. -/
def bnBlock (x0 : Vec F S2000x128 .f32) (x1 x2 x3 x4 : Vec F S1x128 .f32) : Vec F S2000x128 .f32 :=
  View.canon [⟨rBlk, k1_pay1 (View.ld x0 rBlk) (View.ld x1 rRow) (View.ld x2 rRow) (View.ld x3 rRow) (View.ld x4 rRow)⟩]

/-- The store's rectangle is the whole buffer, so every index of the buffer lies under it. -/
theorem bn_cover (p : Vec F S2000x128 .f32) (y : S2000x128.Idx) :
    ∃ pc ∈ ([⟨rBlk, p⟩] : List (View.Piece (Elt F) S2000x128 .f32)), y ∈ pc.1.set :=
  View.cover_of_tiled [⟨rBlk, p⟩] S2000x128.size (by rfl) y

/-! ## The body as a triple over the staging buffers' contents -/

set_option maxHeartbeats 1000000 in
/-- On six whole staging memrefs — the five inputs reading x0 … x4, the output holding anything — the body runs
    to any continuation that accepts the inputs unchanged and the output at bnBlock of the inputs. The body is
    five loads, a load of the output's old contents whose value is dropped, and one store over the whole output. -/
theorem sound_kernel1 (c : Dev nD) (E : Set ℕ) (i : grid1.Coords)
    (a0 : Memref sig .tc .vmem S2000x128 .f32) (ha0 : a0.IsWhole) (a1 : Memref sig .tc .vmem S1x128 .f32) (ha1 : a1.IsWhole)
    (a2 : Memref sig .tc .vmem S1x128 .f32) (ha2 : a2.IsWhole) (a3 : Memref sig .tc .vmem S1x128 .f32) (ha3 : a3.IsWhole)
    (a4 : Memref sig .tc .vmem S1x128 .f32) (ha4 : a4.IsWhole) (a5 : Memref sig .tc .vmem S2000x128 .f32) (ha5 : a5.IsWhole)
    (x0 : Vec F S2000x128 .f32) (x1 x2 x3 x4 : Vec F S1x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (bnBlock x0 x1 x2 x3 x4)) -∗ K ⟨⟩))
      ⊢ wp frame (wpE (defs₀ (F := F)) Variants.none c none) E (cc1__kernel_b_body i a0 ha0 a1 ha1 a2 ha2 a3 ha3 a4 ha4 a5 ha5) K := by
  simp only [cc1__kernel_b_body_eq_skeleton]; unfold cc1__kernel_b_body_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (bn_cover _)

/-! ## The proof data of the pipeline on one core -/

/-- The arrays are as the region finds them. After the body at point t every input buffer holds its block and the
    output buffer holds bnBlock of the five input blocks. The invariant is the one of a body that keeps no state
    (the scoped rest and the generator register, untouched); full shares; nothing owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => bnBlock (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = bnBlock (iblk1 V c 0 t) (iblk1 V c 1 t) (iblk1 V c 2 t) (iblk1 V c 3 t) (iblk1 V c 4 t) := by
  dsimp only [dat1]

/-! ## What the body finds in each input buffer

An input window's buffer holds the window's block at every point. Where the pipeline copied it in at that point,
that is what the copy brought; where it did not (the row windows after the first point), the block index has not
moved since the previous point and the body left the buffer alone. None of the windows is cut by its array's
edge and none has an idle point, so the side conditions are immediate. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The body obligation at a grid point -/

/-- What the pipeline hands the body at point t: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it takes back: the same at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the five input buffers hold their blocks, so the body's triple applies at those blocks; the
    invariant and what the core owes are not touched and do not change with the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point: its product over the six windows written out. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Segments.lean ====
/-
  The two kernel regions as segments of the program, and the frame: the launch memory is carried through the five host
  stretches; region 0 (the dense maps, the mask and the running column statistics) is entered from there and leaves its
  three result arrays at what its write-backs fold to; region 1 (the normalisation) is entered from that and leaves the
  result array likewise. Between items each core holds every unscoped buffer at the contents named here, the generator
  register at some state, and owes nothing.
-/
import proofs.«167465_j80161269613387_1_alg».proof.Proof.K.StatsRegion
import proofs.«167465_j80161269613387_1_alg».proof.Proof.K.BnRegion
import proofs.«167465_j80161269613387_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- What region 0 is entered from: the launch memory after the five host stretches. -/
abbrev Vin0 : (c : Dev nD) → (b : Ref sig .tc) → Buf (Elt F) ((c : Thread nD τ).loc b) := fun c b => Gen.V5 m c b

/-- What region 0 leaves: its windows' arrays at what the write-backs fold to, every other buffer as entered. -/
def W6 (c : Dev nD) : Valuation τ sig (Elt F) :=
  Pipeline.withArrays spec0 c (Gen.V5 m c) fun w => (dat0 (Vin0 m) c).arrAt w cfg0.N

/-- The unknowns of the conditional frame, after region 0 only. -/
def outs6 : Gen.Outs (F := F) := fun _ r c => W6 m c (Proc.devRef .tc r)

/-- What region 1 is entered from. -/
abbrev Vin1 : (c : Dev nD) → (b : Ref sig .tc) → Buf (Elt F) ((c : Thread nD τ).loc b) := fun c b => Gen.V6 m (outs6 m) c b

/-- What region 1 leaves. -/
def W7 (c : Dev nD) : Valuation τ sig (Elt F) :=
  Pipeline.withArrays spec1 c (Gen.V6 m (outs6 m) c) fun w => (dat1 (Vin1 m) c).arrAt w cfg1.N

/-- The unknowns of the conditional frame: after region 0 its arrays' folds, after region 1 its arrays' folds. -/
def outs : Gen.Outs (F := F) := fun J r c => if J = 6 then W6 m c (Proc.devRef .tc r) else W7 m c (Proc.devRef .tc r)

theorem V6_outs (c : Dev nD) : Gen.V6 m (outs m) c = Gen.V6 m (outs6 m) c := rfl

theorem W6_arr (c : Dev nD) (w : Fin cfg0.W) :
    W6 m c (Proc.devRef .tc (Pipeline.arrRef spec0 w)) = (dat0 (Vin0 m) c).arrAt w cfg0.N := by
  unfold W6; exact Pipeline.withArrays_arr spec0 launch0.win.arr_inj c _ _ w
theorem W7_arr (c : Dev nD) (w : Fin cfg1.W) :
    W7 m c (Proc.devRef .tc (Pipeline.arrRef spec1 w)) = (dat1 (Vin1 m) c).arrAt w cfg1.N := by
  unfold W7; exact Pipeline.withArrays_arr spec1 launch1.win.arr_inj c _ _ w

/-! ## The valuations of the conditional frame read at the regions' arrays -/

theorem ne01 : (Proc.devRef .tc main_v31_0 : DevRef τ sig) ≠ Proc.devRef .tc main_v31_1 := StableHlo.devRef_ne_of_ne (by decide)
theorem ne02 : (Proc.devRef .tc main_v31_0 : DevRef τ sig) ≠ Proc.devRef .tc main_v31_2 := StableHlo.devRef_ne_of_ne (by decide)
theorem ne12 : (Proc.devRef .tc main_v31_1 : DevRef τ sig) ≠ Proc.devRef .tc main_v31_2 := StableHlo.devRef_ne_of_ne (by decide)

theorem V6_v31_0 (o : Gen.Outs (F := F)) (c : Dev nD) : Gen.V6 m o c main_v31_0 = o 6 main_v31_0 c := by
  simp only [Gen.V6, Function.update_of_ne ne02, Function.update_of_ne ne01, Function.update_self]
theorem V6_v31_1 (o : Gen.Outs (F := F)) (c : Dev nD) : Gen.V6 m o c main_v31_1 = o 6 main_v31_1 c := by
  simp only [Gen.V6, Function.update_of_ne ne12, Function.update_self]
theorem V6_v31_2 (o : Gen.Outs (F := F)) (c : Dev nD) : Gen.V6 m o c main_v31_2 = o 6 main_v31_2 c := by
  simp only [Gen.V6, Function.update_self]
theorem V7_v32 (o : Gen.Outs (F := F)) (c : Dev nD) : Gen.V7 m o c main_v32 = o 7 main_v32 c := by
  simp only [Gen.V7, Function.update_self]

/-- After region 0 each of its arrays holds what the pipeline leaves. -/
theorem hF0 (c : Dev nD) (w : Fin cfg0.W) :
    (dat0 (Vin0 m) c).arrAt w cfg0.N = Gen.V6 m (outs m) c (Proc.devRef .tc (Pipeline.arrRef spec0 w)) := by
  have hin : ∀ w' : Fin cfg0.W, (cfg0.win w').isOut = false →
      Pipeline.arrRef spec0 w' ∉ ([main_v31_0, main_v31_1, main_v31_2] : List (Ref sig .tc)) →
      (dat0 (Vin0 m) c).arrAt w' cfg0.N = Gen.V6 m (outs m) c (Proc.devRef .tc (Pipeline.arrRef spec0 w')) := by
    intro w' hw hnot
    rw [(dat0 (Vin0 m) c).arrAt_in w' hw, A_eq0]
    exact (Gen.V6_of m (outs m) c _ hnot).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact ((V6_v31_0 m (outs m) c).trans (W6_arr m c 7)).symm
  | ⟨8, _⟩ => exact ((V6_v31_1 m (outs m) c).trans (W6_arr m c 8)).symm
  | ⟨9, _⟩ => exact ((V6_v31_2 m (outs m) c).trans (W6_arr m c 9)).symm

/-- Every other buffer is as region 0 found it. -/
theorem hrest0 (c : Dev nD) : ∀ b : Ref sig .tc, b ∉ Finset.univ.image (Pipeline.arrRef spec0) →
    Gen.V6 m (outs m) c (Proc.devRef .tc b) = Gen.V5 m c (Proc.devRef .tc b) := fun b hb =>
  Gen.V6_of m (outs m) c b (by
    intro hmem
    simp only [List.mem_cons, List.mem_nil_iff, or_false] at hmem
    rcases hmem with rfl | rfl | rfl
    · exact hb (Finset.mem_image.mpr ⟨7, Finset.mem_univ _, rfl⟩)
    · exact hb (Finset.mem_image.mpr ⟨8, Finset.mem_univ _, rfl⟩)
    · exact hb (Finset.mem_image.mpr ⟨9, Finset.mem_univ _, rfl⟩))

/-- After region 1 each of its arrays holds what the pipeline leaves. -/
theorem hF1 (c : Dev nD) (w : Fin cfg1.W) :
    (dat1 (Vin1 m) c).arrAt w cfg1.N = Gen.V7 m (outs m) c (Proc.devRef .tc (Pipeline.arrRef spec1 w)) := by
  have hin : ∀ w' : Fin cfg1.W, (cfg1.win w').isOut = false →
      Pipeline.arrRef spec1 w' ∉ ([main_v32] : List (Ref sig .tc)) →
      (dat1 (Vin1 m) c).arrAt w' cfg1.N = Gen.V7 m (outs m) c (Proc.devRef .tc (Pipeline.arrRef spec1 w')) := by
    intro w' hw hnot
    rw [(dat1 (Vin1 m) c).arrAt_in w' hw, A_eq1]
    exact (Gen.V7_of m (outs m) c _ hnot).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact ((V7_v32 m (outs m) c).trans (W7_arr m c 5)).symm

theorem hrest1 (c : Dev nD) : ∀ b : Ref sig .tc, b ∉ Finset.univ.image (Pipeline.arrRef spec1) →
    Gen.V7 m (outs m) c (Proc.devRef .tc b) = Gen.V6 m (outs m) c (Proc.devRef .tc b) := fun b hb =>
  Gen.V7_of m (outs m) c b (by
    intro hmem
    simp only [List.mem_cons, List.mem_nil_iff, or_false] at hmem
    rcases hmem with rfl
    exact hb (Finset.mem_image.mpr ⟨5, Finset.mem_univ _, rfl⟩))

/-! ## The proof data family and what rides beside the buffers -/

/-- No pallas_call has a prefetched table. -/
abbrev adm : (p : Fin 2) → (pcfgs (F := F) p).Adm := Gen.adm
/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered from the buffers after the host stretches, left with its three result arrays at what the write-backs
    fold to. The generator register goes into the kernel's invariant and comes back; the two carried scratch buffers
    are part of the scoped rest at both ends. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (Vin0 m) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (Vin0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => Gen.V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from what region 0 left, left with its result array at what the write-backs fold to. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V6 m (outs m) c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V6 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => Gen.V6 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Gen.V6 m (outs m) c b) (fun b => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost element is the pipeline library's own; no core keeps a ghost resource. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, less its buffers, makes the generator register at some state and nothing owed. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- Every weakly fair execution of @main terminates, faults nowhere, and leaves each argument array as launched: the
    conditional frame over the two regions' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () 𝒱₀ L lv (fun _ _ => rfl) ρ (outs m) (pdats m) (0 : Dev nD → CellTallies nD τ sig Unit)
    (fun _ => (BI.emp : sProp 𝕄)) (initOf (Pipeline.cells cfgs cellOf_inj) (Pipeline.launchToks cfgs cellOf_inj)) hu₀
    (fun _ c => R c) (hE0 ρ) (fun c => by iintro ⟨-, HO⟩; iexact HO)
    (reg0 m) (fun _ => .rfl) (fun _ => .rfl) (reg1 m) (fun _ => .rfl) (fun _ => .rfl)

end Cert.Kernel.Hand
end
-- ==== Proof.KI.StatsKit.lean ====
/-
  Region 0 (the statistics kernel: both matrix products, the mask, the running column sums and sums of
  squares, and at the last grid point the mean and the variance) — what its three whole-body runs share:
  the windows' blocks read off the arrays as the region finds them, the two branch conditions of the body
  decided over the fifty grid points, where the two small outputs are idle, the staging and scratch
  memrefs, and the region invariant with the two scratch buffers owned as memrefs.
-/
import proofs.«167465_j80161269613387_1_alg».proof.Proof.Gen.KernelIdeal.Launch
import proofs.«167465_j80161269613387_1_alg».proof.Proof.Gen.KernelIdeal.Skeleton
import proofs.«167465_j80161269613387_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: an unfetched input's block index has not
    moved, so the buffer still holds the block of the point before, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: an unfetched input's block index has not
    moved, so the buffer still holds the block of the point before, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: an unfetched input's block index has not
    moved, so the buffer still holds the block of the point before, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: an unfetched input's block index has not
    moved, so the buffer still holds the block of the point before, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: an unfetched input's block index has not
    moved, so the buffer still holds the block of the point before, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: an unfetched input's block index has not
    moved, so the buffer still holds the block of the point before, which is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s and whose body leaves the block in place: an unfetched input's block index has not
    moved, so the buffer still holds the block of the point before, which is this point's. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The condition of the body's first conditional (the zeroing of the two running sums), from the grid coordinate. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the mean and the variance written out), from the grid coordinate. -/
abbrev cond0_1 (i : grid0.Coords) : Prop := k0_cond2 i = 1#1
/-- It holds at the last point only — decided over the grid. -/
theorem hcond0_1 : ∀ t : Fin cfg0.N, cond0_1 (grid0.coords t) ↔ t.val = 49 :=
  (by decide +kernel : ∀ t : Fin grid0.N, cond0_1 (grid0.coords t) ↔ t.val = 49)

/-! ## Where the windows are idle -/

/-- Window 0 is never idle. -/
theorem liveAt0_0 : ∀ t : Fin cfg0.N, cfg0.idle 0 (grid0.coords t) = false := by decide +kernel
/-- Window 1 is never idle. -/
theorem liveAt0_1 : ∀ t : Fin cfg0.N, cfg0.idle 1 (grid0.coords t) = false := by decide +kernel
/-- Window 2 is never idle. -/
theorem liveAt0_2 : ∀ t : Fin cfg0.N, cfg0.idle 2 (grid0.coords t) = false := by decide +kernel
/-- Window 3 is never idle. -/
theorem liveAt0_3 : ∀ t : Fin cfg0.N, cfg0.idle 3 (grid0.coords t) = false := by decide +kernel
/-- Window 4 is never idle. -/
theorem liveAt0_4 : ∀ t : Fin cfg0.N, cfg0.idle 4 (grid0.coords t) = false := by decide +kernel
/-- Window 5 is never idle. -/
theorem liveAt0_5 : ∀ t : Fin cfg0.N, cfg0.idle 5 (grid0.coords t) = false := by decide +kernel
/-- Window 6 is never idle. -/
theorem liveAt0_6 : ∀ t : Fin cfg0.N, cfg0.idle 6 (grid0.coords t) = false := by decide +kernel
/-- Window 7 is never idle. -/
theorem liveAt0_7 : ∀ t : Fin cfg0.N, cfg0.idle 7 (grid0.coords t) = false := by decide +kernel
/-- Off the last point output 8 is idle: the body stores nothing into it there, -/
theorem idleAt0_8 : ∀ t : Fin cfg0.N, ¬cond0_1 (grid0.coords t) → cfg0.idle 8 (grid0.coords t) = true :=
  (by decide +kernel : ∀ t : Fin grid0.N, ¬cond0_1 (grid0.coords t) → idle0 8 (grid0.coords t) = true)
/-- and the pipeline does not write its block back there. -/
theorem noFlush0_8 : ∀ t : Fin cfg0.N, ¬cond0_1 (grid0.coords t) → (cfg0.win 8).flush t = false :=
  (by decide +kernel : ∀ t : Fin grid0.N, ¬cond0_1 (grid0.coords t) → win0_8.flush t = false)
/-- At the last point output 8 is live: the body stores into it. -/
theorem liveAt0_8 : ∀ t : Fin cfg0.N, cond0_1 (grid0.coords t) → cfg0.idle 8 (grid0.coords t) = false :=
  (by decide +kernel : ∀ t : Fin grid0.N, cond0_1 (grid0.coords t) → idle0 8 (grid0.coords t) = false)
/-- Off the last point output 9 is idle: the body stores nothing into it there, -/
theorem idleAt0_9 : ∀ t : Fin cfg0.N, ¬cond0_1 (grid0.coords t) → cfg0.idle 9 (grid0.coords t) = true :=
  (by decide +kernel : ∀ t : Fin grid0.N, ¬cond0_1 (grid0.coords t) → idle0 9 (grid0.coords t) = true)
/-- and the pipeline does not write its block back there. -/
theorem noFlush0_9 : ∀ t : Fin cfg0.N, ¬cond0_1 (grid0.coords t) → (cfg0.win 9).flush t = false :=
  (by decide +kernel : ∀ t : Fin grid0.N, ¬cond0_1 (grid0.coords t) → win0_9.flush t = false)
/-- At the last point output 9 is live: the body stores into it. -/
theorem liveAt0_9 : ∀ t : Fin cfg0.N, cond0_1 (grid0.coords t) → cfg0.idle 9 (grid0.coords t) = false :=
  (by decide +kernel : ∀ t : Fin grid0.N, cond0_1 (grid0.coords t) → idle0 9 (grid0.coords t) = false)

/-! ## The staging and scratch memrefs -/

/-- Window 0's current staging memref at point `t`, as the pipeline passes it, and its wholeness. -/
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
/-- Window 1's current staging memref at point `t`, as the pipeline passes it, and its wholeness. -/
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
/-- Window 2's current staging memref at point `t`, as the pipeline passes it, and its wholeness. -/
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
/-- Window 3's current staging memref at point `t`, as the pipeline passes it, and its wholeness. -/
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
/-- Window 4's current staging memref at point `t`, as the pipeline passes it, and its wholeness. -/
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
/-- Window 5's current staging memref at point `t`, as the pipeline passes it, and its wholeness. -/
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- Window 6's current staging memref at point `t`, as the pipeline passes it, and its wholeness. -/
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
/-- Window 7's current staging memref at point `t`, as the pipeline passes it, and its wholeness. -/
abbrev ms0_7 (t : Fin cfg0.N) : Memref sig .tc .vmem S2000x128 .f32 := win0_7.stage (cfg0.slots t 7)
abbrev hs0_7 (t : Fin cfg0.N) : (ms0_7 t).IsWhole := hstage0_7 ((cfg0.slots t 7).cast nbuf0_7)
/-- Window 8's current staging memref at point `t`, as the pipeline passes it, and its wholeness. -/
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- Window 9's current staging memref at point `t`, as the pipeline passes it, and its wholeness. -/
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
/-- One staging buffer of each output window, through which its contents are stated (the choice does not matter). -/
abbrev VO0_7 : View sig .tc .vmem S2000x128 .f32 := (Memref.whole cc0_stg7_0 : Memref sig .tc .vmem S2000x128 .f32).view
abbrev VO0_8 : View sig .tc .vmem S1x128 .f32 := (Memref.whole cc0_stg8_0 : Memref sig .tc .vmem S1x128 .f32).view
abbrev VO0_9 : View sig .tc .vmem S1x128 .f32 := (Memref.whole cc0_stg9_0 : Memref sig .tc .vmem S1x128 .f32).view
/-- The two scratch operands (the running column sums, the running column sums of squares): whole scoped buffers of
    the kernel's own, passed beside the windows and carried from point to point. -/
abbrev scM0_0 : Memref sig .tc .vmem S1x128 .f32 := Memref.whole cc0_scratch0
abbrev scM0_1 : Memref sig .tc .vmem S1x128 .f32 := Memref.whole cc0_scratch1
/-- The same as views: what they hold is stated through these. -/
abbrev VS0_0 : View sig .tc .vmem S1x128 .f32 := scM0_0.view
abbrev VS0_1 : View sig .tc .vmem S1x128 .f32 := scM0_1.view

/-- The scoped buffers of the core that are neither this region's staging buffers nor its scratch — the other
    region's eight staging buffers —, each whole at some contents: this region never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region invariant as the launch states it, with the two scratch operands as memrefs owned at some contents:
    what the body is handed before the first point and what the region gives back at its end. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 (F := F) c) ∗ (∃ r, prngReg c r)) := by
  unfold Pipeline.ΦA restS0; rw [scopedRest0_eq]; simp only [scM0_0, scM0_1, owns_whole]; try rfl

end Cert.KernelIdeal.Hand

end
-- ==== Proof.KI.StatsRunFirst.lean ====
/-
  Region 0's body run whole at the first grid point: the two running sums are zeroed, then this block's column
  sum and column sum of squares are added to them and the block itself is stored to the big output.
-/
import proofs.«167465_j80161269613387_1_alg».proof.Proof.KI.StatsKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the FIRST grid point (the zeroing conditional taken, the closing one not). On whole memrefs — the seven
    inputs' at their contents `x·`, the big output's at anything, the two small outputs' (idle here) at contents
    `xi·` handed back untouched, the two scratch buffers at anything — the body runs to the continuation holding the
    inputs as they were, the big output's and the two scratch buffers with their pieces written. The pieces are the
    witness the run finds: each scratch is zeroed, read back and overwritten with the zero plus this block's column sum
    (sum of squares), so it ends with two pieces. -/
noncomputable def kernelRun0_first (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) :
    Σ' (L7 : List (View.Piece (Elt F) S2000x128 .f32)) (LS0 : List (View.Piece (Elt F) S1x128 .f32)), { LS1 : List (View.Piece (Elt F) S1x128 .f32) //
      ∀ (xi8 : Vec F S1x128 .f32) (xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__kernel_a_body i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

end Cert.KernelIdeal.Hand

end
-- ==== Proof.KI.StatsRunMid.lean ====
/-
  Region 0's body run whole at a middle grid point: this block's column sum and column sum of squares are added
  to the running sums the point before left, and the block itself is stored to the big output.
-/
import proofs.«167465_j80161269613387_1_alg».proof.Proof.KI.StatsRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at a MIDDLE grid point (neither conditional taken). On whole memrefs — the seven inputs' at their contents
    `x·`, the big output's at anything, the two small outputs' (idle here) at contents `xi·` handed back untouched,
    the two scratch buffers at what the point before left (`xs·`) — the body runs to the continuation holding the
    inputs as they were, the big output's and the two scratch buffers with their pieces written: each scratch one
    piece, what it held plus this block's column sum (sum of squares). -/
noncomputable def kernelRun0_mid (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i)
    (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    Σ' (L7 : List (View.Piece (Elt F) S2000x128 .f32)) (LS0 : List (View.Piece (Elt F) S1x128 .f32)), { LS1 : List (View.Piece (Elt F) S1x128 .f32) //
      ∀ (xi8 : Vec F S1x128 .f32) (xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__kernel_a_body i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

end Cert.KernelIdeal.Hand

end
-- ==== Proof.KI.StatsRunLast.lean ====
/-
  Region 0's body run whole at the last grid point: as at a middle point, and then the mean and the variance are
  computed from the two running sums and stored to the two small outputs.
-/
import proofs.«167465_j80161269613387_1_alg».proof.Proof.KI.StatsRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body at the LAST grid point (the zeroing conditional not taken, the closing one taken). On whole memrefs — the
    seven inputs' at their contents `x·`, the three outputs' at anything, the two scratch buffers at what the point
    before left (`xs·`) — the body runs to the continuation holding the inputs as they were and every output's and
    both scratch buffers with their pieces written: the big output its block, the scratch buffers the running sums
    through this block, the two small outputs the mean and the variance computed from those sums. -/
noncomputable def kernelRun0_last (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    Σ' (L7 : List (View.Piece (Elt F) S2000x128 .f32)) (L8 : List (View.Piece (Elt F) S1x128 .f32)) (L9 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__kernel_a_body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__kernel_a_body_eq_skeleton]; unfold cc0__kernel_a_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]; · iexists _; iexact HS0
    iexists _; iexact HS1

end Cert.KernelIdeal.Hand

end
-- ==== Proof.KI.StatsRegion.lean ====
/-
  Region 0 (the statistics kernel) as a pipeline region: what its outputs and its two carried scratch buffers
  hold after each grid point, the proof data over them, the body obligation at every point, and the region
  invariant's entry and exit.

  The grid has fifty points and the body three control cases. At the first point the two running sums are
  zeroed and then take this block's column sum and column sum of squares; at every later point they take what
  the point before left plus this block's; at the last point, after that, the mean and the variance are
  computed from them and stored to the two small outputs. The big output takes the masked block at every
  point. The two small outputs are idle off the last point: their staging buffers are handed back as found.
-/
import proofs.«167465_j80161269613387_1_alg».proof.Proof.KI.StatsRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point's own memrefs and blocks -/

/-- The first case's run at point `t` (the first point), on the point's staging memrefs, the two scratch memrefs and
    the seven input blocks there. -/
def runFirst (c : Dev nD) (t : Fin cfg0.N) (h0 : t.val = 0) :=
  kernelRun0_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
    ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t)

/-- The middle case's run at point `t` (neither first nor last), the scratch buffers at `xs0`, `xs1`. -/
def runMid (c : Dev nD) (t : Fin cfg0.N) (h0 : t.val ≠ 0) (h1 : t.val ≠ 49) (xs0 xs1 : Vec F S1x128 .f32) :=
  kernelRun0_mid (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs0 xs1

/-- The last case's run at point `t` (the last point), the scratch buffers at `xs0`, `xs1`. -/
def runLast (c : Dev nD) (t : Fin cfg0.N) (h0 : t.val ≠ 0) (h1 : t.val = 49) (xs0 xs1 : Vec F S1x128 .f32) :=
  kernelRun0_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0 xs1

/-! ## What each case leaves: covers and contents -/

/-- The first case's pieces for the big output tile its block (one whole store), so they cover it. -/
theorem cover0_first_7 (c : Dev nD) (t : Fin cfg0.N) (h0 : t.val = 0) (y : S2000x128.Idx) : ∃ pc ∈ (runFirst V c t h0).1, y ∈ pc.1.set :=
  View.cover_of_tiledL (runFirst V c t h0).1 S2000x128.size (by sl_kernel_rfl) y
/-- What the first case leaves in the big output's staging buffer: its pieces read back over junk. -/
def out0_first_7 (c : Dev nD) (t : Fin cfg0.N) (h0 : t.val = 0) : Vec F S2000x128 .f32 :=
  VO0_7.read (Elt F) (VO0_7.writes (Elt F) VO0_7.junk (runFirst V c t h0).1)
/-- The first case's pieces for scratch 0 cover it (whole stores). -/
theorem scover0_first_0 (c : Dev nD) (t : Fin cfg0.N) (h0 : t.val = 0) (y : S1x128.Idx) : ∃ pc ∈ (runFirst V c t h0).2.1, y ∈ pc.1.set :=
  View.cover_of_tiledL (runFirst V c t h0).2.1 S1x128.size (by sl_kernel_rfl) y
/-- What the first case leaves in scratch 0: its pieces read back over junk. -/
def sout0_first_0 (c : Dev nD) (t : Fin cfg0.N) (h0 : t.val = 0) : Vec F S1x128 .f32 :=
  VS0_0.read (Elt F) (VS0_0.writes (Elt F) VS0_0.junk (runFirst V c t h0).2.1)
/-- The first case's pieces for scratch 1 cover it (whole stores). -/
theorem scover0_first_1 (c : Dev nD) (t : Fin cfg0.N) (h0 : t.val = 0) (y : S1x128.Idx) : ∃ pc ∈ (runFirst V c t h0).2.2.1, y ∈ pc.1.set :=
  View.cover_of_tiledL (runFirst V c t h0).2.2.1 S1x128.size (by sl_kernel_rfl) y
/-- What the first case leaves in scratch 1: its pieces read back over junk. -/
def sout0_first_1 (c : Dev nD) (t : Fin cfg0.N) (h0 : t.val = 0) : Vec F S1x128 .f32 :=
  VS0_1.read (Elt F) (VS0_1.writes (Elt F) VS0_1.junk (runFirst V c t h0).2.2.1)

/-- The middle case's pieces for the big output tile its block (one whole store), so they cover it. -/
theorem cover0_mid_7 (c : Dev nD) (t : Fin cfg0.N) (h0 : t.val ≠ 0) (h1 : t.val ≠ 49) (xs0 xs1 : Vec F S1x128 .f32) (y : S2000x128.Idx) : ∃ pc ∈ (runMid V c t h0 h1 xs0 xs1).1, y ∈ pc.1.set :=
  View.cover_of_tiledL (runMid V c t h0 h1 xs0 xs1).1 S2000x128.size (by sl_kernel_rfl) y
/-- What the middle case leaves in the big output's staging buffer: its pieces read back over junk. -/
def out0_mid_7 (c : Dev nD) (t : Fin cfg0.N) (h0 : t.val ≠ 0) (h1 : t.val ≠ 49) (xs0 xs1 : Vec F S1x128 .f32) : Vec F S2000x128 .f32 :=
  VO0_7.read (Elt F) (VO0_7.writes (Elt F) VO0_7.junk (runMid V c t h0 h1 xs0 xs1).1)
/-- The middle case's pieces for scratch 0 cover it (whole stores). -/
theorem scover0_mid_0 (c : Dev nD) (t : Fin cfg0.N) (h0 : t.val ≠ 0) (h1 : t.val ≠ 49) (xs0 xs1 : Vec F S1x128 .f32) (y : S1x128.Idx) : ∃ pc ∈ (runMid V c t h0 h1 xs0 xs1).2.1, y ∈ pc.1.set :=
  View.cover_of_tiledL (runMid V c t h0 h1 xs0 xs1).2.1 S1x128.size (by sl_kernel_rfl) y
/-- What the middle case leaves in scratch 0: its pieces read back over junk. -/
def sout0_mid_0 (c : Dev nD) (t : Fin cfg0.N) (h0 : t.val ≠ 0) (h1 : t.val ≠ 49) (xs0 xs1 : Vec F S1x128 .f32) : Vec F S1x128 .f32 :=
  VS0_0.read (Elt F) (VS0_0.writes (Elt F) VS0_0.junk (runMid V c t h0 h1 xs0 xs1).2.1)
/-- The middle case's pieces for scratch 1 cover it (whole stores). -/
theorem scover0_mid_1 (c : Dev nD) (t : Fin cfg0.N) (h0 : t.val ≠ 0) (h1 : t.val ≠ 49) (xs0 xs1 : Vec F S1x128 .f32) (y : S1x128.Idx) : ∃ pc ∈ (runMid V c t h0 h1 xs0 xs1).2.2.1, y ∈ pc.1.set :=
  View.cover_of_tiledL (runMid V c t h0 h1 xs0 xs1).2.2.1 S1x128.size (by sl_kernel_rfl) y
/-- What the middle case leaves in scratch 1: its pieces read back over junk. -/
def sout0_mid_1 (c : Dev nD) (t : Fin cfg0.N) (h0 : t.val ≠ 0) (h1 : t.val ≠ 49) (xs0 xs1 : Vec F S1x128 .f32) : Vec F S1x128 .f32 :=
  VS0_1.read (Elt F) (VS0_1.writes (Elt F) VS0_1.junk (runMid V c t h0 h1 xs0 xs1).2.2.1)

/-- The last case's pieces for the big output tile its block (one whole store), so they cover it. -/
theorem cover0_last_7 (c : Dev nD) (t : Fin cfg0.N) (h0 : t.val ≠ 0) (h1 : t.val = 49) (xs0 xs1 : Vec F S1x128 .f32) (y : S2000x128.Idx) : ∃ pc ∈ (runLast V c t h0 h1 xs0 xs1).1, y ∈ pc.1.set :=
  View.cover_of_tiledL (runLast V c t h0 h1 xs0 xs1).1 S2000x128.size (by sl_kernel_rfl) y
/-- What the last case leaves in the big output's staging buffer: its pieces read back over junk. -/
def out0_last_7 (c : Dev nD) (t : Fin cfg0.N) (h0 : t.val ≠ 0) (h1 : t.val = 49) (xs0 xs1 : Vec F S1x128 .f32) : Vec F S2000x128 .f32 :=
  VO0_7.read (Elt F) (VO0_7.writes (Elt F) VO0_7.junk (runLast V c t h0 h1 xs0 xs1).1)
/-- The last case's pieces for output 8 tile its block (one whole store), so they cover it. -/
theorem cover0_last_8 (c : Dev nD) (t : Fin cfg0.N) (h0 : t.val ≠ 0) (h1 : t.val = 49) (xs0 xs1 : Vec F S1x128 .f32) (y : S1x128.Idx) : ∃ pc ∈ (runLast V c t h0 h1 xs0 xs1).2.1, y ∈ pc.1.set :=
  View.cover_of_tiledL (runLast V c t h0 h1 xs0 xs1).2.1 S1x128.size (by sl_kernel_rfl) y
/-- What the last case leaves in output 8's staging buffer: its pieces read back over junk. -/
def out0_last_8 (c : Dev nD) (t : Fin cfg0.N) (h0 : t.val ≠ 0) (h1 : t.val = 49) (xs0 xs1 : Vec F S1x128 .f32) : Vec F S1x128 .f32 :=
  VO0_8.read (Elt F) (VO0_8.writes (Elt F) VO0_8.junk (runLast V c t h0 h1 xs0 xs1).2.1)
/-- The last case's pieces for output 9 tile its block (one whole store), so they cover it. -/
theorem cover0_last_9 (c : Dev nD) (t : Fin cfg0.N) (h0 : t.val ≠ 0) (h1 : t.val = 49) (xs0 xs1 : Vec F S1x128 .f32) (y : S1x128.Idx) : ∃ pc ∈ (runLast V c t h0 h1 xs0 xs1).2.2.1, y ∈ pc.1.set :=
  View.cover_of_tiledL (runLast V c t h0 h1 xs0 xs1).2.2.1 S1x128.size (by sl_kernel_rfl) y
/-- What the last case leaves in output 9's staging buffer: its pieces read back over junk. -/
def out0_last_9 (c : Dev nD) (t : Fin cfg0.N) (h0 : t.val ≠ 0) (h1 : t.val = 49) (xs0 xs1 : Vec F S1x128 .f32) : Vec F S1x128 .f32 :=
  VO0_9.read (Elt F) (VO0_9.writes (Elt F) VO0_9.junk (runLast V c t h0 h1 xs0 xs1).2.2.1)
/-- The last case's pieces for scratch 0 cover it (whole stores). -/
theorem scover0_last_0 (c : Dev nD) (t : Fin cfg0.N) (h0 : t.val ≠ 0) (h1 : t.val = 49) (xs0 xs1 : Vec F S1x128 .f32) (y : S1x128.Idx) : ∃ pc ∈ (runLast V c t h0 h1 xs0 xs1).2.2.2.1, y ∈ pc.1.set :=
  View.cover_of_tiledL (runLast V c t h0 h1 xs0 xs1).2.2.2.1 S1x128.size (by sl_kernel_rfl) y
/-- What the last case leaves in scratch 0: its pieces read back over junk. -/
def sout0_last_0 (c : Dev nD) (t : Fin cfg0.N) (h0 : t.val ≠ 0) (h1 : t.val = 49) (xs0 xs1 : Vec F S1x128 .f32) : Vec F S1x128 .f32 :=
  VS0_0.read (Elt F) (VS0_0.writes (Elt F) VS0_0.junk (runLast V c t h0 h1 xs0 xs1).2.2.2.1)
/-- The last case's pieces for scratch 1 cover it (whole stores). -/
theorem scover0_last_1 (c : Dev nD) (t : Fin cfg0.N) (h0 : t.val ≠ 0) (h1 : t.val = 49) (xs0 xs1 : Vec F S1x128 .f32) (y : S1x128.Idx) : ∃ pc ∈ (runLast V c t h0 h1 xs0 xs1).2.2.2.2.1, y ∈ pc.1.set :=
  View.cover_of_tiledL (runLast V c t h0 h1 xs0 xs1).2.2.2.2.1 S1x128.size (by sl_kernel_rfl) y
/-- What the last case leaves in scratch 1: its pieces read back over junk. -/
def sout0_last_1 (c : Dev nD) (t : Fin cfg0.N) (h0 : t.val ≠ 0) (h1 : t.val = 49) (xs0 xs1 : Vec F S1x128 .f32) : Vec F S1x128 .f32 :=
  VS0_1.read (Elt F) (VS0_1.writes (Elt F) VS0_1.junk (runLast V c t h0 h1 xs0 xs1).2.2.2.2.1)

/-- At a point where a small output is idle nothing consults what is recorded for it (the window is neither written
    back there nor read at the next point): a placeholder. -/
def idleOut0_8 : Vec F S1x128 .f32 := VO0_8.read (Elt F) VO0_8.junk
def idleOut0_9 : Vec F S1x128 .f32 := VO0_9.read (Elt F) VO0_9.junk

/-! ## What the outputs and the scratch buffers hold after each point -/

/-- The accumulation. After the body at position `n`: the big output's staging buffer, the two small outputs', then the
    two scratch buffers (running column sums, running column sums of squares) — the case position `n` is in, run at
    the point's memrefs and input blocks, the scratch buffers at what this leaves at `n - 1`. -/
def outsAt0 (c : Dev nD) : (n : ℕ) → n < cfg0.N → Vec F S2000x128 .f32 × Vec F S1x128 .f32 × Vec F S1x128 .f32 × Vec F S1x128 .f32 × Vec F S1x128 .f32
  | 0, hn => (out0_first_7 V c ⟨0, hn⟩ rfl, idleOut0_8, idleOut0_9, sout0_first_0 V c ⟨0, hn⟩ rfl, sout0_first_1 V c ⟨0, hn⟩ rfl)
  | n + 1, hn =>
    if h1 : n + 1 = 49 then
      (out0_last_7 V c ⟨n + 1, hn⟩ (Nat.succ_ne_zero n) h1 (outsAt0 c n (Nat.lt_of_succ_lt hn)).2.2.2.1 (outsAt0 c n (Nat.lt_of_succ_lt hn)).2.2.2.2,
       out0_last_8 V c ⟨n + 1, hn⟩ (Nat.succ_ne_zero n) h1 (outsAt0 c n (Nat.lt_of_succ_lt hn)).2.2.2.1 (outsAt0 c n (Nat.lt_of_succ_lt hn)).2.2.2.2,
       out0_last_9 V c ⟨n + 1, hn⟩ (Nat.succ_ne_zero n) h1 (outsAt0 c n (Nat.lt_of_succ_lt hn)).2.2.2.1 (outsAt0 c n (Nat.lt_of_succ_lt hn)).2.2.2.2,
       sout0_last_0 V c ⟨n + 1, hn⟩ (Nat.succ_ne_zero n) h1 (outsAt0 c n (Nat.lt_of_succ_lt hn)).2.2.2.1 (outsAt0 c n (Nat.lt_of_succ_lt hn)).2.2.2.2,
       sout0_last_1 V c ⟨n + 1, hn⟩ (Nat.succ_ne_zero n) h1 (outsAt0 c n (Nat.lt_of_succ_lt hn)).2.2.2.1 (outsAt0 c n (Nat.lt_of_succ_lt hn)).2.2.2.2)
    else
      (out0_mid_7 V c ⟨n + 1, hn⟩ (Nat.succ_ne_zero n) h1 (outsAt0 c n (Nat.lt_of_succ_lt hn)).2.2.2.1 (outsAt0 c n (Nat.lt_of_succ_lt hn)).2.2.2.2,
       idleOut0_8, idleOut0_9,
       sout0_mid_0 V c ⟨n + 1, hn⟩ (Nat.succ_ne_zero n) h1 (outsAt0 c n (Nat.lt_of_succ_lt hn)).2.2.2.1 (outsAt0 c n (Nat.lt_of_succ_lt hn)).2.2.2.2,
       sout0_mid_1 V c ⟨n + 1, hn⟩ (Nat.succ_ne_zero n) h1 (outsAt0 c n (Nat.lt_of_succ_lt hn)).2.2.2.1 (outsAt0 c n (Nat.lt_of_succ_lt hn)).2.2.2.2)

/-- The point before `t`, as a position below the grid's size. -/
theorem pred_lt (t : Fin cfg0.N) : t.val - 1 < cfg0.N := Nat.lt_of_le_of_lt (Nat.sub_le _ _) t.isLt

/-- `outsAt0` at the first point: the first case's contents. -/
theorem outsAt0_first (c : Dev nD) (t : Fin cfg0.N) (h0 : t.val = 0) :
    outsAt0 V c t.val t.isLt = (out0_first_7 V c t h0, idleOut0_8, idleOut0_9, sout0_first_0 V c t h0, sout0_first_1 V c t h0) := by
  obtain ⟨n, hn⟩ := t
  cases n with
  | zero => rfl
  | succ n => exact absurd h0 (Nat.succ_ne_zero n)

/-- `outsAt0` at a middle point: the middle case's contents, over what the point before left in the scratch buffers. -/
theorem outsAt0_mid (c : Dev nD) (t : Fin cfg0.N) (h0 : t.val ≠ 0) (h1 : t.val ≠ 49) :
    outsAt0 V c t.val t.isLt =
      (out0_mid_7 V c t h0 h1 (outsAt0 V c (t.val - 1) (pred_lt t)).2.2.2.1 (outsAt0 V c (t.val - 1) (pred_lt t)).2.2.2.2,
       idleOut0_8, idleOut0_9,
       sout0_mid_0 V c t h0 h1 (outsAt0 V c (t.val - 1) (pred_lt t)).2.2.2.1 (outsAt0 V c (t.val - 1) (pred_lt t)).2.2.2.2,
       sout0_mid_1 V c t h0 h1 (outsAt0 V c (t.val - 1) (pred_lt t)).2.2.2.1 (outsAt0 V c (t.val - 1) (pred_lt t)).2.2.2.2) := by
  obtain ⟨n, hn⟩ := t
  cases n with
  | zero => exact absurd rfl h0
  | succ n => exact (dif_neg h1).trans rfl

/-- `outsAt0` at the last point: the last case's contents, over what the point before left in the scratch buffers. -/
theorem outsAt0_last (c : Dev nD) (t : Fin cfg0.N) (h0 : t.val ≠ 0) (h1 : t.val = 49) :
    outsAt0 V c t.val t.isLt =
      (out0_last_7 V c t h0 h1 (outsAt0 V c (t.val - 1) (pred_lt t)).2.2.2.1 (outsAt0 V c (t.val - 1) (pred_lt t)).2.2.2.2,
       out0_last_8 V c t h0 h1 (outsAt0 V c (t.val - 1) (pred_lt t)).2.2.2.1 (outsAt0 V c (t.val - 1) (pred_lt t)).2.2.2.2,
       out0_last_9 V c t h0 h1 (outsAt0 V c (t.val - 1) (pred_lt t)).2.2.2.1 (outsAt0 V c (t.val - 1) (pred_lt t)).2.2.2.2,
       sout0_last_0 V c t h0 h1 (outsAt0 V c (t.val - 1) (pred_lt t)).2.2.2.1 (outsAt0 V c (t.val - 1) (pred_lt t)).2.2.2.2,
       sout0_last_1 V c t h0 h1 (outsAt0 V c (t.val - 1) (pred_lt t)).2.2.2.1 (outsAt0 V c (t.val - 1) (pred_lt t)).2.2.2.2) := by
  obtain ⟨n, hn⟩ := t
  cases n with
  | zero => exact absurd rfl h0
  | succ n => exact (dif_pos h1).trans rfl

/-! ## The region invariant, point by point -/

/-- The region invariant before position `n`: before the first point the launch's (every scratch at anything);
    afterwards the two scratch buffers at what the point before left in them, the other region's staging buffers at
    anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restS0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the scratch buffers at that point's contents. -/
theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restS0 (F := F) c) ∗ (∃ r, prngReg c r)) := rfl

/-- Before a point that is not the first: the scratch buffers at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restS0 (F := F) c) ∗ (∃ r, prngReg c r)) := by
  cases n with
  | zero => exact absurd rfl hz
  | succ n => rfl

/-! ## The pipeline's proof data -/

/-- The proof data of region 0 on core `c`: the arrays as the region finds them (`V`); after the body at point `t`
    each input's buffer at its block and the outputs' at `outsAt0`'s components; the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]
theorem after0_9 (c : Dev nD) (t : Fin cfg0.N) : (dat0 V c).after 9 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
/-- The body at any point. The inputs' memrefs hold their blocks; the point's position says which case it is in; the
    invariant hands the body the two scratch buffers at what the point before left (at anything at the first point) and
    takes them back at this point's contents; the big output's buffer is taken at anything and handed back at the
    masked block; the two small outputs' are handed back as found off the last point and at the mean and the variance
    at it; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  by_cases h0 : t.val = 0
  · have h1 : ¬t.val = 49 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [show (dat0 V c).leavesExact 7 t = owns (c : Thread nD τ) (ms0_7 t) fullShare ((dat0 V c).after 7 t) from by
      unfold Dat.leavesExact; rw [liveAt0_7 t], after0_7]
    rw [Dat.leavesExact_idle (dat0 V c) 8 t (idleAt0_8 t (fun h => h1 ((hcond0_1 t).mp h))) (noFlush0_8 t (fun h => h1 ((hcond0_1 t).mp h)))]
    rw [Dat.leavesExact_idle (dat0 V c) 9 t (idleAt0_9 t (fun h => h1 ((hcond0_1 t).mp h))) (noFlush0_9 t (fun h => h1 ((hcond0_1 t).mp h)))]
    rw [outsAt0_first V c t h0]
    unfold out0_first_7 sout0_first_0 sout0_first_1; (try dsimp only)
    rw [PhiS_castSucc V c t, PhiS_zero V c _ _ h0, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, ⟨%e7, H7⟩, H8, H9, ⟨%es0, HS0⟩, ⟨%es1, HS1⟩⟩
    isplitl [HS0 HS1 Hr Hg]
    · isplitr [Hg]
      · isplitl [HS0]
        · unfold owns; iexists _; isplitr
          swap; · iexact HS0
          ipureintro; exact View.read_writes_of_cover _ _ _ _ _ (scover0_first_0 V c t h0)
        isplitl [HS1]
        · unfold owns; iexists _; isplitr
          swap; · iexact HS1
          ipureintro; exact View.read_writes_of_cover _ _ _ _ _ (scover0_first_1 V c t h0)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_first_7 V c t h0)
    isplitl [H8]; · iexists _; iexact H8
    iexists _; iexact H9
  · by_cases h1 : t.val = 49
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t ((hcond0_1 t).mpr h1)], after0_8]
      rw [show (dat0 V c).leavesExact 9 t = owns (c : Thread nD τ) (ms0_9 t) fullShare ((dat0 V c).after 9 t) from by
        unfold Dat.leavesExact; rw [liveAt0_9 t ((hcond0_1 t).mpr h1)], after0_9]
      rw [outsAt0_last V c t h0 h1]
      unfold out0_last_7 out0_last_8 out0_last_9 sout0_last_0 sout0_last_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLast V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e7, H7⟩, ⟨%e8, H8⟩, ⟨%e9, H9⟩, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_last_0 V c t h0 h1 _ _)
          isplitl [HS1]
          · unfold owns; iexists _; isplitr
            swap; · iexact HS1
            ipureintro; exact View.read_writes_of_cover _ _ _ _ _ (scover0_last_1 V c t h0 h1 _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_last_7 V c t h0 h1 _ _)
      isplitl [H8]
      · unfold owns; iexists _; isplitr
        swap; · iexact H8
        ipureintro; exact View.read_writes_of_cover _ _ _ _ _ (cover0_last_8 V c t h0 h1 _ _)
      unfold owns; iexists _; isplitr
      swap; · iexact H9
      ipureintro; exact View.read_writes_of_cover _ _ _ _ _ (cover0_last_9 V c t h0 h1 _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8 t (fun h => h1 ((hcond0_1 t).mp h))) (noFlush0_8 t (fun h => h1 ((hcond0_1 t).mp h)))]
      rw [Dat.leavesExact_idle (dat0 V c) 9 t (idleAt0_9 t (fun h => h1 ((hcond0_1 t).mp h))) (noFlush0_9 t (fun h => h1 ((hcond0_1 t).mp h)))]
      rw [outsAt0_mid V c t h0 h1]
      unfold out0_mid_7 sout0_mid_0 sout0_mid_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runMid V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e7, H7⟩, H8, H9, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scover0_mid_0 V c t h0 h1 _ _)
          isplitl [HS1]
          · unfold owns; iexists _; isplitr
            swap; · iexact HS1
            ipureintro; exact View.read_writes_of_cover _ _ _ _ _ (scover0_mid_1 V c t h0 h1 _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_mid_7 V c t h0 h1 _ _)
      isplitl [H8]; · iexists _; iexact H8
      iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's back: the scratch buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitr [Hg]
  · isplitl [HS0]; · iexists _; iexact HS0
    isplitl [HS1]; · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.KI.BnRegion.lean ====
/-
  Region 1 of @main, the BatchNorm-apply call, on one core: the body's half of the frame.

  At every grid point the body reads the five input staging buffers once each — a block x of 2000 rows and
  the four rows mean, var, gamma, beta —, forms

      gamma * (x - mean) * rsqrt (var + eps) + beta        (rows broadcast down the 2000 rows)

  and writes the result over the whole output staging buffer. Nothing is carried from point to point, so what
  the output buffer holds after the body is a closed function of the five input blocks at that point
  (bnBlock), and each input buffer still holds its block.

  Everything is stated at a parameter V, the buffers' contents when the region is entered. The row windows
  1..4 have a constant block index: the pipeline copies them in at the first point only, and at a later point
  the buffer still holds that same block because the body never writes it.
-/
import proofs.«167465_j80161269613387_1_alg».proof.Proof.Gen.KernelIdeal.Launch
import proofs.«167465_j80161269613387_1_alg».proof.Proof.Gen.KernelIdeal.Skeleton
import proofs.«167465_j80161269613387_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show at a point -/

/-- The block of window w at grid point t, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two rectangles the body touches: all of a 2000 x 128 buffer, all of a 1 x 128 buffer -/

abbrev rBlk : Rect S2000x128 := Rect.unit (s := S2000x128) ![0, 0] S2000x128.size inb_S2000x128_S2000x128_0_0
abbrev rRow : Rect S1x128 := Rect.unit (s := S1x128) ![0, 0] S1x128.size inb_S1x128_S1x128_0_0

/-! ## What the body leaves in the output buffer -/

/-- The output staging buffer after the body, as a function of the five input blocks: the single store's payload
    laid over the buffer. -/
def bnBlock (x0 : Vec F S2000x128 .f32) (x1 x2 x3 x4 : Vec F S1x128 .f32) : Vec F S2000x128 .f32 :=
  View.canon [⟨rBlk, k1_pay1 (View.ld x0 rBlk) (View.ld x1 rRow) (View.ld x2 rRow) (View.ld x3 rRow) (View.ld x4 rRow)⟩]

/-- The store's rectangle is the whole buffer, so every index of the buffer lies under it. -/
theorem bn_cover (p : Vec F S2000x128 .f32) (y : S2000x128.Idx) :
    ∃ pc ∈ ([⟨rBlk, p⟩] : List (View.Piece (Elt F) S2000x128 .f32)), y ∈ pc.1.set :=
  View.cover_of_tiled [⟨rBlk, p⟩] S2000x128.size (by rfl) y

/-! ## The body as a triple over the staging buffers' contents -/

set_option maxHeartbeats 1000000 in
/-- On six whole staging memrefs — the five inputs reading x0 … x4, the output holding anything — the body runs
    to any continuation that accepts the inputs unchanged and the output at bnBlock of the inputs. The body is
    five loads, a load of the output's old contents whose value is dropped, and one store over the whole output. -/
theorem sound_kernel1 (c : Dev nD) (E : Set ℕ) (i : grid1.Coords)
    (a0 : Memref sig .tc .vmem S2000x128 .f32) (ha0 : a0.IsWhole) (a1 : Memref sig .tc .vmem S1x128 .f32) (ha1 : a1.IsWhole)
    (a2 : Memref sig .tc .vmem S1x128 .f32) (ha2 : a2.IsWhole) (a3 : Memref sig .tc .vmem S1x128 .f32) (ha3 : a3.IsWhole)
    (a4 : Memref sig .tc .vmem S1x128 .f32) (ha4 : a4.IsWhole) (a5 : Memref sig .tc .vmem S2000x128 .f32) (ha5 : a5.IsWhole)
    (x0 : Vec F S2000x128 .f32) (x1 x2 x3 x4 : Vec F S1x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (bnBlock x0 x1 x2 x3 x4)) -∗ K ⟨⟩))
      ⊢ wp frame (wpE (defs₀ (F := F)) Variants.none c none) E (cc1__kernel_b_body i a0 ha0 a1 ha1 a2 ha2 a3 ha3 a4 ha4 a5 ha5) K := by
  simp only [cc1__kernel_b_body_eq_skeleton]; unfold cc1__kernel_b_body_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (bn_cover _)

/-! ## The proof data of the pipeline on one core -/

/-- The arrays are as the region finds them. After the body at point t every input buffer holds its block and the
    output buffer holds bnBlock of the five input blocks. The invariant is the one of a body that keeps no state
    (the scoped rest and the generator register, untouched); full shares; nothing owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => bnBlock (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = bnBlock (iblk1 V c 0 t) (iblk1 V c 1 t) (iblk1 V c 2 t) (iblk1 V c 3 t) (iblk1 V c 4 t) := by
  dsimp only [dat1]

/-! ## What the body finds in each input buffer

An input window's buffer holds the window's block at every point. Where the pipeline copied it in at that point,
that is what the copy brought; where it did not (the row windows after the first point), the block index has not
moved since the previous point and the body left the buffer alone. None of the windows is cut by its array's
edge and none has an idle point, so the side conditions are immediate. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The body obligation at a grid point -/

/-- What the pipeline hands the body at point t: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it takes back: the same at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- At any point the five input buffers hold their blocks, so the body's triple applies at those blocks; the
    invariant and what the core owes are not touched and do not change with the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point: its product over the six windows written out. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Segments.lean ====
/-
  The two kernel regions as segments of the program, and the frame: the launch memory is carried through the five host
  stretches; region 0 (the dense maps, the mask and the running column statistics) is entered from there and leaves its
  three result arrays at what its write-backs fold to; region 1 (the normalisation) is entered from that and leaves the
  result array likewise. Between items each core holds every unscoped buffer at the contents named here, the generator
  register at some state, and owes nothing.
-/
import proofs.«167465_j80161269613387_1_alg».proof.Proof.KI.StatsRegion
import proofs.«167465_j80161269613387_1_alg».proof.Proof.KI.BnRegion
import proofs.«167465_j80161269613387_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- What region 0 is entered from: the launch memory after the five host stretches. -/
abbrev Vin0 : (c : Dev nD) → (b : Ref sig .tc) → Buf (Elt F) ((c : Thread nD τ).loc b) := fun c b => Gen.V5 m c b

/-- What region 0 leaves: its windows' arrays at what the write-backs fold to, every other buffer as entered. -/
def W6 (c : Dev nD) : Valuation τ sig (Elt F) :=
  Pipeline.withArrays spec0 c (Gen.V5 m c) fun w => (dat0 (Vin0 m) c).arrAt w cfg0.N

/-- The unknowns of the conditional frame, after region 0 only. -/
def outs6 : Gen.Outs (F := F) := fun _ r c => W6 m c (Proc.devRef .tc r)

/-- What region 1 is entered from. -/
abbrev Vin1 : (c : Dev nD) → (b : Ref sig .tc) → Buf (Elt F) ((c : Thread nD τ).loc b) := fun c b => Gen.V6 m (outs6 m) c b

/-- What region 1 leaves. -/
def W7 (c : Dev nD) : Valuation τ sig (Elt F) :=
  Pipeline.withArrays spec1 c (Gen.V6 m (outs6 m) c) fun w => (dat1 (Vin1 m) c).arrAt w cfg1.N

/-- The unknowns of the conditional frame: after region 0 its arrays' folds, after region 1 its arrays' folds. -/
def outs : Gen.Outs (F := F) := fun J r c => if J = 6 then W6 m c (Proc.devRef .tc r) else W7 m c (Proc.devRef .tc r)

theorem V6_outs (c : Dev nD) : Gen.V6 m (outs m) c = Gen.V6 m (outs6 m) c := rfl

theorem W6_arr (c : Dev nD) (w : Fin cfg0.W) :
    W6 m c (Proc.devRef .tc (Pipeline.arrRef spec0 w)) = (dat0 (Vin0 m) c).arrAt w cfg0.N := by
  unfold W6; exact Pipeline.withArrays_arr spec0 launch0.win.arr_inj c _ _ w
theorem W7_arr (c : Dev nD) (w : Fin cfg1.W) :
    W7 m c (Proc.devRef .tc (Pipeline.arrRef spec1 w)) = (dat1 (Vin1 m) c).arrAt w cfg1.N := by
  unfold W7; exact Pipeline.withArrays_arr spec1 launch1.win.arr_inj c _ _ w

/-! ## The valuations of the conditional frame read at the regions' arrays -/

theorem ne01 : (Proc.devRef .tc main_v31_0 : DevRef τ sig) ≠ Proc.devRef .tc main_v31_1 := StableHlo.devRef_ne_of_ne (by decide)
theorem ne02 : (Proc.devRef .tc main_v31_0 : DevRef τ sig) ≠ Proc.devRef .tc main_v31_2 := StableHlo.devRef_ne_of_ne (by decide)
theorem ne12 : (Proc.devRef .tc main_v31_1 : DevRef τ sig) ≠ Proc.devRef .tc main_v31_2 := StableHlo.devRef_ne_of_ne (by decide)

theorem V6_v31_0 (o : Gen.Outs (F := F)) (c : Dev nD) : Gen.V6 m o c main_v31_0 = o 6 main_v31_0 c := by
  simp only [Gen.V6, Function.update_of_ne ne02, Function.update_of_ne ne01, Function.update_self]
theorem V6_v31_1 (o : Gen.Outs (F := F)) (c : Dev nD) : Gen.V6 m o c main_v31_1 = o 6 main_v31_1 c := by
  simp only [Gen.V6, Function.update_of_ne ne12, Function.update_self]
theorem V6_v31_2 (o : Gen.Outs (F := F)) (c : Dev nD) : Gen.V6 m o c main_v31_2 = o 6 main_v31_2 c := by
  simp only [Gen.V6, Function.update_self]
theorem V7_v32 (o : Gen.Outs (F := F)) (c : Dev nD) : Gen.V7 m o c main_v32 = o 7 main_v32 c := by
  simp only [Gen.V7, Function.update_self]

/-- After region 0 each of its arrays holds what the pipeline leaves. -/
theorem hF0 (c : Dev nD) (w : Fin cfg0.W) :
    (dat0 (Vin0 m) c).arrAt w cfg0.N = Gen.V6 m (outs m) c (Proc.devRef .tc (Pipeline.arrRef spec0 w)) := by
  have hin : ∀ w' : Fin cfg0.W, (cfg0.win w').isOut = false →
      Pipeline.arrRef spec0 w' ∉ ([main_v31_0, main_v31_1, main_v31_2] : List (Ref sig .tc)) →
      (dat0 (Vin0 m) c).arrAt w' cfg0.N = Gen.V6 m (outs m) c (Proc.devRef .tc (Pipeline.arrRef spec0 w')) := by
    intro w' hw hnot
    rw [(dat0 (Vin0 m) c).arrAt_in w' hw, A_eq0]
    exact (Gen.V6_of m (outs m) c _ hnot).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact ((V6_v31_0 m (outs m) c).trans (W6_arr m c 7)).symm
  | ⟨8, _⟩ => exact ((V6_v31_1 m (outs m) c).trans (W6_arr m c 8)).symm
  | ⟨9, _⟩ => exact ((V6_v31_2 m (outs m) c).trans (W6_arr m c 9)).symm

/-- Every other buffer is as region 0 found it. -/
theorem hrest0 (c : Dev nD) : ∀ b : Ref sig .tc, b ∉ Finset.univ.image (Pipeline.arrRef spec0) →
    Gen.V6 m (outs m) c (Proc.devRef .tc b) = Gen.V5 m c (Proc.devRef .tc b) := fun b hb =>
  Gen.V6_of m (outs m) c b (by
    intro hmem
    simp only [List.mem_cons, List.mem_nil_iff, or_false] at hmem
    rcases hmem with rfl | rfl | rfl
    · exact hb (Finset.mem_image.mpr ⟨7, Finset.mem_univ _, rfl⟩)
    · exact hb (Finset.mem_image.mpr ⟨8, Finset.mem_univ _, rfl⟩)
    · exact hb (Finset.mem_image.mpr ⟨9, Finset.mem_univ _, rfl⟩))

/-- After region 1 each of its arrays holds what the pipeline leaves. -/
theorem hF1 (c : Dev nD) (w : Fin cfg1.W) :
    (dat1 (Vin1 m) c).arrAt w cfg1.N = Gen.V7 m (outs m) c (Proc.devRef .tc (Pipeline.arrRef spec1 w)) := by
  have hin : ∀ w' : Fin cfg1.W, (cfg1.win w').isOut = false →
      Pipeline.arrRef spec1 w' ∉ ([main_v32] : List (Ref sig .tc)) →
      (dat1 (Vin1 m) c).arrAt w' cfg1.N = Gen.V7 m (outs m) c (Proc.devRef .tc (Pipeline.arrRef spec1 w')) := by
    intro w' hw hnot
    rw [(dat1 (Vin1 m) c).arrAt_in w' hw, A_eq1]
    exact (Gen.V7_of m (outs m) c _ hnot).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact ((V7_v32 m (outs m) c).trans (W7_arr m c 5)).symm

theorem hrest1 (c : Dev nD) : ∀ b : Ref sig .tc, b ∉ Finset.univ.image (Pipeline.arrRef spec1) →
    Gen.V7 m (outs m) c (Proc.devRef .tc b) = Gen.V6 m (outs m) c (Proc.devRef .tc b) := fun b hb =>
  Gen.V7_of m (outs m) c b (by
    intro hmem
    simp only [List.mem_cons, List.mem_nil_iff, or_false] at hmem
    rcases hmem with rfl
    exact hb (Finset.mem_image.mpr ⟨5, Finset.mem_univ _, rfl⟩))

/-! ## The proof data family and what rides beside the buffers -/

/-- No pallas_call has a prefetched table. -/
abbrev adm : (p : Fin 2) → (pcfgs (F := F) p).Adm := Gen.adm
/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0: entered from the buffers after the host stretches, left with its three result arrays at what the write-backs
    fold to. The generator register goes into the kernel's invariant and comes back; the two carried scratch buffers
    are part of the scoped rest at both ends. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (Vin0 m) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (Vin0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => Gen.V6 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from what region 0 left, left with its result array at what the write-backs fold to. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V6 m (outs m) c) ∗ R c)
  post c := iprop(StableHlo.held (c : Thread nD τ) (Pipeline.ucRefs τ sig) (Gen.V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V6 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => Gen.V6 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => Gen.V6 m (outs m) c b) (fun b => Gen.V7 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost element is the pipeline library's own; no core keeps a ghost resource. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, less its buffers, makes the generator register at some state and nothing owed. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- Every weakly fair execution of @main terminates, faults nowhere, and leaves each argument array as launched: the
    conditional frame over the two regions' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () 𝒱₀ L lv (fun _ _ => rfl) ρ (outs m) (pdats m) (0 : Dev nD → CellTallies nD τ sig Unit)
    (fun _ => (BI.emp : sProp 𝕄)) (initOf (Pipeline.cells cfgs cellOf_inj) (Pipeline.launchToks cfgs cellOf_inj)) hu₀
    (fun _ c => R c) (hE0 ρ) (fun c => by iintro ⟨-, HO⟩; iexact HO)
    (reg0 m) (fun _ => .rfl) (fun _ => .rfl) (reg1 m) (fun _ => .rfl) (fun _ => .rfl)

end Cert.KernelIdeal.Hand
end
-- ==== Proof.KI.ValueSegs.lean ====
/-
  The program's run with its result named: the same launch as the frame's, read at the result buffer too. After the run
  the result buffer holds what region 1's write-backs fold to, and every argument is as launched.
-/
import proofs.«167465_j80161269613387_1_alg».proof.Proof.KI.Segments
import proofs.«167465_j80161269613387_1_alg».proof.Proof.KI.ValueRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the run is region 1's result array at what its write-backs fold to. -/
theorem result_eq (c : Dev nD) : Gen.V7 m (outs m) c main_v32 = (dat1 (Vin1 m) c).arrAt 5 cfg1.N :=
  (V7_v32 m (outs m) c).trans (W7_arr m c 5)

/-- What region 1 is entered from, at region 0's three result arrays: what region 0's write-backs fold to. -/
theorem Vin1_x (c : Dev nD) : Vin1 m c main_v31_0 = (dat0 (Vin0 m) c).arrAt 7 cfg0.N := (V6_v31_0 m (outs6 m) c).trans (W6_arr m c 7)
theorem Vin1_mean (c : Dev nD) : Vin1 m c main_v31_1 = (dat0 (Vin0 m) c).arrAt 8 cfg0.N := (V6_v31_1 m (outs6 m) c).trans (W6_arr m c 8)
theorem Vin1_var (c : Dev nD) : Vin1 m c main_v31_2 = (dat0 (Vin0 m) c).arrAt 9 cfg0.N := (V6_v31_2 m (outs6 m) c).trans (W6_arr m c 9)
/-- and at the scale and shift vectors: as the host stretches left them. -/
theorem Vin1_gamma (c : Dev nD) : Vin1 m c main_v29 = Gen.V5 m c main_v29 := Gen.V6_of m (outs6 m) c main_v29 (by decide)
theorem Vin1_beta (c : Dev nD) : Vin1 m c main_v30 = Gen.V5 m c main_v30 := Gen.V6_of m (outs6 m) c main_v30 (by decide)

set_option backward.isDefEq.respectTransparency.types false in
/-- Every weakly fair execution of @main terminates with the result buffer at `V7 … main_v32` and the arguments as launched. -/
theorem value_run : θ_run defs (onTc (τ := τ) (main (F := F))) ⟨m, fun _ => 0, ρ⟩ (fun r => ∀ c : Dev nD,
      r.2.mem ((c.tc : Thread nD τ).loc main_v32) = Gen.V7 m (outs m) c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Cert.KernelIdeal.GenP.value_cond m emb₁ () 𝒱₀ L lv (fun _ _ => rfl) ρ (outs m) (pdats m) (0 : Dev nD → CellTallies nD τ sig Unit)
    (fun _ => (BI.emp : sProp 𝕄)) (initOf (Pipeline.cells cfgs cellOf_inj) (Pipeline.launchToks cfgs cellOf_inj)) hu₀
    (fun _ c => R c) (hE0 ρ) (fun c => by iintro ⟨-, HO⟩; iexact HO)
    (reg0 m) (fun _ => .rfl) (fun _ => .rfl) (reg1 m) (fun _ => .rfl) (fun _ => .rfl)

end Cert.KernelIdeal.Hand
end
-- ==== Proof.KI.StatsPieces.lean ====
/-
  Region 0's found pieces, read as values: what each case's run leaves in the big output, in the two scratch
  buffers and (at the last point) in the two small outputs, as the body's own payload functions of the input
  blocks and of what the scratch buffers held — and from these the equations a value proof inducts on over the
  grid: the block written to the big output at a point, each running sum after the first point and after a
  later one, and the mean and the variance at the last point.

  Every store of the body goes through the whole-buffer rectangle at zero offsets, so a buffer's contents after
  the run are the payload of its last store; a load through the same rectangle of a buffer stored earlier in the
  run reads that store's payload, and a load of an untouched buffer reads its contents.
-/
import proofs.«167465_j80161269613387_1_alg».proof.Proof.KI.StatsRegion
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-two rectangle, however spelt. -/
theorem hz2 : (![0, 0] : Fin 2 → Nat) = fun _ => 0 := funext fun a => by fin_cases a <;> rfl

/-! ## The pieces each run found, over any memrefs and contents -/

/-- First point: the big output ends with the masked block. -/
theorem run_first_L7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) :
    View.canon (kernelRun0_first (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 = k0_pay6 x0 x1 x2 x4 x3 x5 x6 := by
  unfold kernelRun0_first; dsimp only; sl_unfold_words
  rw [View.canon_unit_zero (S := S2000x128) hz2]
  simp only [View.readAt_eq_ld, Memref.IsWhole.read_unread, View.ld_unit_zero (S := S2000x128) hz2, View.ld_unit_zero (S := S128x128) hz2, View.ld_unit_zero (S := S1x128) hz2]

/-- First point: scratch 0 is zeroed, read back, and ends with the zero plus the block's column sums. -/
theorem run_first_LS0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) :
    View.canon (kernelRun0_first (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 = k0_pay7 x0 x1 x2 x4 x3 x5 x6 (k0_pay4 (F := F)) := by
  unfold kernelRun0_first; dsimp only; sl_unfold_words
  rw [View.canon_cons_unit_zero (S := S1x128) hz2]
  simp only [View.readAt_eq_ld, Memref.IsWhole.read_unread, View.ld_unit_zero (S := S2000x128) hz2, View.ld_unit_zero (S := S128x128) hz2, View.ld_unit_zero (S := S1x128) hz2, View.readCov_unit_zero (S := S1x128) _ hz2]

/-- First point: scratch 1 is zeroed, read back, and ends with the zero plus the block's column sums of squares. -/
theorem run_first_LS1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) :
    View.canon (kernelRun0_first (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 = k0_pay1 (k0_pay6 x0 x1 x2 x4 x3 x5 x6) (k0_pay5 (F := F)) := by
  unfold kernelRun0_first; dsimp only; sl_unfold_words
  rw [View.canon_cons_unit_zero (S := S1x128) hz2]
  simp only [View.readAt_eq_ld, Memref.IsWhole.read_unread, View.ld_unit_zero (S := S2000x128) hz2, View.ld_unit_zero (S := S128x128) hz2, View.ld_unit_zero (S := S1x128) hz2, View.readCov_unit_zero (S := S1x128) _ hz2]

/-- Middle point: the big output ends with the masked block. -/
theorem run_mid_L7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    View.canon (kernelRun0_mid (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 = k0_pay6 x0 x1 x2 x4 x3 x5 x6 := by
  unfold kernelRun0_mid; dsimp only; sl_unfold_words
  rw [View.canon_unit_zero (S := S2000x128) hz2]
  simp only [View.readAt_eq_ld, Memref.IsWhole.read_unread, View.ld_unit_zero (S := S2000x128) hz2, View.ld_unit_zero (S := S128x128) hz2, View.ld_unit_zero (S := S1x128) hz2]

/-- Middle point: scratch 0 ends with what it held plus the block's column sums. -/
theorem run_mid_LS0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    View.canon (kernelRun0_mid (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 = k0_pay7 x0 x1 x2 x4 x3 x5 x6 xs0 := by
  unfold kernelRun0_mid; dsimp only; sl_unfold_words
  rw [View.canon_unit_zero (S := S1x128) hz2]
  simp only [View.readAt_eq_ld, Memref.IsWhole.read_unread, View.ld_unit_zero (S := S2000x128) hz2, View.ld_unit_zero (S := S128x128) hz2, View.ld_unit_zero (S := S1x128) hz2]

/-- Middle point: scratch 1 ends with what it held plus the block's column sums of squares. -/
theorem run_mid_LS1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : ¬cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    View.canon (kernelRun0_mid (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 = k0_pay1 (k0_pay6 x0 x1 x2 x4 x3 x5 x6) xs1 := by
  unfold kernelRun0_mid; dsimp only; sl_unfold_words
  rw [View.canon_unit_zero (S := S1x128) hz2]
  simp only [View.readAt_eq_ld, Memref.IsWhole.read_unread, View.ld_unit_zero (S := S2000x128) hz2, View.ld_unit_zero (S := S128x128) hz2, View.ld_unit_zero (S := S1x128) hz2]

/-- Last point: the big output ends with the masked block. -/
theorem run_last_L7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    View.canon (kernelRun0_last (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 = k0_pay6 x0 x1 x2 x4 x3 x5 x6 := by
  unfold kernelRun0_last; dsimp only; sl_unfold_words
  rw [View.canon_unit_zero (S := S2000x128) hz2]
  simp only [View.readAt_eq_ld, Memref.IsWhole.read_unread, View.ld_unit_zero (S := S2000x128) hz2, View.ld_unit_zero (S := S128x128) hz2, View.ld_unit_zero (S := S1x128) hz2]

/-- Last point: scratch 0 ends with what it held plus the block's column sums. -/
theorem run_last_LS0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    View.canon (kernelRun0_last (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 = k0_pay7 x0 x1 x2 x4 x3 x5 x6 xs0 := by
  unfold kernelRun0_last; dsimp only; sl_unfold_words
  rw [View.canon_unit_zero (S := S1x128) hz2]
  simp only [View.readAt_eq_ld, Memref.IsWhole.read_unread, View.ld_unit_zero (S := S2000x128) hz2, View.ld_unit_zero (S := S128x128) hz2, View.ld_unit_zero (S := S1x128) hz2]

/-- Last point: scratch 1 ends with what it held plus the block's column sums of squares. -/
theorem run_last_LS1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    View.canon (kernelRun0_last (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1 = k0_pay1 (k0_pay6 x0 x1 x2 x4 x3 x5 x6) xs1 := by
  unfold kernelRun0_last; dsimp only; sl_unfold_words
  rw [View.canon_unit_zero (S := S1x128) hz2]
  simp only [View.readAt_eq_ld, Memref.IsWhole.read_unread, View.ld_unit_zero (S := S2000x128) hz2, View.ld_unit_zero (S := S128x128) hz2, View.ld_unit_zero (S := S1x128) hz2]

/-- Last point: output 8 ends with the mean computed from scratch 0 as just updated. -/
theorem run_last_L8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    View.canon (kernelRun0_last (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 = k0_pay2 (k0_pay7 x0 x1 x2 x4 x3 x5 x6 xs0) := by
  unfold kernelRun0_last; dsimp only; sl_unfold_words
  rw [View.canon_unit_zero (S := S1x128) hz2]
  simp only [View.readAt_eq_ld, Memref.IsWhole.read_unread, View.ld_unit_zero (S := S2000x128) hz2, View.ld_unit_zero (S := S128x128) hz2, View.ld_unit_zero (S := S1x128) hz2, View.readCov_unit_zero (S := S1x128) _ hz2]

/-- Last point: output 9 ends with the variance computed from both scratch buffers as just updated. -/
theorem run_last_L9 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i) (x0 : Vec F S2000x128 .f32) (x1 : Vec F S2000x128 .f32) (x2 : Vec F S128x128 .f32) (x3 : Vec F S1x128 .f32) (x4 : Vec F S128x128 .f32) (x5 : Vec F S1x128 .f32) (x6 : Vec F S2000x128 .f32) (xs0 : Vec F S1x128 .f32) (xs1 : Vec F S1x128 .f32) :
    View.canon (kernelRun0_last (F := F) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 = k0_pay3 (k0_pay7 x0 x1 x2 x4 x3 x5 x6 xs0) (k0_pay1 (k0_pay6 x0 x1 x2 x4 x3 x5 x6) xs1) := by
  unfold kernelRun0_last; dsimp only; sl_unfold_words
  rw [View.canon_unit_zero (S := S1x128) hz2]
  simp only [View.readAt_eq_ld, Memref.IsWhole.read_unread, View.ld_unit_zero (S := S2000x128) hz2, View.ld_unit_zero (S := S128x128) hz2, View.ld_unit_zero (S := S1x128) hz2, View.readCov_unit_zero (S := S1x128) _ hz2]

/-! ## The same at a grid point's own memrefs and blocks -/

/-- The masked block of point `t`: the body's block payload at the seven input blocks there. -/
abbrev xBlk (c : Dev nD) (t : Fin cfg0.N) : FVec F S2000x128 .f32 :=
  k0_pay6 (iblk0 V c 0 t) (iblk0 V c 1 t) (iblk0 V c 2 t) (iblk0 V c 4 t) (iblk0 V c 3 t) (iblk0 V c 5 t) (iblk0 V c 6 t)

theorem out0_first_7_eq (c : Dev nD) (t : Fin cfg0.N) (h0 : t.val = 0) : out0_first_7 V c t h0 = xBlk V c t := by
  unfold out0_first_7; rw [View.read_writes_junk_eq_canon]
  exact run_first_L7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t)
theorem sout0_first_0_eq (c : Dev nD) (t : Fin cfg0.N) (h0 : t.val = 0) : sout0_first_0 V c t h0 = k0_pay7 (iblk0 V c 0 t) (iblk0 V c 1 t) (iblk0 V c 2 t) (iblk0 V c 4 t) (iblk0 V c 3 t) (iblk0 V c 5 t) (iblk0 V c 6 t) (k0_pay4 (F := F)) := by
  unfold sout0_first_0; rw [View.read_writes_junk_eq_canon]
  exact run_first_LS0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t)
theorem sout0_first_1_eq (c : Dev nD) (t : Fin cfg0.N) (h0 : t.val = 0) : sout0_first_1 V c t h0 = k0_pay1 (xBlk V c t) (k0_pay5 (F := F)) := by
  unfold sout0_first_1; rw [View.read_writes_junk_eq_canon]
  exact run_first_LS1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t)
theorem out0_mid_7_eq (c : Dev nD) (t : Fin cfg0.N) (h0 : t.val ≠ 0) (h1 : t.val ≠ 49) (xs0 xs1 : Vec F S1x128 .f32) : out0_mid_7 V c t h0 h1 xs0 xs1 = xBlk V c t := by
  unfold out0_mid_7; rw [View.read_writes_junk_eq_canon]
  exact run_mid_L7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs0 xs1
theorem sout0_mid_0_eq (c : Dev nD) (t : Fin cfg0.N) (h0 : t.val ≠ 0) (h1 : t.val ≠ 49) (xs0 xs1 : Vec F S1x128 .f32) : sout0_mid_0 V c t h0 h1 xs0 xs1 = k0_pay7 (iblk0 V c 0 t) (iblk0 V c 1 t) (iblk0 V c 2 t) (iblk0 V c 4 t) (iblk0 V c 3 t) (iblk0 V c 5 t) (iblk0 V c 6 t) xs0 := by
  unfold sout0_mid_0; rw [View.read_writes_junk_eq_canon]
  exact run_mid_LS0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs0 xs1
theorem sout0_mid_1_eq (c : Dev nD) (t : Fin cfg0.N) (h0 : t.val ≠ 0) (h1 : t.val ≠ 49) (xs0 xs1 : Vec F S1x128 .f32) : sout0_mid_1 V c t h0 h1 xs0 xs1 = k0_pay1 (xBlk V c t) xs1 := by
  unfold sout0_mid_1; rw [View.read_writes_junk_eq_canon]
  exact run_mid_LS1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs0 xs1
theorem out0_last_7_eq (c : Dev nD) (t : Fin cfg0.N) (h0 : t.val ≠ 0) (h1 : t.val = 49) (xs0 xs1 : Vec F S1x128 .f32) : out0_last_7 V c t h0 h1 xs0 xs1 = xBlk V c t := by
  unfold out0_last_7; rw [View.read_writes_junk_eq_canon]
  exact run_last_L7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0 xs1
theorem sout0_last_0_eq (c : Dev nD) (t : Fin cfg0.N) (h0 : t.val ≠ 0) (h1 : t.val = 49) (xs0 xs1 : Vec F S1x128 .f32) : sout0_last_0 V c t h0 h1 xs0 xs1 = k0_pay7 (iblk0 V c 0 t) (iblk0 V c 1 t) (iblk0 V c 2 t) (iblk0 V c 4 t) (iblk0 V c 3 t) (iblk0 V c 5 t) (iblk0 V c 6 t) xs0 := by
  unfold sout0_last_0; rw [View.read_writes_junk_eq_canon]
  exact run_last_LS0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0 xs1
theorem sout0_last_1_eq (c : Dev nD) (t : Fin cfg0.N) (h0 : t.val ≠ 0) (h1 : t.val = 49) (xs0 xs1 : Vec F S1x128 .f32) : sout0_last_1 V c t h0 h1 xs0 xs1 = k0_pay1 (xBlk V c t) xs1 := by
  unfold sout0_last_1; rw [View.read_writes_junk_eq_canon]
  exact run_last_LS1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0 xs1
theorem out0_last_8_eq (c : Dev nD) (t : Fin cfg0.N) (h0 : t.val ≠ 0) (h1 : t.val = 49) (xs0 xs1 : Vec F S1x128 .f32) : out0_last_8 V c t h0 h1 xs0 xs1 = k0_pay2 (sout0_last_0 V c t h0 h1 xs0 xs1) := by
  rw [sout0_last_0_eq]
  unfold out0_last_8; rw [View.read_writes_junk_eq_canon]
  exact run_last_L8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0 xs1
theorem out0_last_9_eq (c : Dev nD) (t : Fin cfg0.N) (h0 : t.val ≠ 0) (h1 : t.val = 49) (xs0 xs1 : Vec F S1x128 .f32) : out0_last_9 V c t h0 h1 xs0 xs1 = k0_pay3 (sout0_last_0 V c t h0 h1 xs0 xs1) (sout0_last_1 V c t h0 h1 xs0 xs1) := by
  rw [sout0_last_0_eq, sout0_last_1_eq]
  unfold out0_last_9; rw [View.read_writes_junk_eq_canon]
  exact run_last_L9 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs0 xs1

/-! ## The accumulation's case equations at a position written as a number -/

theorem outsAt0_zero (c : Dev nD) (h : 0 < cfg0.N) :
    outsAt0 V c 0 h = (out0_first_7 V c ⟨0, h⟩ rfl, idleOut0_8, idleOut0_9, sout0_first_0 V c ⟨0, h⟩ rfl, sout0_first_1 V c ⟨0, h⟩ rfl) := rfl

theorem outsAt0_succ_mid (c : Dev nD) (n : ℕ) (h : n + 1 < cfg0.N) (h1 : n + 1 ≠ 49) :
    outsAt0 V c (n + 1) h =
      (out0_mid_7 V c ⟨n + 1, h⟩ (Nat.succ_ne_zero n) h1 (outsAt0 V c n (Nat.lt_of_succ_lt h)).2.2.2.1 (outsAt0 V c n (Nat.lt_of_succ_lt h)).2.2.2.2,
       idleOut0_8, idleOut0_9,
       sout0_mid_0 V c ⟨n + 1, h⟩ (Nat.succ_ne_zero n) h1 (outsAt0 V c n (Nat.lt_of_succ_lt h)).2.2.2.1 (outsAt0 V c n (Nat.lt_of_succ_lt h)).2.2.2.2,
       sout0_mid_1 V c ⟨n + 1, h⟩ (Nat.succ_ne_zero n) h1 (outsAt0 V c n (Nat.lt_of_succ_lt h)).2.2.2.1 (outsAt0 V c n (Nat.lt_of_succ_lt h)).2.2.2.2) :=
  (dif_neg h1).trans rfl

theorem outsAt0_succ_last (c : Dev nD) (n : ℕ) (h : n + 1 < cfg0.N) (h1 : n + 1 = 49) :
    outsAt0 V c (n + 1) h =
      (out0_last_7 V c ⟨n + 1, h⟩ (Nat.succ_ne_zero n) h1 (outsAt0 V c n (Nat.lt_of_succ_lt h)).2.2.2.1 (outsAt0 V c n (Nat.lt_of_succ_lt h)).2.2.2.2,
       out0_last_8 V c ⟨n + 1, h⟩ (Nat.succ_ne_zero n) h1 (outsAt0 V c n (Nat.lt_of_succ_lt h)).2.2.2.1 (outsAt0 V c n (Nat.lt_of_succ_lt h)).2.2.2.2,
       out0_last_9 V c ⟨n + 1, h⟩ (Nat.succ_ne_zero n) h1 (outsAt0 V c n (Nat.lt_of_succ_lt h)).2.2.2.1 (outsAt0 V c n (Nat.lt_of_succ_lt h)).2.2.2.2,
       sout0_last_0 V c ⟨n + 1, h⟩ (Nat.succ_ne_zero n) h1 (outsAt0 V c n (Nat.lt_of_succ_lt h)).2.2.2.1 (outsAt0 V c n (Nat.lt_of_succ_lt h)).2.2.2.2,
       sout0_last_1 V c ⟨n + 1, h⟩ (Nat.succ_ne_zero n) h1 (outsAt0 V c n (Nat.lt_of_succ_lt h)).2.2.2.1 (outsAt0 V c n (Nat.lt_of_succ_lt h)).2.2.2.2) :=
  (dif_pos h1).trans rfl

/-! ## The equations a value proof inducts on -/

/-- At every point the big output's buffer takes the masked block of that point. -/
theorem piece_x (c : Dev nD) (t : Fin cfg0.N) : (outsAt0 V c t.val t.isLt).1 = xBlk V c t := by
  by_cases h0 : t.val = 0
  · rw [outsAt0_first V c t h0]; dsimp only
    exact out0_first_7_eq V c t h0
  · by_cases h1 : t.val = 49
    · rw [outsAt0_last V c t h0 h1]; dsimp only
      exact out0_last_7_eq V c t h0 h1 (outsAt0 V c (t.val - 1) (pred_lt t)).2.2.2.1 (outsAt0 V c (t.val - 1) (pred_lt t)).2.2.2.2
    · rw [outsAt0_mid V c t h0 h1]; dsimp only
      exact out0_mid_7_eq V c t h0 h1 (outsAt0 V c (t.val - 1) (pred_lt t)).2.2.2.1 (outsAt0 V c (t.val - 1) (pred_lt t)).2.2.2.2

/-- After the first point scratch 0 holds the zero vector plus the first block's column sums. -/
theorem piece_s0_zero (c : Dev nD) (h : 0 < cfg0.N) :
    (outsAt0 V c 0 h).2.2.2.1 = k0_pay7 (iblk0 V c 0 ⟨0, h⟩) (iblk0 V c 1 ⟨0, h⟩) (iblk0 V c 2 ⟨0, h⟩) (iblk0 V c 4 ⟨0, h⟩) (iblk0 V c 3 ⟨0, h⟩) (iblk0 V c 5 ⟨0, h⟩) (iblk0 V c 6 ⟨0, h⟩) (k0_pay4 (F := F)) := by
  rw [outsAt0_zero V c h]; dsimp only
  exact sout0_first_0_eq V c ⟨0, h⟩ rfl

/-- After a later point scratch 0 holds what the point before left plus this block's column sums. -/
theorem piece_s0_succ (c : Dev nD) (n : ℕ) (h : n + 1 < cfg0.N) :
    (outsAt0 V c (n + 1) h).2.2.2.1 = k0_pay7 (iblk0 V c 0 ⟨n + 1, h⟩) (iblk0 V c 1 ⟨n + 1, h⟩) (iblk0 V c 2 ⟨n + 1, h⟩) (iblk0 V c 4 ⟨n + 1, h⟩) (iblk0 V c 3 ⟨n + 1, h⟩) (iblk0 V c 5 ⟨n + 1, h⟩) (iblk0 V c 6 ⟨n + 1, h⟩) ((outsAt0 V c n (Nat.lt_of_succ_lt h)).2.2.2.1) := by
  by_cases h1 : n + 1 = 49
  · rw [outsAt0_succ_last V c n h h1]; dsimp only
    exact sout0_last_0_eq V c ⟨n + 1, h⟩ (Nat.succ_ne_zero n) h1 (outsAt0 V c n (Nat.lt_of_succ_lt h)).2.2.2.1 (outsAt0 V c n (Nat.lt_of_succ_lt h)).2.2.2.2
  · rw [outsAt0_succ_mid V c n h h1]; dsimp only
    exact sout0_mid_0_eq V c ⟨n + 1, h⟩ (Nat.succ_ne_zero n) h1 (outsAt0 V c n (Nat.lt_of_succ_lt h)).2.2.2.1 (outsAt0 V c n (Nat.lt_of_succ_lt h)).2.2.2.2

/-- After the first point scratch 1 holds the zero vector plus the first block's column sums of squares. -/
theorem piece_s1_zero (c : Dev nD) (h : 0 < cfg0.N) :
    (outsAt0 V c 0 h).2.2.2.2 = k0_pay1 (xBlk V c ⟨0, h⟩) (k0_pay5 (F := F)) := by
  rw [outsAt0_zero V c h]; dsimp only
  exact sout0_first_1_eq V c ⟨0, h⟩ rfl

/-- After a later point scratch 1 holds what the point before left plus this block's column sums of squares. -/
theorem piece_s1_succ (c : Dev nD) (n : ℕ) (h : n + 1 < cfg0.N) :
    (outsAt0 V c (n + 1) h).2.2.2.2 = k0_pay1 (xBlk V c ⟨n + 1, h⟩) ((outsAt0 V c n (Nat.lt_of_succ_lt h)).2.2.2.2) := by
  by_cases h1 : n + 1 = 49
  · rw [outsAt0_succ_last V c n h h1]; dsimp only
    exact sout0_last_1_eq V c ⟨n + 1, h⟩ (Nat.succ_ne_zero n) h1 (outsAt0 V c n (Nat.lt_of_succ_lt h)).2.2.2.1 (outsAt0 V c n (Nat.lt_of_succ_lt h)).2.2.2.2
  · rw [outsAt0_succ_mid V c n h h1]; dsimp only
    exact sout0_mid_1_eq V c ⟨n + 1, h⟩ (Nat.succ_ne_zero n) h1 (outsAt0 V c n (Nat.lt_of_succ_lt h)).2.2.2.1 (outsAt0 V c n (Nat.lt_of_succ_lt h)).2.2.2.2

/-- At the last point output 8's buffer takes the mean computed from scratch 0 as that point leaves it. -/
theorem piece_mean (c : Dev nD) (h : 49 < cfg0.N) : (outsAt0 V c 49 h).2.1 = k0_pay2 ((outsAt0 V c 49 h).2.2.2.1) := by
  rw [outsAt0_succ_last V c 48 h rfl]; dsimp only
  exact out0_last_8_eq V c ⟨48 + 1, h⟩ (Nat.succ_ne_zero 48) rfl (outsAt0 V c 48 (Nat.lt_of_succ_lt h)).2.2.2.1 (outsAt0 V c 48 (Nat.lt_of_succ_lt h)).2.2.2.2

/-- At the last point output 9's buffer takes the variance computed from both scratch buffers as that point leaves them. -/
theorem piece_var (c : Dev nD) (h : 49 < cfg0.N) : (outsAt0 V c 49 h).2.2.1 = k0_pay3 ((outsAt0 V c 49 h).2.2.2.1) ((outsAt0 V c 49 h).2.2.2.2) := by
  rw [outsAt0_succ_last V c 48 h rfl]; dsimp only
  exact out0_last_9_eq V c ⟨48 + 1, h⟩ (Nat.succ_ne_zero 48) rfl (outsAt0 V c 48 (Nat.lt_of_succ_lt h)).2.2.2.1 (outsAt0 V c 48 (Nat.lt_of_succ_lt h)).2.2.2.2

end Cert.KernelIdeal.Hand

end
-- ==== Proof.Spec.lean ====
/-
  The mathematics of the layer, on the extended reals, over literal index types: node features pass through two
  dense maps, a bias each, and an elementwise mask; each column is then normalised by its mean and its (biased)
  variance over the 100000 rows. Every definition here is index by index, so that the kernel's tiled computation and
  the reference's whole-array one can both be read as these functions.
-/
import Idealize.ShloMosaic.PureOps.Ideal
import Idealize.ShloMosaic.PureOps.Ideal.Laws
import Mathlib.Algebra.BigOperators.Fin

noncomputable section

namespace Cert.Spec

open Idealize.ShloMosaic

/-- The number of rows as the programs spell it: the float 100000.0. -/
abbrev rows : EReal := Ideal.ofBits .f32 0x47C35000#32
/-- The stabiliser added to the variance, as the programs spell it. -/
abbrev eps : EReal := Ideal.ofBits .f32 0x3727C5AC#32

/-- x = ((A·W + b) + (feats·Wr + br)) ∘ mask, entry (i, j): the two products as sums over the 128 shared columns. -/
def xOf (A feats : Fin 100000 → Fin 128 → EReal) (W Wr : Fin 128 → Fin 128 → EReal) (b br : Fin 128 → EReal)
    (mask : Fin 100000 → Fin 128 → EReal) : Fin 100000 → Fin 128 → EReal :=
  fun i j => ((∑ k : Fin 128, A i k * W k j + b j) + (∑ k : Fin 128, feats i k * Wr k j + br j)) * mask i j

/-- Column j's mean over the rows. -/
def mean (X : Fin 100000 → Fin 128 → EReal) (j : Fin 128) : EReal := Ideal.div (∑ i : Fin 100000, X i j) rows

/-- Column j's variance as the mean of the squared deviations. -/
def varDev (X : Fin 100000 → Fin 128 → EReal) (j : Fin 128) : EReal :=
  Ideal.div (∑ i : Fin 100000, (X i j - mean X j) * (X i j - mean X j)) rows

/-- Column j's variance as the mean of the squares less the squared mean. -/
def varSq (X : Fin 100000 → Fin 128 → EReal) (j : Fin 128) : EReal :=
  Ideal.div (∑ i : Fin 100000, X i j * X i j) rows - mean X j * mean X j

/-- The normalised, scaled and shifted entry: γ·(x − μ)·(σ² + ε)^(−1/2) + β. -/
def norm (X : Fin 100000 → Fin 128 → EReal) (mu var gamma beta : Fin 128 → EReal) (i : Fin 100000) (j : Fin 128) : EReal :=
  gamma j * (X i j - mu j) * Ideal.rsqrt (var j + eps) + beta j

/-- Every entry is a real number. -/
def AllReal {ι κ : Type} (X : ι → κ → EReal) : Prop := ∀ i j, ∃ r : ℝ, X i j = (r : EReal)

end Cert.Spec

end
-- ==== Proof.SpecLaws.lean ====
/-
  The algebra of the layer's specification on the extended reals: the row count as a real number, finiteness of
  the masked affine map on finite data, the two classical forms of the variance, and the regrouping of a sum over
  the rows into blocks.
-/
import proofs.«167465_j80161269613387_1_alg».proof.Proof.Spec
import Mathlib.Data.EReal.Operations
import Mathlib.Algebra.BigOperators.Fin
import Mathlib.Algebra.BigOperators.Ring.Finset
import Mathlib.Data.Fintype.BigOperators
import Mathlib.Logic.Equiv.Fin.Basic
import Mathlib.Tactic.Ring
import Mathlib.Tactic.FieldSimp
import Mathlib.Tactic.NormNum

noncomputable section

namespace Cert.Spec

open Idealize.ShloMosaic

/-- The float word 0x47C35000 is the real number 100000. -/
theorem rows_eq : rows = ((100000 : ℝ) : EReal) := by
  simp [Ideal.ofBits, Ideal.ieee, -EReal.coe_mul]; norm_num

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem sum_real {ι : Type} (s : Finset ι) (g : ι → EReal) (h : ∀ i, ∃ r : ℝ, g i = (r : EReal)) :
    ∃ r : ℝ, ∑ i ∈ s, g i = (r : EReal) := by
  choose r hr using h
  exact ⟨∑ i ∈ s, r i, by rw [coe_sum]; exact Finset.sum_congr rfl fun i _ => hr i⟩

/-- On finite data every entry of the masked sum of the two affine maps is finite. -/
theorem xOf_allReal {A feats : Fin 100000 → Fin 128 → EReal} {W Wr : Fin 128 → Fin 128 → EReal}
    {b br : Fin 128 → EReal} {mask : Fin 100000 → Fin 128 → EReal}
    (hA : AllReal A) (hf : AllReal feats) (hW : AllReal W) (hWr : AllReal Wr)
    (hb : ∀ j, ∃ r : ℝ, b j = (r : EReal)) (hbr : ∀ j, ∃ r : ℝ, br j = (r : EReal)) (hm : AllReal mask) :
    AllReal (xOf A feats W Wr b br mask) := by
  intro i j
  obtain ⟨s1, hs1⟩ := sum_real Finset.univ (fun k : Fin 128 => A i k * W k j) (fun k => by
    obtain ⟨a, ha⟩ := hA i k; obtain ⟨w, hw⟩ := hW k j
    exact ⟨a * w, by rw [ha, hw, EReal.coe_mul]⟩)
  obtain ⟨s2, hs2⟩ := sum_real Finset.univ (fun k : Fin 128 => feats i k * Wr k j) (fun k => by
    obtain ⟨a, ha⟩ := hf i k; obtain ⟨w, hw⟩ := hWr k j
    exact ⟨a * w, by rw [ha, hw, EReal.coe_mul]⟩)
  obtain ⟨b1, hb1⟩ := hb j
  obtain ⟨b2, hb2⟩ := hbr j
  obtain ⟨m, hm'⟩ := hm i j
  refine ⟨((s1 + b1) + (s2 + b2)) * m, ?_⟩
  simp only [xOf] at hs1 hs2 ⊢
  rw [hs1, hs2, hb1, hb2, hm']
  push_cast
  rfl

/-- The mean of the squared deviations is the mean of the squares less the squared mean, on finite data: with
    S = Σ x and Q = Σ x² over the N rows, Σ (x − S/N)² = Q − 2(S/N)S + N(S/N)² = Q − S²/N. -/
theorem varDev_eq_varSq (X : Fin 100000 → Fin 128 → EReal) (hX : AllReal X) (j : Fin 128) :
    varDev X j = varSq X j := by
  choose x hx using hX
  have hN : (100000 : ℝ) ≠ 0 := by norm_num
  have hmean : mean X j = (((∑ i : Fin 100000, x i j) * (1 / 100000) : ℝ) : EReal) := by
    simp only [mean, rows_eq, Ideal.div_coe hN, hx]
    rw [← coe_sum, ← EReal.coe_mul]
  have hdev : varDev X j
      = (((∑ i : Fin 100000, (x i j - (∑ i : Fin 100000, x i j) * (1 / 100000))
            * (x i j - (∑ i : Fin 100000, x i j) * (1 / 100000))) * (1 / 100000) : ℝ) : EReal) := by
    simp only [varDev, hmean, rows_eq, Ideal.div_coe hN, hx]
    simp only [← EReal.coe_sub, ← EReal.coe_mul]
    rw [← coe_sum, ← EReal.coe_mul]
  have hsq : varSq X j
      = (((∑ i : Fin 100000, x i j * x i j) * (1 / 100000)
            - ((∑ i : Fin 100000, x i j) * (1 / 100000)) * ((∑ i : Fin 100000, x i j) * (1 / 100000)) : ℝ) : EReal) := by
    simp only [varSq, hmean, rows_eq, Ideal.div_coe hN, hx]
    simp only [← EReal.coe_mul]
    rw [← coe_sum, ← EReal.coe_mul, ← EReal.coe_sub]
  rw [hdev, hsq]
  congr 1
  set S : ℝ := ∑ i : Fin 100000, x i j with hS
  have hexp : ∀ i : Fin 100000, (x i j - S * (1 / 100000)) * (x i j - S * (1 / 100000))
      = x i j * x i j - (2 * (S * (1 / 100000))) * x i j + (S * (1 / 100000)) * (S * (1 / 100000)) := fun i => by ring
  simp only [hexp]
  rw [Finset.sum_add_distrib, Finset.sum_sub_distrib, ← Finset.mul_sum, Finset.sum_const, Finset.card_univ,
    Fintype.card_fin, ← hS]
  simp only [nsmul_eq_mul]
  push_cast
  ring

/-- The sum over the 100000 rows, regrouped into the 50 blocks of 2000 consecutive rows. -/
theorem sum_blocks (f : Fin 100000 → EReal) :
    ∑ i : Fin 100000, f i = ∑ t : Fin 50, ∑ r : Fin 2000, f ⟨t.val * 2000 + r.val, by omega⟩ := by
  rw [← Equiv.sum_comp (finProdFinEquiv.trans (finCongr (by norm_num : 50 * 2000 = 100000))) f,
    Fintype.sum_prod_type]
  refine Finset.sum_congr rfl fun t _ => Finset.sum_congr rfl fun r _ => ?_
  congr 1
  refine Fin.ext ?_
  show r.val + 2000 * t.val = t.val * 2000 + r.val
  omega

end Cert.Spec

end
-- ==== Proof.StatsValue.lean ====
/-
  Region 0's values on the extended reals: what its three result arrays hold after the fifty grid points, as
  the specification's functions of the arrays the region finds.

  The big output is tiled by row blocks of 2000, and at point t the body stores the masked sum of the two affine
  maps of the point's input blocks; a block's entry (p, q) is the array's entry (2000 t + p, q), so the array ends
  holding the specification's x entry by entry. The two carried row buffers hold, after point n, the column sums
  and the column sums of squares of x over the rows of blocks 0 … n (induction on the point); after the last
  point these are the sums over all 100000 rows, and the two small outputs, written back once at that point,
  hold the sums divided by the row count: the mean, and the mean of the squares less the squared mean.

  The per-point equations between what the body leaves and its payloads, and the payloads read at an index, are
  taken as hypotheses.
-/
import proofs.«167465_j80161269613387_1_alg».proof.Proof.KI.StatsRegion
import proofs.«167465_j80161269613387_1_alg».proof.Proof.Spec
import proofs.«167465_j80161269613387_1_alg».proof.Proof.SpecLaws
import Idealize.ShloMosaic.Lib.Pipeline.Value
import Idealize.ShloMosaic.Lib.ValueIdx

set_option maxRecDepth 16384

noncomputable section

namespace Cert.KernelIdeal.StatsValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The block index maps, decided once over the fifty grid points -/

/-- The aggregated features are tiled by rows: at point `t` the block is row block `t`. -/
theorem index0_0 : ∀ t : Fin cfg0.N, win0_0.index t (0 : Fin 2) = t.val ∧ win0_0.index t (1 : Fin 2) = 0 :=
  (by decide +kernel : ∀ t : Fin grid0.N, _)

/-- The node features are tiled the same way. -/
theorem index0_1 : ∀ t : Fin cfg0.N, win0_1.index t (0 : Fin 2) = t.val ∧ win0_1.index t (1 : Fin 2) = 0 :=
  (by decide +kernel : ∀ t : Fin grid0.N, _)

/-- So is the mask. -/
theorem index0_6 : ∀ t : Fin cfg0.N, win0_6.index t (0 : Fin 2) = t.val ∧ win0_6.index t (1 : Fin 2) = 0 :=
  (by decide +kernel : ∀ t : Fin grid0.N, _)

/-- So is the big output. -/
theorem index0_7 : ∀ t : Fin cfg0.N, win0_7.index t (0 : Fin 2) = t.val ∧ win0_7.index t (1 : Fin 2) = 0 :=
  (by decide +kernel : ∀ t : Fin grid0.N, _)

/-- The first weight matrix is one block, the same at every point. -/
theorem index0_2 : ∀ t : Fin cfg0.N, win0_2.index t (0 : Fin 2) = 0 ∧ win0_2.index t (1 : Fin 2) = 0 :=
  (by decide +kernel : ∀ t : Fin grid0.N, _)

/-- So is the first bias row. -/
theorem index0_3 : ∀ t : Fin cfg0.N, win0_3.index t (0 : Fin 2) = 0 ∧ win0_3.index t (1 : Fin 2) = 0 :=
  (by decide +kernel : ∀ t : Fin grid0.N, _)

/-- So is the second weight matrix. -/
theorem index0_4 : ∀ t : Fin cfg0.N, win0_4.index t (0 : Fin 2) = 0 ∧ win0_4.index t (1 : Fin 2) = 0 :=
  (by decide +kernel : ∀ t : Fin grid0.N, _)

/-- So is the second bias row. -/
theorem index0_5 : ∀ t : Fin cfg0.N, win0_5.index t (0 : Fin 2) = 0 ∧ win0_5.index t (1 : Fin 2) = 0 :=
  (by decide +kernel : ∀ t : Fin grid0.N, _)

/-- The mean's row is one block. -/
theorem index0_8 : ∀ t : Fin cfg0.N, win0_8.index t (0 : Fin 2) = 0 ∧ win0_8.index t (1 : Fin 2) = 0 :=
  (by decide +kernel : ∀ t : Fin grid0.N, _)

/-- The variance's row is one block. -/
theorem index0_9 : ∀ t : Fin cfg0.N, win0_9.index t (0 : Fin 2) = 0 ∧ win0_9.index t (1 : Fin 2) = 0 :=
  (by decide +kernel : ∀ t : Fin grid0.N, _)

/-! ## Each input block, entry by entry, as entries of its array

A block's entry (p, q) sits in the array at (block index × block rows + p, q). -/

/-- Row `p` of the aggregated features' block at point `t` is row `2000 t + p` of the array. -/
theorem aggBlk_apply (c : Dev nD) (t : Fin cfg0.N) (p : Fin 2000) (q : Fin 128) (i : Fin 100000)
    (hi : i.val = t.val * 2000 + p.val) :
    (iblk0 V c 0 t : S2000x128.Idx → EReal) (ix2 p q) = (V c main_v26 : S100000x128.Idx → EReal) (ix2 i q) := by
  obtain ⟨e0, e1⟩ := index0_0 t
  unfold iblk0
  rw [View.read_apply]
  show V c main_v26 _ = V c main_v26 _
  congr 1
  funext a
  apply Fin.ext
  match a with
  | ⟨0, _⟩ => show win0_0.index t (0 : Fin 2) * 2000 + 1 * p.val = i.val; rw [e0, hi]; omega
  | ⟨1, _⟩ => show win0_0.index t (1 : Fin 2) * 128 + 1 * q.val = q.val; rw [e1]; omega

/-- Row `p` of the node features' block at point `t` is row `2000 t + p` of the array. -/
theorem featBlk_apply (c : Dev nD) (t : Fin cfg0.N) (p : Fin 2000) (q : Fin 128) (i : Fin 100000)
    (hi : i.val = t.val * 2000 + p.val) :
    (iblk0 V c 1 t : S2000x128.Idx → EReal) (ix2 p q) = (V c main_arg0 : S100000x128.Idx → EReal) (ix2 i q) := by
  obtain ⟨e0, e1⟩ := index0_1 t
  unfold iblk0
  rw [View.read_apply]
  show V c main_arg0 _ = V c main_arg0 _
  congr 1
  funext a
  apply Fin.ext
  match a with
  | ⟨0, _⟩ => show win0_1.index t (0 : Fin 2) * 2000 + 1 * p.val = i.val; rw [e0, hi]; omega
  | ⟨1, _⟩ => show win0_1.index t (1 : Fin 2) * 128 + 1 * q.val = q.val; rw [e1]; omega

/-- Row `p` of the mask's block at point `t` is row `2000 t + p` of the array. -/
theorem maskBlk_apply (c : Dev nD) (t : Fin cfg0.N) (p : Fin 2000) (q : Fin 128) (i : Fin 100000)
    (hi : i.val = t.val * 2000 + p.val) :
    (iblk0 V c 6 t : S2000x128.Idx → EReal) (ix2 p q) = (V c main_arg7 : S100000x128.Idx → EReal) (ix2 i q) := by
  obtain ⟨e0, e1⟩ := index0_6 t
  unfold iblk0
  rw [View.read_apply]
  show V c main_arg7 _ = V c main_arg7 _
  congr 1
  funext a
  apply Fin.ext
  match a with
  | ⟨0, _⟩ => show win0_6.index t (0 : Fin 2) * 2000 + 1 * p.val = i.val; rw [e0, hi]; omega
  | ⟨1, _⟩ => show win0_6.index t (1 : Fin 2) * 128 + 1 * q.val = q.val; rw [e1]; omega

/-- The first weight matrix's block is the matrix. -/
theorem wBlk_apply (c : Dev nD) (t : Fin cfg0.N) (k q : Fin 128) :
    (iblk0 V c 2 t : S128x128.Idx → EReal) (ix2 k q) = (V c main_arg1 : S128x128.Idx → EReal) (ix2 k q) := by
  obtain ⟨e0, e1⟩ := index0_2 t
  unfold iblk0
  rw [View.read_apply]
  show V c main_arg1 _ = V c main_arg1 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The second weight matrix's block is the matrix. -/
theorem wrBlk_apply (c : Dev nD) (t : Fin cfg0.N) (k q : Fin 128) :
    (iblk0 V c 4 t : S128x128.Idx → EReal) (ix2 k q) = (V c main_arg3 : S128x128.Idx → EReal) (ix2 k q) := by
  obtain ⟨e0, e1⟩ := index0_4 t
  unfold iblk0
  rw [View.read_apply]
  show V c main_arg3 _ = V c main_arg3 _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The first bias row's block is the row. -/
theorem bBlk_apply (c : Dev nD) (t : Fin cfg0.N) (z : Fin 1) (q : Fin 128) :
    (iblk0 V c 3 t : S1x128.Idx → EReal) (ix2 z q) = (V c main_v27 : S1x128.Idx → EReal) (ix2 z q) := by
  obtain ⟨e0, e1⟩ := index0_3 t
  unfold iblk0
  rw [View.read_apply]
  show V c main_v27 _ = V c main_v27 _
  congr 1
  funext a
  apply Fin.ext
  match a with
  | ⟨0, _⟩ => show win0_3.index t (0 : Fin 2) * 1 + 1 * z.val = z.val; rw [e0]; omega
  | ⟨1, _⟩ => show win0_3.index t (1 : Fin 2) * 128 + 1 * q.val = q.val; rw [e1]; omega

/-- The second bias row's block is the row. -/
theorem brBlk_apply (c : Dev nD) (t : Fin cfg0.N) (z : Fin 1) (q : Fin 128) :
    (iblk0 V c 5 t : S1x128.Idx → EReal) (ix2 z q) = (V c main_v28 : S1x128.Idx → EReal) (ix2 z q) := by
  obtain ⟨e0, e1⟩ := index0_5 t
  unfold iblk0
  rw [View.read_apply]
  show V c main_v28 _ = V c main_v28 _
  congr 1
  funext a
  apply Fin.ext
  match a with
  | ⟨0, _⟩ => show win0_5.index t (0 : Fin 2) * 1 + 1 * z.val = z.val; rw [e0]; omega
  | ⟨1, _⟩ => show win0_5.index t (1 : Fin 2) * 128 + 1 * q.val = q.val; rw [e1]; omega

/-! ## The specification's x of the arrays the region finds, and the block the body stores -/

/-- The masked sum of the two affine maps, entry by entry, of the seven input arrays as the region finds them. -/
def specX (c : Dev nD) : Fin 100000 → Fin 128 → EReal :=
  Cert.Spec.xOf (fun i k => (V c main_v26 : S100000x128.Idx → EReal) (ix2 i k))
    (fun i k => (V c main_arg0 : S100000x128.Idx → EReal) (ix2 i k))
    (fun k j => (V c main_arg1 : S128x128.Idx → EReal) (ix2 k j))
    (fun k j => (V c main_arg3 : S128x128.Idx → EReal) (ix2 k j))
    (fun j => (V c main_v27 : S1x128.Idx → EReal) (ix2 0 j))
    (fun j => (V c main_v28 : S1x128.Idx → EReal) (ix2 0 j))
    (fun i j => (V c main_arg7 : S100000x128.Idx → EReal) (ix2 i j))

/-- The block the body stores into the big output at point `t`: the masked sum of the two affine maps of the
    seven input blocks there. -/
abbrev xB (c : Dev nD) (t : Fin cfg0.N) : FVec Ideal S2000x128 .f32 :=
  k0_pay6 (F := Ideal) (iblk0 V c 0 t) (iblk0 V c 1 t) (iblk0 V c 2 t) (iblk0 V c 4 t) (iblk0 V c 3 t) (iblk0 V c 5 t) (iblk0 V c 6 t)

/-! ## The hypotheses: what the body leaves at each point, and the payloads at an index -/

-- The big output's buffer after point `t` holds the masked block.
variable (hx : ∀ (c : Dev nD) (t : Fin cfg0.N), (outsAt0 V c t.val t.isLt).1 = xB V c t)
-- The first carried buffer after the first point: the block's column sums added to the zero row.
variable (hs0z : ∀ (c : Dev nD) (h : 0 < cfg0.N), (outsAt0 V c 0 h).2.2.2.1
    = k0_pay7 (iblk0 V c 0 ⟨0, h⟩) (iblk0 V c 1 ⟨0, h⟩) (iblk0 V c 2 ⟨0, h⟩) (iblk0 V c 4 ⟨0, h⟩) (iblk0 V c 3 ⟨0, h⟩)
        (iblk0 V c 5 ⟨0, h⟩) (iblk0 V c 6 ⟨0, h⟩) (k0_pay4 (F := Ideal)))
-- The first carried buffer after a later point: the block's column sums added to what the point before left.
variable (hs0s : ∀ (c : Dev nD) (n : ℕ) (h : n + 1 < cfg0.N), (outsAt0 V c (n + 1) h).2.2.2.1
    = k0_pay7 (iblk0 V c 0 ⟨n + 1, h⟩) (iblk0 V c 1 ⟨n + 1, h⟩) (iblk0 V c 2 ⟨n + 1, h⟩) (iblk0 V c 4 ⟨n + 1, h⟩)
        (iblk0 V c 3 ⟨n + 1, h⟩) (iblk0 V c 5 ⟨n + 1, h⟩) (iblk0 V c 6 ⟨n + 1, h⟩)
        ((outsAt0 V c n (Nat.lt_of_succ_lt h)).2.2.2.1))
-- The second carried buffer after the first point: the block's column sums of squares added to the zero row.
variable (hs1z : ∀ (c : Dev nD) (h : 0 < cfg0.N), (outsAt0 V c 0 h).2.2.2.2 = k0_pay1 (xB V c ⟨0, h⟩) (k0_pay5 (F := Ideal)))
-- The second carried buffer after a later point.
variable (hs1s : ∀ (c : Dev nD) (n : ℕ) (h : n + 1 < cfg0.N), (outsAt0 V c (n + 1) h).2.2.2.2
    = k0_pay1 (xB V c ⟨n + 1, h⟩) ((outsAt0 V c n (Nat.lt_of_succ_lt h)).2.2.2.2))
-- The mean's buffer after the last point, of the first carried buffer there.
variable (hmean : ∀ (c : Dev nD) (h : 49 < cfg0.N), (outsAt0 V c 49 h).2.1 = k0_pay2 ((outsAt0 V c 49 h).2.2.2.1))
-- The variance's buffer after the last point, of the two carried buffers there.
variable (hvar : ∀ (c : Dev nD) (h : 49 < cfg0.N), (outsAt0 V c 49 h).2.2.1
    = k0_pay3 ((outsAt0 V c 49 h).2.2.2.1) ((outsAt0 V c 49 h).2.2.2.2))
-- The masked block at an index: two 128-term products, a bias each, the mask.
variable (hpay6 : ∀ (v3 v6 : Vec Ideal S2000x128 .f32) (v8 v10 : Vec Ideal S128x128 .f32) (v13 v18 : Vec Ideal S1x128 .f32)
    (v23 : Vec Ideal S2000x128 .f32) (p : Fin 2000) (q : Fin 128),
    k0_pay6 (F := Ideal) v3 v6 v8 v10 v13 v18 v23 (ix2 p q)
      = ((∑ k : Fin 128, v3 (ix2 p k) * v8 (ix2 k q) + v13 (ix2 0 q))
          + (∑ k : Fin 128, v6 (ix2 p k) * v10 (ix2 k q) + v18 (ix2 0 q))) * v23 (ix2 p q))
-- The running column sum's update at a column: the old entry plus the block's column sum.
variable (hpay7 : ∀ (v3 v6 : Vec Ideal S2000x128 .f32) (v8 v10 : Vec Ideal S128x128 .f32) (v13 v18 : Vec Ideal S1x128 .f32)
    (v23 : Vec Ideal S2000x128 .f32) (v25 : Vec Ideal S1x128 .f32) (q : Fin 128),
    k0_pay7 (F := Ideal) v3 v6 v8 v10 v13 v18 v23 v25 (ix2 0 q)
      = v25 (ix2 0 q) + ∑ p : Fin 2000, k0_pay6 (F := Ideal) v3 v6 v8 v10 v13 v18 v23 (ix2 p q))
-- The running column sum of squares' update at a column.
variable (hpay1 : ∀ (v24 : FVec Ideal S2000x128 .f32) (v32 : Vec Ideal S1x128 .f32) (q : Fin 128),
    k0_pay1 (F := Ideal) v24 v32 (ix2 0 q) = v32 (ix2 0 q) + ∑ p : Fin 2000, v24 (ix2 p q) * v24 (ix2 p q))
-- The two zero rows.
variable (hpay4 : ∀ q : Fin 128, (k0_pay4 (F := Ideal)) (ix2 0 q) = 0)
variable (hpay5 : ∀ q : Fin 128, (k0_pay5 (F := Ideal)) (ix2 0 q) = 0)
-- The mean at a column: the column sum over the row count.
variable (hpay2 : ∀ (v44 : Vec Ideal S1x128 .f32) (q : Fin 128),
    k0_pay2 (F := Ideal) v44 (ix2 0 q) = Ideal.div (v44 (ix2 0 q)) Cert.Spec.rows)
-- The variance at a column: the mean of the squares less the squared mean.
variable (hpay3 : ∀ (v44 v47 : Vec Ideal S1x128 .f32) (q : Fin 128),
    k0_pay3 (F := Ideal) v44 v47 (ix2 0 q)
      = Ideal.div (v47 (ix2 0 q)) Cert.Spec.rows
        - Ideal.div (v44 (ix2 0 q)) Cert.Spec.rows * Ideal.div (v44 (ix2 0 q)) Cert.Spec.rows)

/-! ## The big output: the array ends holding the specification's x -/

section BigOutput
include hpay6

/-- The stored block at an entry is the specification's x at the array's row under it. -/
theorem xB_apply (c : Dev nD) (t : Fin cfg0.N) (p : Fin 2000) (q : Fin 128) (i : Fin 100000)
    (hi : i.val = t.val * 2000 + p.val) : xB V c t (ix2 p q) = specX V c i q := by
  refine (hpay6 (iblk0 V c 0 t) (iblk0 V c 1 t) (iblk0 V c 2 t) (iblk0 V c 4 t) (iblk0 V c 3 t) (iblk0 V c 5 t)
    (iblk0 V c 6 t) p q).trans ?_
  unfold specX Cert.Spec.xOf
  simp only [fun k => aggBlk_apply V c t p k i hi, fun k => featBlk_apply V c t p k i hi, maskBlk_apply V c t p q i hi,
    wBlk_apply V c t, wrBlk_apply V c t, bBlk_apply V c t, brBlk_apply V c t]

/-- The big output as one function of the arrays: entry (i, j) is the specification's x there. -/
def xArr (c : Dev nD) : S100000x128.Idx → EReal := fun idx => specX V c (idx 0) (idx 1)

/-- The same over any two indices, a block's and the array's, whose coordinates are so related. -/
theorem xB_eq_xArr (c : Dev nD) (t : Fin cfg0.N) (y : S2000x128.Idx) (idx : S100000x128.Idx)
    (h0 : (idx 0).val = t.val * 2000 + (y 0).val) (h1 : (idx 1).val = (y 1).val) : xB V c t y = xArr V c idx := by
  obtain ⟨p, q, rfl⟩ : ∃ (p : Fin 2000) (q : Fin 128), y = ix2 p q := ⟨y 0, y 1, eq_ix2 y⟩
  obtain ⟨i, j, rfl⟩ : ∃ (i : Fin 100000) (j : Fin 128), idx = ix2 i j := ⟨idx 0, idx 1, eq_ix2 idx⟩
  obtain rfl : j = q := Fin.ext h1
  exact xB_apply V hpay6 c t p j i h0

include hx

/-- What point `t` writes back to the big output is block `t` of that function. -/
theorem flushed7_eq (c : Dev nD) (t : Fin cfg0.N) :
    (dat0 V c).flushed 7 t = ((cfg0.win 7).blk t).view.read (Elt Ideal) (xArr V c) := by
  show (cfg0.win 7).cut (grid0.coords t) ((dat0 V c).after 7 t) = _
  rw [after0_7, hx c t]
  obtain ⟨e0, e1⟩ := index0_7 t
  funext y
  show xB V c t ((cfg0.win 7).xinj (grid0.coords t) y) = xArr V c (((cfg0.win 7).blk t).view.emb y)
  refine xB_eq_xArr V hpay6 c t _ _ ?_ ?_
  · show win0_7.index t (0 : Fin 2) * 2000 + 1 * (y 0).val = t.val * 2000 + (y 0).val
    rw [e0]; omega
  · show win0_7.index t (1 : Fin 2) * 128 + 1 * (y 1).val = (y 1).val
    rw [e1]; omega

omit hx hpay6 in
/-- An index of the big output is in point `t`'s block iff each coordinate is in the block's range on its axis. -/
theorem mem_blk7 (t : Fin cfg0.N) (i : S100000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v31_0).slice (win0_7.rect t)).set ↔ _
  rw [View.set_slice_whole, Rect.mem_set_unit]
  exact Iff.rfl

omit hx hpay6 in
/-- Row `r` of the big output is written back by point `r / 2000`. -/
theorem cover7 (i : S100000x128.Idx) :
    ∃ t : Fin cfg0.N, (cfg0.win 7).flush t = true ∧ i ∈ ((cfg0.win 7).blk t).view.set := by
  have h0 : (i 0).val < 100000 := idx2_lt0 i
  have h1 : (i 1).val < 128 := idx2_lt1 i
  have hN : cfg0.N = 50 := N_0
  have ht : (i 0).val / 2000 < cfg0.N := by rw [hN]; omega
  obtain ⟨e0, e1⟩ := index0_7 ⟨(i 0).val / 2000, ht⟩
  refine ⟨⟨(i 0).val / 2000, ht⟩, flush0_7 _, ?_⟩
  rw [mem_blk7]
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, ht⟩ (1 : Fin 2) * 128 ≤ (i 1).val
      ∧ (i 1).val < win0_7.index ⟨(i 0).val / 2000, ht⟩ (1 : Fin 2) * 128 + 128
    rw [e1]; omega

/-- So the big output ends holding the specification's x. -/
theorem final7 (c : Dev nD) : (dat0 V c).arrAt 7 cfg0.N = xArr V c :=
  (dat0 V c).arrAt_eq_of_cover 7 (xArr V c) (fun t _ => flushed7_eq V hx hpay6 c t) cover7

/-- The big output after the region, entry by entry. -/
theorem stats_x_apply (c : Dev nD) (i : Fin 100000) (j : Fin 128) :
    ((dat0 V c).arrAt 7 cfg0.N : S100000x128.Idx → EReal) (ix2 i j) = specX V c i j :=
  congrFun (final7 V hx hpay6 c) (ix2 i j)

end BigOutput

/-! ## The two carried rows: the column sums and the column sums of squares over the blocks so far -/

/-- The sum of column `q` of `X` over the 2000 rows of row block `t` (nothing past the fiftieth block). -/
def blockSum (X : Fin 100000 → Fin 128 → EReal) (q : Fin 128) (t : ℕ) : EReal :=
  if h : t < 50 then ∑ p : Fin 2000, X ⟨t * 2000 + p.val, by have := p.isLt; omega⟩ q else 0

/-- The fifty block sums add up to the sum over all the rows. -/
theorem sum_blockSum (X : Fin 100000 → Fin 128 → EReal) (q : Fin 128) :
    ∑ t ∈ Finset.range 50, blockSum X q t = ∑ i : Fin 100000, X i q := by
  refine Eq.trans ?_ (Cert.Spec.sum_blocks (fun i => X i q)).symm
  rw [Finset.sum_range]
  refine Finset.sum_congr rfl fun t _ => ?_
  unfold blockSum
  exact dif_pos t.isLt

section BlockSums
include hpay6

/-- The stored block's column sum is the specification's x summed over the block's rows. -/
theorem blockSum_xB (c : Dev nD) (t : Fin cfg0.N) (q : Fin 128) :
    ∑ p : Fin 2000, xB V c t (ix2 p q) = blockSum (specX V c) q t.val := by
  have hN : cfg0.N = 50 := N_0
  have ht : t.val < 50 := by have := t.isLt; omega
  have hi : ∀ p : Fin 2000, t.val * 2000 + p.val < 100000 := fun p => by have := p.isLt; omega
  unfold blockSum
  rw [dif_pos ht]
  exact Finset.sum_congr rfl fun p _ => xB_apply V hpay6 c t p q ⟨t.val * 2000 + p.val, hi p⟩ rfl

/-- The same for the squares. -/
theorem blockSum_xB_sq (c : Dev nD) (t : Fin cfg0.N) (q : Fin 128) :
    ∑ p : Fin 2000, xB V c t (ix2 p q) * xB V c t (ix2 p q)
      = blockSum (fun i j => specX V c i j * specX V c i j) q t.val := by
  have hN : cfg0.N = 50 := N_0
  have ht : t.val < 50 := by have := t.isLt; omega
  have hi : ∀ p : Fin 2000, t.val * 2000 + p.val < 100000 := fun p => by have := p.isLt; omega
  unfold blockSum
  rw [dif_pos ht]
  refine Finset.sum_congr rfl fun p _ => ?_
  rw [xB_apply V hpay6 c t p q ⟨t.val * 2000 + p.val, hi p⟩ rfl]

end BlockSums

section ColumnSums
include hs0z hs0s hpay6 hpay7 hpay4

/-- After point `n` the first carried row holds, at column `q`, the sum of the specification's x over the rows of
    blocks 0 … n: the first point adds its block's column sum to the zero row, a later one to what the point before
    left. -/
theorem colSum_eq (c : Dev nD) : ∀ (n : ℕ) (h : n < cfg0.N) (q : Fin 128),
    ((outsAt0 V c n h).2.2.2.1 : S1x128.Idx → EReal) (ix2 0 q) = ∑ t ∈ Finset.range (n + 1), blockSum (specX V c) q t
  | 0, h, q => by
    rw [hs0z c h]
    refine (hpay7 (iblk0 V c 0 ⟨0, h⟩) (iblk0 V c 1 ⟨0, h⟩) (iblk0 V c 2 ⟨0, h⟩) (iblk0 V c 4 ⟨0, h⟩) (iblk0 V c 3 ⟨0, h⟩)
      (iblk0 V c 5 ⟨0, h⟩) (iblk0 V c 6 ⟨0, h⟩) (k0_pay4 (F := Ideal)) q).trans ?_
    rw [hpay4 q, Finset.sum_range_succ, Finset.sum_range_zero, zero_add, zero_add]
    exact blockSum_xB V hpay6 c ⟨0, h⟩ q
  | n + 1, h, q => by
    rw [hs0s c n h]
    refine (hpay7 (iblk0 V c 0 ⟨n + 1, h⟩) (iblk0 V c 1 ⟨n + 1, h⟩) (iblk0 V c 2 ⟨n + 1, h⟩) (iblk0 V c 4 ⟨n + 1, h⟩) (iblk0 V c 3 ⟨n + 1, h⟩)
      (iblk0 V c 5 ⟨n + 1, h⟩) (iblk0 V c 6 ⟨n + 1, h⟩) ((outsAt0 V c n (Nat.lt_of_succ_lt h)).2.2.2.1) q).trans ?_
    rw [colSum_eq c n (Nat.lt_of_succ_lt h) q, Finset.sum_range_succ _ (n + 1)]
    exact congrArg (HAdd.hAdd _) (blockSum_xB V hpay6 c ⟨n + 1, h⟩ q)

/-- After the last point it holds the column sums over all the rows. -/
theorem colSum_last (c : Dev nD) (h : 49 < cfg0.N) (q : Fin 128) :
    ((outsAt0 V c 49 h).2.2.2.1 : S1x128.Idx → EReal) (ix2 0 q) = ∑ i : Fin 100000, specX V c i q :=
  (colSum_eq V hs0z hs0s hpay6 hpay7 hpay4 c 49 h q).trans (sum_blockSum (specX V c) q)

end ColumnSums

section SquareSums
include hs1z hs1s hpay6 hpay1 hpay5

/-- After point `n` the second carried row holds, at column `q`, the sum of the squares of the specification's x over
    the rows of blocks 0 … n. -/
theorem sqSum_eq (c : Dev nD) : ∀ (n : ℕ) (h : n < cfg0.N) (q : Fin 128),
    ((outsAt0 V c n h).2.2.2.2 : S1x128.Idx → EReal) (ix2 0 q)
      = ∑ t ∈ Finset.range (n + 1), blockSum (fun i j => specX V c i j * specX V c i j) q t
  | 0, h, q => by
    rw [hs1z c h]
    refine (hpay1 (xB V c ⟨0, h⟩) (k0_pay5 (F := Ideal)) q).trans ?_
    rw [hpay5 q, Finset.sum_range_succ, Finset.sum_range_zero, zero_add, zero_add]
    exact blockSum_xB_sq V hpay6 c ⟨0, h⟩ q
  | n + 1, h, q => by
    rw [hs1s c n h]
    refine (hpay1 (xB V c ⟨n + 1, h⟩) ((outsAt0 V c n (Nat.lt_of_succ_lt h)).2.2.2.2) q).trans ?_
    rw [sqSum_eq c n (Nat.lt_of_succ_lt h) q, Finset.sum_range_succ _ (n + 1)]
    exact congrArg (HAdd.hAdd _) (blockSum_xB_sq V hpay6 c ⟨n + 1, h⟩ q)

/-- After the last point it holds the column sums of squares over all the rows. -/
theorem sqSum_last (c : Dev nD) (h : 49 < cfg0.N) (q : Fin 128) :
    ((outsAt0 V c 49 h).2.2.2.2 : S1x128.Idx → EReal) (ix2 0 q) = ∑ i : Fin 100000, specX V c i q * specX V c i q :=
  (sqSum_eq V hs1z hs1s hpay6 hpay1 hpay5 c 49 h q).trans
    (sum_blockSum (fun i j => specX V c i j * specX V c i j) q)

end SquareSums

/-! ## The two small outputs: the mean and the variance -/

section meanArrOut
include hs0z hs0s hmean hpay6 hpay7 hpay4 hpay2

/-- The mean's row as one function: column `j` holds the mean of column `j` of the specification's x. -/
def meanArr (c : Dev nD) : S1x128.Idx → EReal := fun idx => Cert.Spec.mean (specX V c) (idx 1)

/-- What the mean's buffer holds after the last point: the column sum over the row count. -/
theorem meanBuf_eq (c : Dev nD) (h : 49 < cfg0.N) (y idx : S1x128.Idx) (h1 : (idx 1).val = (y 1).val) :
    ((outsAt0 V c 49 h).2.1 : S1x128.Idx → EReal) y = meanArr V c idx := by
  obtain ⟨z, q, rfl⟩ : ∃ (z : Fin 1) (q : Fin 128), y = ix2 z q := ⟨y 0, y 1, eq_ix2 y⟩
  obtain ⟨z', j, rfl⟩ : ∃ (z' : Fin 1) (j : Fin 128), idx = ix2 z' j := ⟨idx 0, idx 1, eq_ix2 idx⟩
  obtain rfl : j = q := Fin.ext h1
  obtain rfl : z = 0 := Subsingleton.elim _ _
  rw [hmean c h]
  refine (hpay2 ((outsAt0 V c 49 h).2.2.2.1) j).trans ?_
  rw [colSum_last V hs0z hs0s hpay6 hpay7 hpay4 c h j]
  rfl

/-- The one write-back of the mean's row, at the last point, writes that function's block. -/
theorem flushed8_eq (c : Dev nD) (t : Fin cfg0.N) (hf : (cfg0.win 8).flush t = true) :
    (dat0 V c).flushed 8 t = ((cfg0.win 8).blk t).view.read (Elt Ideal) (meanArr V c) := by
  have hN : cfg0.N = 50 := N_0
  have h49 : t.val = 49 := by have := (flush0_8 t).mp hf; have := t.isLt; omega
  obtain ⟨e0, e1⟩ := index0_8 t
  show (cfg0.win 8).cut (grid0.coords t) ((dat0 V c).after 8 t) = _
  rw [after0_8]
  obtain ⟨n, hn⟩ := t
  obtain rfl : n = 49 := h49
  funext y
  show ((outsAt0 V c 49 hn).2.1 : S1x128.Idx → EReal) ((cfg0.win 8).xinj (grid0.coords ⟨49, hn⟩) y)
    = meanArr V c (((cfg0.win 8).blk ⟨49, hn⟩).view.emb y)
  refine meanBuf_eq V hs0z hs0s hmean hpay6 hpay7 hpay4 hpay2 c hn _ _ ?_
  show win0_8.index ⟨49, hn⟩ (1 : Fin 2) * 128 + 1 * (y 1).val = (y 1).val
  rw [e1]; omega

omit hs0z hs0s hmean hpay6 hpay7 hpay4 hpay2 in
/-- An index of the row is in point `t`'s block iff each coordinate is in the block's range on its axis. -/
theorem mem_blk8 (t : Fin cfg0.N) (i : S1x128.Idx) :
    i ∈ ((cfg0.win 8).blk t).view.set ↔ ∀ a : Fin 2, win0_8.index t a * S1x128.size a ≤ (i a).val
      ∧ (i a).val < win0_8.index t a * S1x128.size a + S1x128.size a := by
  show i ∈ ((View.whole main_v31_1).slice (win0_8.rect t)).set ↔ _
  rw [View.set_slice_whole, Rect.mem_set_unit]
  exact Iff.rfl

omit hs0z hs0s hmean hpay6 hpay7 hpay4 hpay2 in
/-- The one write-back, at the last point, covers the whole row. -/
theorem cover8 (i : S1x128.Idx) :
    ∃ t : Fin cfg0.N, (cfg0.win 8).flush t = true ∧ i ∈ ((cfg0.win 8).blk t).view.set := by
  have h0 : (i 0).val < 1 := idx2_lt0 i
  have h1 : (i 1).val < 128 := idx2_lt1 i
  have hN : cfg0.N = 50 := N_0
  have ht : 49 < cfg0.N := by rw [hN]; omega
  obtain ⟨e0, e1⟩ := index0_8 ⟨49, ht⟩
  refine ⟨⟨49, ht⟩, (flush0_8 _).mpr rfl, ?_⟩
  rw [mem_blk8]
  intro a
  match a with
  | ⟨0, _⟩ =>
    show win0_8.index ⟨49, ht⟩ (0 : Fin 2) * 1 ≤ (i 0).val ∧ (i 0).val < win0_8.index ⟨49, ht⟩ (0 : Fin 2) * 1 + 1
    rw [e0]; omega
  | ⟨1, _⟩ =>
    show win0_8.index ⟨49, ht⟩ (1 : Fin 2) * 128 ≤ (i 1).val
      ∧ (i 1).val < win0_8.index ⟨49, ht⟩ (1 : Fin 2) * 128 + 128
    rw [e1]; omega

/-- So the mean's row ends holding the column means. -/
theorem final8 (c : Dev nD) : (dat0 V c).arrAt 8 cfg0.N = meanArr V c :=
  (dat0 V c).arrAt_eq_of_cover 8 (meanArr V c) (flushed8_eq V hs0z hs0s hmean hpay6 hpay7 hpay4 hpay2 c) cover8

/-- The mean's row after the region, column by column. -/
theorem stats_mean_apply (c : Dev nD) (j : Fin 128) :
    ((dat0 V c).arrAt 8 cfg0.N : S1x128.Idx → EReal) (ix2 0 j) = Cert.Spec.mean (specX V c) j :=
  congrFun (final8 V hs0z hs0s hmean hpay6 hpay7 hpay4 hpay2 c) (ix2 0 j)

end meanArrOut

section varArrOut
include hs0z hs0s hs1z hs1s hvar hpay6 hpay7 hpay1 hpay4 hpay5 hpay3

/-- The variance's row as one function: column `j` holds the mean of the squares less the squared mean of column `j`. -/
def varArr (c : Dev nD) : S1x128.Idx → EReal := fun idx => Cert.Spec.varSq (specX V c) (idx 1)

/-- What the variance's buffer holds after the last point, of the two carried rows there. -/
theorem varBuf_eq (c : Dev nD) (h : 49 < cfg0.N) (y idx : S1x128.Idx) (h1 : (idx 1).val = (y 1).val) :
    ((outsAt0 V c 49 h).2.2.1 : S1x128.Idx → EReal) y = varArr V c idx := by
  obtain ⟨z, q, rfl⟩ : ∃ (z : Fin 1) (q : Fin 128), y = ix2 z q := ⟨y 0, y 1, eq_ix2 y⟩
  obtain ⟨z', j, rfl⟩ : ∃ (z' : Fin 1) (j : Fin 128), idx = ix2 z' j := ⟨idx 0, idx 1, eq_ix2 idx⟩
  obtain rfl : j = q := Fin.ext h1
  obtain rfl : z = 0 := Subsingleton.elim _ _
  rw [hvar c h]
  refine (hpay3 ((outsAt0 V c 49 h).2.2.2.1) ((outsAt0 V c 49 h).2.2.2.2) j).trans ?_
  rw [colSum_last V hs0z hs0s hpay6 hpay7 hpay4 c h j, sqSum_last V hs1z hs1s hpay6 hpay1 hpay5 c h j]
  rfl

/-- The one write-back of the variance's row, at the last point, writes that function's block. -/
theorem flushed9_eq (c : Dev nD) (t : Fin cfg0.N) (hf : (cfg0.win 9).flush t = true) :
    (dat0 V c).flushed 9 t = ((cfg0.win 9).blk t).view.read (Elt Ideal) (varArr V c) := by
  have hN : cfg0.N = 50 := N_0
  have h49 : t.val = 49 := by have := (flush0_9 t).mp hf; have := t.isLt; omega
  obtain ⟨e0, e1⟩ := index0_9 t
  show (cfg0.win 9).cut (grid0.coords t) ((dat0 V c).after 9 t) = _
  rw [after0_9]
  obtain ⟨n, hn⟩ := t
  obtain rfl : n = 49 := h49
  funext y
  show ((outsAt0 V c 49 hn).2.2.1 : S1x128.Idx → EReal) ((cfg0.win 9).xinj (grid0.coords ⟨49, hn⟩) y)
    = varArr V c (((cfg0.win 9).blk ⟨49, hn⟩).view.emb y)
  refine varBuf_eq V hs0z hs0s hs1z hs1s hvar hpay6 hpay7 hpay1 hpay4 hpay5 hpay3 c hn _ _ ?_
  show win0_9.index ⟨49, hn⟩ (1 : Fin 2) * 128 + 1 * (y 1).val = (y 1).val
  rw [e1]; omega

omit hs0z hs0s hs1z hs1s hvar hpay6 hpay7 hpay1 hpay4 hpay5 hpay3 in
/-- An index of the row is in point `t`'s block iff each coordinate is in the block's range on its axis. -/
theorem mem_blk9 (t : Fin cfg0.N) (i : S1x128.Idx) :
    i ∈ ((cfg0.win 9).blk t).view.set ↔ ∀ a : Fin 2, win0_9.index t a * S1x128.size a ≤ (i a).val
      ∧ (i a).val < win0_9.index t a * S1x128.size a + S1x128.size a := by
  show i ∈ ((View.whole main_v31_2).slice (win0_9.rect t)).set ↔ _
  rw [View.set_slice_whole, Rect.mem_set_unit]
  exact Iff.rfl

omit hs0z hs0s hs1z hs1s hvar hpay6 hpay7 hpay1 hpay4 hpay5 hpay3 in
/-- The one write-back, at the last point, covers the whole row. -/
theorem cover9 (i : S1x128.Idx) :
    ∃ t : Fin cfg0.N, (cfg0.win 9).flush t = true ∧ i ∈ ((cfg0.win 9).blk t).view.set := by
  have h0 : (i 0).val < 1 := idx2_lt0 i
  have h1 : (i 1).val < 128 := idx2_lt1 i
  have hN : cfg0.N = 50 := N_0
  have ht : 49 < cfg0.N := by rw [hN]; omega
  obtain ⟨e0, e1⟩ := index0_9 ⟨49, ht⟩
  refine ⟨⟨49, ht⟩, (flush0_9 _).mpr rfl, ?_⟩
  rw [mem_blk9]
  intro a
  match a with
  | ⟨0, _⟩ =>
    show win0_9.index ⟨49, ht⟩ (0 : Fin 2) * 1 ≤ (i 0).val ∧ (i 0).val < win0_9.index ⟨49, ht⟩ (0 : Fin 2) * 1 + 1
    rw [e0]; omega
  | ⟨1, _⟩ =>
    show win0_9.index ⟨49, ht⟩ (1 : Fin 2) * 128 ≤ (i 1).val
      ∧ (i 1).val < win0_9.index ⟨49, ht⟩ (1 : Fin 2) * 128 + 128
    rw [e1]; omega

/-- So the variance's row ends holding the column variances. -/
theorem final9 (c : Dev nD) : (dat0 V c).arrAt 9 cfg0.N = varArr V c :=
  (dat0 V c).arrAt_eq_of_cover 9 (varArr V c) (flushed9_eq V hs0z hs0s hs1z hs1s hvar hpay6 hpay7 hpay1 hpay4 hpay5 hpay3 c) cover9

/-- The variance's row after the region, column by column. -/
theorem stats_var_apply (c : Dev nD) (j : Fin 128) :
    ((dat0 V c).arrAt 9 cfg0.N : S1x128.Idx → EReal) (ix2 0 j) = Cert.Spec.varSq (specX V c) j :=
  congrFun (final9 V hs0z hs0s hs1z hs1s hvar hpay6 hpay7 hpay1 hpay4 hpay5 hpay3 c) (ix2 0 j)

end varArrOut

end Cert.KernelIdeal.StatsValue

end
-- ==== Proof.BnValue.lean ====
/-
  Region 1 of @main, the BatchNorm-apply call: from the blocks the grid points write back to the whole output array.

  The grid has 50 points. Point t writes rows 2000·t … 2000·t + 1999 (all 128 columns) of the output, computed from
  the same rows of x and from the four rows mean, var, gamma, beta, which every point sees whole. So what point t
  writes is the restriction to its rows of ONE function of the five arrays,

      out[i, j] = gamma[j] · (x[i, j] − mean[j]) · rsqrt (var[j] + eps) + beta[j],

  and the 50 row blocks tile the 100000 rows (row r lies in block r / 2000). Hence the output array ends holding
  that function, entry by entry.

  The floats are the extended reals here. What the body's one stored vector is at an index of its block is taken as a
  hypothesis (hbn), so that this module stands on the region's frame data alone.
-/
import proofs.«167465_j80161269613387_1_alg».proof.Proof.KI.BnRegion
import proofs.«167465_j80161269613387_1_alg».proof.Proof.Spec
import Idealize.ShloMosaic.Lib.Pipeline.Value
import Idealize.ShloMosaic.Lib.ValueIdx

set_option maxRecDepth 16384

noncomputable section

namespace Cert.KernelIdeal.BnValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/- The buffers' contents when the region is entered. -/
variable (V : (c : Dev nD) → (b : Ref sig .tc) → Buf (Elt Ideal) ((c : Thread nD τ).loc b))

/- The body's stored vector at entry (p, q) of its block: γ[q]·(x[p, q] − μ[q])·rsqrt (σ²[q] + ε) + β[q], the rows
   read at their one row index 0. -/
variable (hbn : ∀ (v0 : Vec Ideal S2000x128 .f32) (v2 v4 v6 v8 : Vec Ideal S1x128 .f32) (p : Fin 2000) (q : Fin 128),
  k1_pay1 (F := Ideal) v0 v2 v4 v6 v8 (ix2 p q)
    = v6 (ix2 0 q) * (v0 (ix2 p q) - v2 (ix2 0 q)) * Ideal.rsqrt (v4 (ix2 0 q) + Cert.Spec.eps) + v8 (ix2 0 q))

/-! ## The whole-array function -/

/-- The offsets of a rectangle that starts at the origin. -/
theorem origin2 : (![0, 0] : Fin 2 → Nat) = fun _ => 0 := funext fun a => by fin_cases a <;> rfl

/-- The normalised array as one function of the five arrays: entry (i, j) is γ[j]·(x[i, j] − μ[j])·rsqrt (σ²[j] + ε) + β[j]. -/
def bnArr (x : S100000x128.Idx → EReal) (mu var gamma beta : S1x128.Idx → EReal) : S100000x128.Idx → EReal :=
  fun i => gamma (ix2 (0 : Fin 1) (i 1 : Fin 128)) * (x i - mu (ix2 (0 : Fin 1) (i 1 : Fin 128)))
      * Ideal.rsqrt (var (ix2 (0 : Fin 1) (i 1 : Fin 128)) + Cert.Spec.eps)
    + beta (ix2 (0 : Fin 1) (i 1 : Fin 128))

/-- It read at row i, column j. -/
theorem bnArr_apply (x : S100000x128.Idx → EReal) (mu var gamma beta : S1x128.Idx → EReal) (i : Fin 100000) (j : Fin 128) :
    bnArr x mu var gamma beta (ix2 i j)
      = gamma (ix2 0 j) * (x (ix2 i j) - mu (ix2 0 j)) * Ideal.rsqrt (var (ix2 0 j) + Cert.Spec.eps) + beta (ix2 0 j) := rfl

/-! ## Where each window's block sits at a point -/

/-- The block indices over the grid: at point t the x window and the output window are at row block t, column
    block 0; the four row windows stay at block (0, 0). -/
theorem block_index : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The output window's block is not cut by the array's edge: an index of the transferred part is the same index
    of the staging buffer. -/
theorem out_uncut (t : Fin cfg1.N) (p : Fin 2000) (q : Fin 128) : (win1 5).xinj (grid1.coords t) (ix2 p q) = ix2 p q := by
  funext a; match a with | ⟨0, _⟩ => rfl | ⟨1, _⟩ => rfl

/-- Entry (p, q) of the x block at point t is entry (2000·t + p, q) of x. -/
theorem x_block_apply (c : Dev nD) (t : Fin cfg1.N) (p : Fin 2000) (q : Fin 128) (i : Fin 100000) (hi : i.val = 2000 * t.val + p.val) :
    (iblk1 V c 0 t : Vec Ideal S2000x128 .f32) (ix2 p q) = (V c main_v31_0 : S100000x128.Idx → EReal) (ix2 i q) := by
  obtain ⟨e0, e1, -⟩ := block_index t
  unfold iblk1
  rw [View.read_apply]
  show V c main_v31_0 _ = V c main_v31_0 _
  congr 1
  funext a
  apply Fin.ext
  match a with
  | ⟨0, _⟩ => show win1_0.index t 0 * 2000 + 1 * p.val = i.val; rw [e0, hi]; omega
  | ⟨1, _⟩ => show win1_0.index t 1 * 128 + 1 * q.val = q.val; rw [e1]; omega

/-- Entry (0, q) of the mean block at any point is entry (0, q) of the mean row. -/
theorem mean_block_apply (c : Dev nD) (t : Fin cfg1.N) (q : Fin 128) :
    (iblk1 V c 1 t : Vec Ideal S1x128 .f32) (ix2 0 q) = (V c main_v31_1 : S1x128.Idx → EReal) (ix2 0 q) := by
  obtain ⟨-, -, -, -, e0, e1, -⟩ := block_index t
  unfold iblk1
  rw [View.read_apply]
  show V c main_v31_1 _ = V c main_v31_1 _
  congr 1
  funext a
  apply Fin.ext
  match a with
  | ⟨0, _⟩ => show win1_1.index t 0 * 1 + 1 * 0 = 0; rw [e0]
  | ⟨1, _⟩ => show win1_1.index t 1 * 128 + 1 * q.val = q.val; rw [e1]; omega

/-- The same for the variance row, -/
theorem var_block_apply (c : Dev nD) (t : Fin cfg1.N) (q : Fin 128) :
    (iblk1 V c 2 t : Vec Ideal S1x128 .f32) (ix2 0 q) = (V c main_v31_2 : S1x128.Idx → EReal) (ix2 0 q) := by
  obtain ⟨-, -, -, -, -, -, e0, e1, -⟩ := block_index t
  unfold iblk1
  rw [View.read_apply]
  show V c main_v31_2 _ = V c main_v31_2 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- the scale row, -/
theorem gamma_block_apply (c : Dev nD) (t : Fin cfg1.N) (q : Fin 128) :
    (iblk1 V c 3 t : Vec Ideal S1x128 .f32) (ix2 0 q) = (V c main_v29 : S1x128.Idx → EReal) (ix2 0 q) := by
  obtain ⟨-, -, -, -, -, -, -, -, e0, e1, -⟩ := block_index t
  unfold iblk1
  rw [View.read_apply]
  show V c main_v29 _ = V c main_v29 _
  congr 1
  funext a
  apply Fin.ext
  match a with
  | ⟨0, _⟩ => show win1_3.index t 0 * 1 + 1 * 0 = 0; rw [e0]
  | ⟨1, _⟩ => show win1_3.index t 1 * 128 + 1 * q.val = q.val; rw [e1]; omega

/-- and the shift row. -/
theorem beta_block_apply (c : Dev nD) (t : Fin cfg1.N) (q : Fin 128) :
    (iblk1 V c 4 t : Vec Ideal S1x128 .f32) (ix2 0 q) = (V c main_v30 : S1x128.Idx → EReal) (ix2 0 q) := by
  obtain ⟨-, -, -, -, -, -, -, -, -, -, e0, e1⟩ := block_index t
  unfold iblk1
  rw [View.read_apply]
  show V c main_v30 _ = V c main_v30 _
  congr 1
  funext a
  apply Fin.ext
  match a with
  | ⟨0, _⟩ => show win1_4.index t 0 * 1 + 1 * 0 = 0; rw [e0]
  | ⟨1, _⟩ => show win1_4.index t 1 * 128 + 1 * q.val = q.val; rw [e1]; omega

/-- Entry (p, q) of the output block at point t is entry (2000·t + p, q) of the output array. -/
theorem out_block_index (t : Fin cfg1.N) (p : Fin 2000) (q : Fin 128) (i : Fin 100000) (hi : i.val = 2000 * t.val + p.val) :
    ((cfg1.win 5).blk t).view.emb (ix2 p q) = (ix2 i q : S100000x128.Idx) := by
  obtain ⟨-, -, e0, e1, -⟩ := block_index t
  funext a
  apply Fin.ext
  match a with
  | ⟨0, _⟩ => show win1_5.index t 0 * 2000 + 1 * p.val = i.val; rw [e0, hi]; omega
  | ⟨1, _⟩ => show win1_5.index t 1 * 128 + 1 * q.val = q.val; rw [e1]; omega

/-! ## What a point writes back -/

include hbn in
/-- What point t writes back is block t of bnArr of the five arrays as the region finds them: the body's vector at
    (p, q) reads x at row 2000·t + p and the four rows at column q, which is bnArr at the output's entry
    (2000·t + p, q). -/
theorem flushed_eq (c : Dev nD) (t : Fin cfg1.N) :
    (dat1 (F := Ideal) V c).flushed 5 t = ((cfg1.win 5).blk t).view.read (Elt Ideal)
      (bnArr (V c main_v31_0) (V c main_v31_1) (V c main_v31_2) (V c main_v29) (V c main_v30)) := by
  show (cfg1.win 5).cut (grid1.coords t) ((dat1 (F := Ideal) V c).after 5 t) = _
  rw [after1_5]
  unfold bnBlock
  rw [View.canon_unit_zero origin2]
  simp only [View.ld_unit_zero (S := S2000x128) origin2, View.ld_unit_zero (S := S1x128) origin2]
  funext y
  obtain ⟨p, q, rfl⟩ : ∃ (p : Fin 2000) (q : Fin 128), y = ix2 p q := ⟨y 0, y 1, eq_ix2 y⟩
  have ht : t.val < 50 := Nat.lt_of_lt_of_eq t.isLt N_1
  have hp : p.val < 2000 := p.isLt
  show k1_pay1 (F := Ideal) (iblk1 V c 0 t) (iblk1 V c 1 t) (iblk1 V c 2 t) (iblk1 V c 3 t) (iblk1 V c 4 t)
      ((win1 5).xinj (grid1.coords t) (ix2 p q))
    = bnArr (V c main_v31_0) (V c main_v31_1) (V c main_v31_2) (V c main_v29) (V c main_v30)
      (((cfg1.win 5).blk t).view.emb (ix2 p q))
  rw [out_uncut, out_block_index t p q ⟨2000 * t.val + p.val, by omega⟩ rfl, bnArr_apply]
  refine (hbn _ _ _ _ _ p q).trans ?_
  rw [x_block_apply V c t p q ⟨2000 * t.val + p.val, by omega⟩ rfl, mean_block_apply V c t q, var_block_apply V c t q,
    gamma_block_apply V c t q, beta_block_apply V c t q]

/-! ## The row blocks tile the array -/

/-- An index of the output array is in point t's block iff each coordinate is in the block's range on its axis. -/
theorem mem_out_block (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v32).slice (win1_5.rect t)).set ↔ _
  rw [View.set_slice_whole, Rect.mem_set_unit]
  exact Iff.rfl

/-- Every index of the output array is in some point's block, and that point writes back: row r is in block r / 2000. -/
theorem out_cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 2000 < cfg1.N := by rw [show cfg1.N = 50 from N_1]; omega
  obtain ⟨-, -, e0, e1, -⟩ := block_index ⟨(i 0).val / 2000, ht⟩
  have e0' : win1_5.index ⟨(i 0).val / 2000, ht⟩ (0 : Fin 2) = (i 0).val / 2000 := e0
  refine ⟨⟨(i 0).val / 2000, ht⟩, flush1_5 _, ?_⟩
  rw [mem_out_block]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0']; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]; omega

/-! ## The output array after the region -/

include hbn in
/-- After the last point the output array holds bnArr of the five arrays as the region finds them. -/
theorem bn_final (c : Dev nD) : (dat1 (F := Ideal) V c).arrAt 5 cfg1.N
    = bnArr (V c main_v31_0) (V c main_v31_1) (V c main_v31_2) (V c main_v29) (V c main_v30) :=
  (dat1 (F := Ideal) V c).arrAt_eq_of_cover 5 (bnArr (V c main_v31_0) (V c main_v31_1) (V c main_v31_2) (V c main_v29) (V c main_v30))
    (fun t _ => flushed_eq V hbn c t) out_cover

include hbn in
/-- Entry (i, j) of the output array after the region, with the five arrays named by whatever they are known to
    equal: γ[j]·(x[i, j] − μ[j])·rsqrt (σ²[j] + ε) + β[j]. -/
theorem bn_final_apply_of (c : Dev nD) (i : Fin 100000) (j : Fin 128)
    (x : S100000x128.Idx → EReal) (mu var gamma beta : S1x128.Idx → EReal)
    (hx : V c main_v31_0 = x) (hmu : V c main_v31_1 = mu) (hvar : V c main_v31_2 = var)
    (hgamma : V c main_v29 = gamma) (hbeta : V c main_v30 = beta) :
    (dat1 (F := Ideal) V c).arrAt 5 cfg1.N (ix2 i j)
      = gamma (ix2 0 j) * (x (ix2 i j) - mu (ix2 0 j)) * Ideal.rsqrt (var (ix2 0 j) + Cert.Spec.eps) + beta (ix2 0 j) := by
  subst hx hmu hvar hgamma hbeta
  exact (congrFun (bn_final V hbn c) (ix2 i j)).trans (bnArr_apply _ _ _ _ _ i j)

/- The extended reals' operations with both operands expected there, so that an array's entry, whose type is
   spelt through its buffer, is read as an extended real. -/
local infixl:65 " +ₑ " => (HAdd.hAdd : EReal → EReal → EReal)
local infixl:65 " -ₑ " => (HSub.hSub : EReal → EReal → EReal)
local infixl:70 " *ₑ " => (HMul.hMul : EReal → EReal → EReal)

include hbn in
/-- Entry (i, j) of the output array after the region, over the five arrays as the region finds them. -/
theorem bn_final_apply (c : Dev nD) (i : Fin 100000) (j : Fin 128) :
    (dat1 (F := Ideal) V c).arrAt 5 cfg1.N (ix2 i j)
      = V c main_v29 (ix2 0 j) *ₑ (V c main_v31_0 (ix2 i j) -ₑ V c main_v31_1 (ix2 0 j))
          *ₑ Ideal.rsqrt (V c main_v31_2 (ix2 0 j) +ₑ Cert.Spec.eps) +ₑ V c main_v30 (ix2 0 j) :=
  bn_final_apply_of V hbn c i j _ _ _ _ _ rfl rfl rfl rfl rfl

include hbn in
/-- The same entry as the layer's normalisation of column j at row i. -/
theorem bn_final_norm (c : Dev nD) (i : Fin 100000) (j : Fin 128) :
    (dat1 (F := Ideal) V c).arrAt 5 cfg1.N (ix2 i j)
      = Cert.Spec.norm (fun i j => V c main_v31_0 (ix2 i j)) (fun j => V c main_v31_1 (ix2 0 j))
          (fun j => V c main_v31_2 (ix2 0 j)) (fun j => V c main_v29 (ix2 0 j)) (fun j => V c main_v30 (ix2 0 j)) i j :=
  bn_final_apply_of V hbn c i j _ _ _ _ _ rfl rfl rfl rfl rfl

end Cert.KernelIdeal.BnValue

end
-- ==== Proof.PayloadValue.lean ====
/-
  The two kernels' arithmetic read one entry at a time, on the extended reals.

  Region 0 works on a block of 2000 rows: entry (p, q) of its block of x is the two dense products' entries, each a sum
  over the 128 shared columns plus its bias, added and multiplied by the mask's entry; the running column sums gain the
  block's column sum of x, and of x², per step; the first step stores zeros; the last step divides the two running sums
  by the number of rows, giving the mean and the mean of squares less the squared mean. Region 1 normalises an entry by
  its column's mean and variance, scales and shifts it. Every lemma is stated over variables of the literal vector types
  and literal coordinates.
-/
import proofs.«167465_j80161269613387_1_alg».proof.Proof.Gen.KernelIdeal.Skeleton
import proofs.«167465_j80161269613387_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Cert.KernelIdeal Cert.KernelIdeal.Gen Idealize.ShloMosaic ValueIdx
open scoped BigOperators

/-! ## The non-pointwise operations at an index -/

/-- A sum over the 2000 rows of a block, kept as a one-row matrix: entry (0, q) is the sum of column q. -/
theorem colSum_apply (src : FVec Ideal S2000x128 .f32) (hφ : FKind.Formats .f32)
    (hacc : (0x00000000#32 : BitVec 32) = 0x00000000#32) (hc : S128.ShapeCasts S1x128) (u : Fin 1) (q : Fin 128) :
    shapeCast S1x128 (multiReduction (F := Ideal) .add [0] S128 src 0x00000000#32 reduces_S2000x128_S128 hφ hacc) hc (ix2 u q)
      = ∑ p : Fin 2000, src (ix2 p q) := by
  refine (shapeCast_a_1a_apply _ hc u q).trans ?_
  refine (Ideal.multiReduction_add_single src 0x00000000#32 reduces_S2000x128_S128 hφ hacc (ix1 q)).trans ?_
  refine Finset.sum_congr rfl fun p _ => congrArg src ?_
  funext a
  match a with
  | ⟨0, _⟩ => rfl
  | ⟨1, _⟩ => rfl

/-- The left operand's index of the product at output (p, q) and shared column k: row p is kept … -/
theorem lhs_axis0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and its column is the shared one. -/
theorem lhs_axis1 (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
/-- The right operand's row is the shared column … -/
theorem rhs_axis0 (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
/-- … and its column is the output's. -/
theorem rhs_axis1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block times a square matrix, accumulated into zeros: entry (p, q) is the sum over the shared column k of
    the block's (p, k) times the matrix's (k, q). The operands may be of any float format: on the extended reals a
    format is not a rounding. -/
theorem blockMatmul_apply {φ₁ φ₂ : FTy} (l : FVec Ideal S2000x128 φ₁) (r : FVec Ideal S128x128 φ₂) (p : Fin 2000) (q : Fin 128) :
    matmul (F := Ideal) dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## Region 0 -/

/-- The block of x at (p, q): both products with their biases, added, times the mask. -/
theorem pay6_apply (v3 v6 : Vec Ideal S2000x128 .f32) (v8 v10 : Vec Ideal S128x128 .f32) (v13 v18 : Vec Ideal S1x128 .f32)
    (v23 : Vec Ideal S2000x128 .f32) (p : Fin 2000) (q : Fin 128) :
    k0_pay6 (F := Ideal) v3 v6 v8 v10 v13 v18 v23 (ix2 p q)
      = ((∑ k : Fin 128, v3 (ix2 p k) * v8 (ix2 k q) + v13 (ix2 0 q))
          + (∑ k : Fin 128, v6 (ix2 p k) * v10 (ix2 k q) + v18 (ix2 0 q))) * v23 (ix2 p q) := by
  unfold k0_pay6
  simp only [shapeCast_self]
  rw [mulf_apply, addf_apply, addf_apply, addf_apply, blockMatmul_apply, blockMatmul_apply,
    broadcastTo_1b_ab_apply, broadcastTo_1b_ab_apply]
  rfl

/-- The running column sum after a block: what it was plus the block's column sum of x. -/
theorem pay7_apply (v3 v6 : Vec Ideal S2000x128 .f32) (v8 v10 : Vec Ideal S128x128 .f32) (v13 v18 : Vec Ideal S1x128 .f32)
    (v23 : Vec Ideal S2000x128 .f32) (v25 : Vec Ideal S1x128 .f32) (q : Fin 128) :
    k0_pay7 (F := Ideal) v3 v6 v8 v10 v13 v18 v23 v25 (ix2 0 q)
      = v25 (ix2 0 q) + ∑ p : Fin 2000, k0_pay6 (F := Ideal) v3 v6 v8 v10 v13 v18 v23 (ix2 p q) := by
  unfold k0_pay7
  simp only [shapeCast_self]
  rw [addf_apply]
  exact congrArg (v25 (ix2 0 q) + ·) (colSum_apply _ _ _ _ 0 q)

/-- The running column sum of squares after a block: what it was plus the block's column sum of x². -/
theorem pay1_apply (v24 : FVec Ideal S2000x128 .f32) (v32 : Vec Ideal S1x128 .f32) (q : Fin 128) :
    k0_pay1 (F := Ideal) v24 v32 (ix2 0 q) = v32 (ix2 0 q) + ∑ p : Fin 2000, v24 (ix2 p q) * v24 (ix2 p q) := by
  unfold k0_pay1
  simp only [shapeCast_self]
  rw [addf_apply]
  exact congrArg (v32 (ix2 0 q) + ·) (colSum_apply _ _ _ _ 0 q)

/-- The first step clears the running column sums … -/
theorem pay4_apply (q : Fin 128) : (k0_pay4 (F := Ideal)) (ix2 0 q) = 0 := by
  unfold k0_pay4
  simp only [shapeCast_self]
  exact Ideal.ofBits_zero_f32
/-- … and the running sums of squares. -/
theorem pay5_apply (q : Fin 128) : (k0_pay5 (F := Ideal)) (ix2 0 q) = 0 := by
  unfold k0_pay5
  simp only [shapeCast_self]
  exact Ideal.ofBits_zero_f32

/-- The last step's mean: the column sum over the number of rows. -/
theorem pay2_apply (v44 : Vec Ideal S1x128 .f32) (q : Fin 128) :
    k0_pay2 (F := Ideal) v44 (ix2 0 q) = Ideal.div (v44 (ix2 0 q)) Cert.Spec.rows := by
  unfold k0_pay2
  rfl

/-- The last step's variance: the column sum of squares over the number of rows, less the squared mean. -/
theorem pay3_apply (v44 v47 : Vec Ideal S1x128 .f32) (q : Fin 128) :
    k0_pay3 (F := Ideal) v44 v47 (ix2 0 q)
      = Ideal.div (v47 (ix2 0 q)) Cert.Spec.rows
        - Ideal.div (v44 (ix2 0 q)) Cert.Spec.rows * Ideal.div (v44 (ix2 0 q)) Cert.Spec.rows := by
  unfold k0_pay3
  rw [subf_apply, mulf_apply, pay2_apply]
  rfl

/-! ## Region 1 -/

/-- The normalised entry (p, q): γ·(x − μ)·(σ² + ε)^(−1/2) + β, the four row vectors read at column q. -/
theorem bn_apply (v0 : Vec Ideal S2000x128 .f32) (v2 v4 v6 v8 : Vec Ideal S1x128 .f32) (p : Fin 2000) (q : Fin 128) :
    k1_pay1 (F := Ideal) v0 v2 v4 v6 v8 (ix2 p q)
      = v6 (ix2 0 q) * (v0 (ix2 p q) - v2 (ix2 0 q)) * Ideal.rsqrt (v4 (ix2 0 q) + Cert.Spec.eps) + v8 (ix2 0 q) := by
  unfold k1_pay1
  simp only [shapeCast_self]
  rw [addf_apply, mulf_apply, mulf_apply, subf_apply,
    broadcastTo_1b_ab_apply, broadcastTo_1b_ab_apply, broadcastTo_1b_ab_apply, broadcastTo_1b_ab_apply]
  rfl

end Cert.KernelIdeal.PayloadValue

end
-- ==== Proof.HostValue.lean ====
/-
  What the kernel program's host prefix leaves in memory before its first kernel region. The prefix is the reference's
  own aggregation: the degrees of every node by a scatter-add of ones along the source and the destination indices, each
  clipped below at one; the features scaled row by row by the inverse root of the out-degree; those rows gathered along
  the (wrapped) source indices and scatter-added along the destination indices; the result scaled row by row by the
  inverse root of the in-degree. It ends with four length-128 vectors (two biases, the normalisation's scale and shift)
  laid out as single rows. So the array the first region reads as its aggregated input IS the reference's stage of the
  same name, as a function of the same three arguments; each row vector read at (0, j) is the argument at j; and the
  arguments the regions read directly are untouched.

  Everything is stated for an arbitrary float family: the two programs spell the same operations over their own copies
  of the same shapes, and the comparison is by unfolding both sides.
-/
import proofs.«167465_j80161269613387_1_alg».proof.Proof.Gen.KernelIdeal.Regions
import proofs.«167465_j80161269613387_1_alg».proof.Proof.Gen.ReferenceIdeal.Read
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-! ## Each host stretch over an arbitrary valuation

One lemma per stretch and per buffer a later stretch (or a kernel region) reads: the buffer's contents after the stretch,
as the stretch's operations applied to what the valuation held before it. -/

/-- After the first stretch the out-degree buffer holds the scatter-add of ones along the source indices. -/
theorem stretch0_v3 (W : Valuation τ sig (Elt F)) :
    StableHlo.after (hostOps0 (F := F)) W (Proc.devRef .tc main_v3)
      = Cert.ReferenceIdeal.Read.val_main_v3 (F := F) (W (Proc.devRef .tc main_arg8)) := by
  after_results
  rfl

/-- After the first stretch the vector of ones (one per edge) is in place. -/
theorem stretch0_v0 (W : Valuation τ sig (Elt F)) :
    StableHlo.after (hostOps0 (F := F)) W (Proc.devRef .tc main_v0)
      = Cert.ReferenceIdeal.Read.val_main_v0 (F := F) := by
  after_results
  rfl

/-- After the first stretch the lower clipping bound 1.0 is in place. -/
theorem stretch0_cst1 (W : Valuation τ sig (Elt F)) :
    StableHlo.after (hostOps0 (F := F)) W (Proc.devRef .tc main_cst_1)
      = Cert.ReferenceIdeal.Read.val_main_cst_1 (F := F) := by
  after_results
  rfl

/-- The first clip: the maximum of the broadcast bound and the raw out-degrees. -/
theorem stretch1_v4 (W : Valuation τ sig (Elt F)) :
    StableHlo.after (hostOps0_1 (F := F)) W (Proc.devRef .tc main_v4)
      = maximumf (broadcastInDim S100000 ![] bcast_S_S100000 (W (Proc.devRef .tc main_cst_1)))
          (W (Proc.devRef .tc main_v3)) := by
  after_results
  rfl

/-- After the third stretch the in-degree buffer holds the scatter-add of the ones along the destination indices. -/
theorem stretch2_v7 (W : Valuation τ sig (Elt F)) :
    StableHlo.after (hostOps0_2 (F := F)) W (Proc.devRef .tc main_v7)
      = Host.scatterAdd scatter_S100000_S1600000x1_S1600000_n_0_0_1
          (Cert.ReferenceIdeal.Read.val_main_v5 (F := F))
          (Cert.ReferenceIdeal.Read.val_main_v6 (F := F) (W (Proc.devRef .tc main_arg9)))
          (W (Proc.devRef .tc main_v0)) := by
  after_results
  rfl

/-- After the third stretch the second clip's bound 1.0 is in place. -/
theorem stretch2_cst3 (W : Valuation τ sig (Elt F)) :
    StableHlo.after (hostOps0_2 (F := F)) W (Proc.devRef .tc main_cst_3)
      = Cert.ReferenceIdeal.Read.val_main_cst_3 (F := F) := by
  after_results
  rfl

/-- The second clip: the maximum of the broadcast bound and the raw in-degrees. -/
theorem stretch3_v8 (W : Valuation τ sig (Elt F)) :
    StableHlo.after (hostOps0_3 (F := F)) W (Proc.devRef .tc main_v8)
      = maximumf (broadcastInDim S100000 ![] bcast_S_S100000 (W (Proc.devRef .tc main_cst_3)))
          (W (Proc.devRef .tc main_v7)) := by
  after_results
  rfl

/-- The last stretch's aggregate: features scaled by the inverse root of the clipped out-degree, gathered along the
    wrapped source indices, scatter-added along the destination indices, scaled by the inverse root of the clipped
    in-degree. -/
theorem stretch4_v26 (W : Valuation τ sig (Elt F)) :
    StableHlo.after (hostOps0_4 (F := F)) W (Proc.devRef .tc main_v26)
      = mulf
          (Host.scatterAdd scatter_S100000x128_S1600000x1_S1600000x128_1_0_0_1
            (Cert.ReferenceIdeal.Read.val_main_v20 (F := F))
            (Cert.ReferenceIdeal.Read.val_main_v21 (F := F) (W (Proc.devRef .tc main_arg9)))
            (Host.gather gather_S100000x128_S1600000x1_S1600000x128_1_0_n_n_0_1_1128
              (mulf (W (Proc.devRef .tc main_arg0))
                (broadcastInDim S100000x128 ![0, 1] bcast_S100000x1_S100000x128_0_1
                  (broadcastInDim S100000x1 ![0] bcast_S100000_S100000x1_0 (Host.rsqrt (W (Proc.devRef .tc main_v4))))))
              (Cert.ReferenceIdeal.Read.val_main_v18 (F := F) (W (Proc.devRef .tc main_arg8)))))
          (broadcastInDim S100000x128 ![0, 1] bcast_S100000x1_S100000x128_0_1
            (broadcastInDim S100000x1 ![0] bcast_S100000_S100000x1_0 (Host.rsqrt (W (Proc.devRef .tc main_v8))))) := by
  after_results_simp
  rfl

/-- The four reshapes of the last stretch: a length-128 vector laid out as one row. -/
theorem stretch4_v27 (W : Valuation τ sig (Elt F)) :
    StableHlo.after (hostOps0_4 (F := F)) W (Proc.devRef .tc main_v27)
      = shapeCast S1x128 (W (Proc.devRef .tc main_arg2)) shapeCasts_S128_S1x128 := by
  after_results_simp
  rfl
theorem stretch4_v28 (W : Valuation τ sig (Elt F)) :
    StableHlo.after (hostOps0_4 (F := F)) W (Proc.devRef .tc main_v28)
      = shapeCast S1x128 (W (Proc.devRef .tc main_arg4)) shapeCasts_S128_S1x128 := by
  after_results_simp
  rfl
theorem stretch4_v29 (W : Valuation τ sig (Elt F)) :
    StableHlo.after (hostOps0_4 (F := F)) W (Proc.devRef .tc main_v29)
      = shapeCast S1x128 (W (Proc.devRef .tc main_arg5)) shapeCasts_S128_S1x128 := by
  after_results_simp
  rfl
theorem stretch4_v30 (W : Valuation τ sig (Elt F)) :
    StableHlo.after (hostOps0_4 (F := F)) W (Proc.devRef .tc main_v30)
      = shapeCast S1x128 (W (Proc.devRef .tc main_arg6)) shapeCasts_S128_S1x128 := by
  after_results_simp
  rfl

/-! ## The stretches chained from the launch contents -/

section Chain

variable (m : (ℓ : Loc nD τ sig) → Buf (Elt F) ℓ) (c : Dev nD)

/-- No operation of the first 1 stretch writes argument 9. -/
theorem V1_arg9 : Gen.V1 m c main_arg9 = m ((c : Thread nD τ).loc main_arg9) :=
  (Gen.V1_of m c main_arg9 (by decide)).trans (rfl)

/-- No operation of the first 4 stretches writes argument 0. -/
theorem V4_arg0 : Gen.V4 m c main_arg0 = m ((c : Thread nD τ).loc main_arg0) :=
  (Gen.V4_of m c main_arg0 (by decide)).trans ((Gen.V3_of m c main_arg0 (by decide)).trans ((Gen.V2_of m c main_arg0 (by decide)).trans ((Gen.V1_of m c main_arg0 (by decide)).trans (rfl))))

/-- No operation of the first 4 stretches writes argument 8. -/
theorem V4_arg8 : Gen.V4 m c main_arg8 = m ((c : Thread nD τ).loc main_arg8) :=
  (Gen.V4_of m c main_arg8 (by decide)).trans ((Gen.V3_of m c main_arg8 (by decide)).trans ((Gen.V2_of m c main_arg8 (by decide)).trans ((Gen.V1_of m c main_arg8 (by decide)).trans (rfl))))

/-- No operation of the first 4 stretches writes argument 9. -/
theorem V4_arg9 : Gen.V4 m c main_arg9 = m ((c : Thread nD τ).loc main_arg9) :=
  (Gen.V4_of m c main_arg9 (by decide)).trans ((Gen.V3_of m c main_arg9 (by decide)).trans ((Gen.V2_of m c main_arg9 (by decide)).trans ((Gen.V1_of m c main_arg9 (by decide)).trans (rfl))))

/-- No operation of the first 4 stretches writes argument 2. -/
theorem V4_arg2 : Gen.V4 m c main_arg2 = m ((c : Thread nD τ).loc main_arg2) :=
  (Gen.V4_of m c main_arg2 (by decide)).trans ((Gen.V3_of m c main_arg2 (by decide)).trans ((Gen.V2_of m c main_arg2 (by decide)).trans ((Gen.V1_of m c main_arg2 (by decide)).trans (rfl))))

/-- No operation of the first 4 stretches writes argument 4. -/
theorem V4_arg4 : Gen.V4 m c main_arg4 = m ((c : Thread nD τ).loc main_arg4) :=
  (Gen.V4_of m c main_arg4 (by decide)).trans ((Gen.V3_of m c main_arg4 (by decide)).trans ((Gen.V2_of m c main_arg4 (by decide)).trans ((Gen.V1_of m c main_arg4 (by decide)).trans (rfl))))

/-- No operation of the first 4 stretches writes argument 5. -/
theorem V4_arg5 : Gen.V4 m c main_arg5 = m ((c : Thread nD τ).loc main_arg5) :=
  (Gen.V4_of m c main_arg5 (by decide)).trans ((Gen.V3_of m c main_arg5 (by decide)).trans ((Gen.V2_of m c main_arg5 (by decide)).trans ((Gen.V1_of m c main_arg5 (by decide)).trans (rfl))))

/-- No operation of the first 4 stretches writes argument 6. -/
theorem V4_arg6 : Gen.V4 m c main_arg6 = m ((c : Thread nD τ).loc main_arg6) :=
  (Gen.V4_of m c main_arg6 (by decide)).trans ((Gen.V3_of m c main_arg6 (by decide)).trans ((Gen.V2_of m c main_arg6 (by decide)).trans ((Gen.V1_of m c main_arg6 (by decide)).trans (rfl))))

/-- After the first stretch: the raw out-degrees. -/
theorem V1_v3 : Gen.V1 m c main_v3 = Cert.ReferenceIdeal.Read.val_main_v3 (F := F) (m ((c : Thread nD τ).loc main_arg8)) :=
  stretch0_v3 _
/-- After the first stretch: one 1.0 per edge. -/
theorem V1_v0 : Gen.V1 m c main_v0 = Cert.ReferenceIdeal.Read.val_main_v0 (F := F) :=
  stretch0_v0 _
/-- After the first stretch: the first clip's bound. -/
theorem V1_cst1 : Gen.V1 m c main_cst_1 = Cert.ReferenceIdeal.Read.val_main_cst_1 (F := F) :=
  stretch0_cst1 _

/-- After the second stretch: the clipped out-degrees. -/
theorem V2_v4 : Gen.V2 m c main_v4 = Cert.ReferenceIdeal.Read.val_main_v4 (F := F) (m ((c : Thread nD τ).loc main_arg8)) := by
  refine (stretch1_v4 (Gen.V1 m c)).trans ?_
  rw [V1_cst1, V1_v3]
  rfl

/-- The ones are still there after the second stretch. -/
theorem V2_v0 : Gen.V2 m c main_v0 = Cert.ReferenceIdeal.Read.val_main_v0 (F := F) :=
  (Gen.V2_of m c main_v0 (by decide)).trans (V1_v0 m c)

/-- The destination indices are still the launch's after the second stretch. -/
theorem V2_arg9 : Gen.V2 m c main_arg9 = m ((c : Thread nD τ).loc main_arg9) :=
  (Gen.V2_of m c main_arg9 (by decide)).trans (V1_arg9 m c)

/-- After the third stretch: the raw in-degrees. -/
theorem V3_v7 : Gen.V3 m c main_v7 = Cert.ReferenceIdeal.Read.val_main_v7 (F := F) (m ((c : Thread nD τ).loc main_arg9)) := by
  refine (stretch2_v7 (Gen.V2 m c)).trans ?_
  rw [V2_v0, V2_arg9]
  rfl

/-- After the third stretch: the second clip's bound. -/
theorem V3_cst3 : Gen.V3 m c main_cst_3 = Cert.ReferenceIdeal.Read.val_main_cst_3 (F := F) :=
  stretch2_cst3 _

/-- After the fourth stretch: the clipped in-degrees. -/
theorem V4_v8 : Gen.V4 m c main_v8 = Cert.ReferenceIdeal.Read.val_main_v8 (F := F) (m ((c : Thread nD τ).loc main_arg9)) := by
  refine (stretch3_v8 (Gen.V3 m c)).trans ?_
  rw [V3_cst3, V3_v7]
  rfl

/-- The clipped out-degrees are still there after the fourth stretch. -/
theorem V4_v4 : Gen.V4 m c main_v4 = Cert.ReferenceIdeal.Read.val_main_v4 (F := F) (m ((c : Thread nD τ).loc main_arg8)) :=
  (Gen.V4_of m c main_v4 (by decide)).trans ((Gen.V3_of m c main_v4 (by decide)).trans (V2_v4 m c))

/-- The aggregated, doubly scaled features the first kernel region reads are the reference's stage of the same name,
    of the launch's features, source indices and destination indices. -/
theorem host_agg : Gen.V5 m c main_v26
    = Cert.ReferenceIdeal.Read.val_main_v26 (F := F) (m ((c : Thread nD τ).loc main_arg0)) (m ((c : Thread nD τ).loc main_arg8))
        (m ((c : Thread nD τ).loc main_arg9)) := by
  refine (stretch4_v26 (Gen.V4 m c)).trans ?_
  rw [V4_arg0, V4_arg8, V4_arg9, V4_v4, V4_v8]
  rfl

/-- The first bias as one row: entry (0, j) of the row is entry j of the launch's vector. -/
theorem host_b (j : Fin 128) :
    (Gen.V5 m c main_v27 : (⟨S1x128, .f32⟩ : BufTy).Contents (Elt F)) (ValueIdx.ix2 (0 : Fin 1) j)
      = (m ((c : Thread nD τ).loc main_arg2) : (⟨S128, .f32⟩ : BufTy).Contents (Elt F)) (ValueIdx.ix1 j) := by
  refine (congrFun (stretch4_v27 (Gen.V4 m c)) _).trans ?_
  rw [V4_arg2]
  exact ValueIdx.shapeCast_a_1a_apply _ _ 0 j

/-- The residual bias as one row: entry (0, j) of the row is entry j of the launch's vector. -/
theorem host_bres (j : Fin 128) :
    (Gen.V5 m c main_v28 : (⟨S1x128, .f32⟩ : BufTy).Contents (Elt F)) (ValueIdx.ix2 (0 : Fin 1) j)
      = (m ((c : Thread nD τ).loc main_arg4) : (⟨S128, .f32⟩ : BufTy).Contents (Elt F)) (ValueIdx.ix1 j) := by
  refine (congrFun (stretch4_v28 (Gen.V4 m c)) _).trans ?_
  rw [V4_arg4]
  exact ValueIdx.shapeCast_a_1a_apply _ _ 0 j

/-- The normalisation's scale as one row: entry (0, j) of the row is entry j of the launch's vector. -/
theorem host_gamma (j : Fin 128) :
    (Gen.V5 m c main_v29 : (⟨S1x128, .f32⟩ : BufTy).Contents (Elt F)) (ValueIdx.ix2 (0 : Fin 1) j)
      = (m ((c : Thread nD τ).loc main_arg5) : (⟨S128, .f32⟩ : BufTy).Contents (Elt F)) (ValueIdx.ix1 j) := by
  refine (congrFun (stretch4_v29 (Gen.V4 m c)) _).trans ?_
  rw [V4_arg5]
  exact ValueIdx.shapeCast_a_1a_apply _ _ 0 j

/-- The normalisation's shift as one row: entry (0, j) of the row is entry j of the launch's vector. -/
theorem host_beta (j : Fin 128) :
    (Gen.V5 m c main_v30 : (⟨S1x128, .f32⟩ : BufTy).Contents (Elt F)) (ValueIdx.ix2 (0 : Fin 1) j)
      = (m ((c : Thread nD τ).loc main_arg6) : (⟨S128, .f32⟩ : BufTy).Contents (Elt F)) (ValueIdx.ix1 j) := by
  refine (congrFun (stretch4_v30 (Gen.V4 m c)) _).trans ?_
  rw [V4_arg6]
  exact ValueIdx.shapeCast_a_1a_apply _ _ 0 j

/-- No host stretch writes argument 0: the first kernel region reads the launch's contents. -/
theorem host_arg0 : Gen.V5 m c main_arg0 = m ((c : Thread nD τ).loc main_arg0) :=
  (Gen.V5_of m c main_arg0 (by decide)).trans ((Gen.V4_of m c main_arg0 (by decide)).trans ((Gen.V3_of m c main_arg0 (by decide)).trans ((Gen.V2_of m c main_arg0 (by decide)).trans ((Gen.V1_of m c main_arg0 (by decide)).trans rfl))))

/-- No host stretch writes argument 1: the first kernel region reads the launch's contents. -/
theorem host_arg1 : Gen.V5 m c main_arg1 = m ((c : Thread nD τ).loc main_arg1) :=
  (Gen.V5_of m c main_arg1 (by decide)).trans ((Gen.V4_of m c main_arg1 (by decide)).trans ((Gen.V3_of m c main_arg1 (by decide)).trans ((Gen.V2_of m c main_arg1 (by decide)).trans ((Gen.V1_of m c main_arg1 (by decide)).trans rfl))))

/-- No host stretch writes argument 3: the first kernel region reads the launch's contents. -/
theorem host_arg3 : Gen.V5 m c main_arg3 = m ((c : Thread nD τ).loc main_arg3) :=
  (Gen.V5_of m c main_arg3 (by decide)).trans ((Gen.V4_of m c main_arg3 (by decide)).trans ((Gen.V3_of m c main_arg3 (by decide)).trans ((Gen.V2_of m c main_arg3 (by decide)).trans ((Gen.V1_of m c main_arg3 (by decide)).trans rfl))))

/-- No host stretch writes argument 7: the first kernel region reads the launch's contents. -/
theorem host_arg7 : Gen.V5 m c main_arg7 = m ((c : Thread nD τ).loc main_arg7) :=
  (Gen.V5_of m c main_arg7 (by decide)).trans ((Gen.V4_of m c main_arg7 (by decide)).trans ((Gen.V3_of m c main_arg7 (by decide)).trans ((Gen.V2_of m c main_arg7 (by decide)).trans ((Gen.V1_of m c main_arg7 (by decide)).trans rfl))))

end Chain

end Cert.KernelIdeal.HostValue
end
-- ==== Proof.RefValue.lean ====
/-
  The reference computation read entry by entry, on the extended reals. Its result array, at row i and column j, is
  the normalised entry γ_j · (x_ij − μ_j) · (σ²_j + ε)^(−1/2) + β_j, where x is the masked sum of the two dense maps
  of the aggregated and the raw features, μ_j is column j's mean over the 100000 rows and σ²_j the mean of the squared
  deviations from μ_j. The aggregated features (the degree-scaled neighbourhood sums) are kept as one opaque array.
-/
import proofs.«167465_j80161269613387_1_alg».proof.Proof.Gen.ReferenceIdeal.Read
import proofs.«167465_j80161269613387_1_alg».proof.Proof.Spec

noncomputable section

namespace Cert.ReferenceIdeal.RefValue

open Cert.ReferenceIdeal Cert.ReferenceIdeal.Read Idealize.ShloMosaic ValueIdx

/-! ## The composed index maps, by coordinates -/

/-- The left factor of either dense map at (i, j), summand k, sits at (i, k). -/
theorem lidx27 (i : Fin 100000) (j k : Fin 128) : lidx_main_v27 (ix2 i j) k = ix2 i k :=
  funext fun a => by match a with | ⟨0, _⟩ => rfl | ⟨1, _⟩ => rfl
/-- The right factor sits at (k, j). -/
theorem ridx27 (i : Fin 100000) (j k : Fin 128) : ridx_main_v27 (ix2 i j) k = ix2 k j :=
  funext fun a => by match a with | ⟨0, _⟩ => rfl | ⟨1, _⟩ => rfl
theorem lidx31 (i : Fin 100000) (j k : Fin 128) : lidx_main_v31 (ix2 i j) k = ix2 i k :=
  funext fun a => by match a with | ⟨0, _⟩ => rfl | ⟨1, _⟩ => rfl
theorem ridx31 (i : Fin 100000) (j k : Fin 128) : ridx_main_v31 (ix2 i j) k = ix2 k j :=
  funext fun a => by match a with | ⟨0, _⟩ => rfl | ⟨1, _⟩ => rfl
/-- A length-128 vector spread over the rows is read at the column. -/
theorem bidx29 (i : Fin 100000) (j : Fin 128) : idx_main_v28 (idx_main_v29 (ix2 i j)) = ix1 j :=
  funext fun a => by match a with | ⟨0, _⟩ => rfl
theorem bidx33 (i : Fin 100000) (j : Fin 128) : idx_main_v32 (idx_main_v33 (ix2 i j)) = ix1 j :=
  funext fun a => by match a with | ⟨0, _⟩ => rfl

/-! ## x -/

/-- the reference's x (stage main_v36) is xOf of its aggregated features (stage main_v26, kept opaque) -/
theorem x_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 : (⟨S100000x128, .f32⟩ : BufTy).Contents (Elt Ideal))
    (x8 x9 : (⟨S1600000, .i32⟩ : BufTy).Contents (Elt Ideal)) (i : Fin 100000) (j : Fin 128) :
    val_main_v36 (F := Ideal) x0 x1 x2 x3 x4 x7 x8 x9 (ix2 i j)
      = Cert.Spec.xOf (fun i k => val_main_v26 (F := Ideal) x0 x8 x9 (ix2 i k)) (fun i k => x0 (ix2 i k))
          (fun k j => x1 (ix2 k j)) (fun k j => x3 (ix2 k j)) (fun j => x2 (ix1 j)) (fun j => x4 (ix1 j))
          (fun i j => x7 (ix2 i j)) i j := by
  rw [val_main_v36_apply, val_main_v35_apply, val_main_v30_apply, val_main_v34_apply, val_main_v27_apply,
    val_main_v31_apply, val_main_v29_apply, val_main_v28_apply, val_main_v33_apply, val_main_v32_apply, bidx29, bidx33]
  simp only [lidx27, ridx27, lidx31, ridx31, Ideal.mulf_def, Ideal.addf_def]
  rfl

/-- The reference's x as a function of row and column. -/
def refX (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 : (⟨S100000x128, .f32⟩ : BufTy).Contents (Elt Ideal))
    (x8 x9 : (⟨S1600000, .i32⟩ : BufTy).Contents (Elt Ideal)) : Fin 100000 → Fin 128 → EReal :=
  Cert.Spec.xOf (fun i k => val_main_v26 (F := Ideal) x0 x8 x9 (ix2 i k)) (fun i k => x0 (ix2 i k))
    (fun k j => x1 (ix2 k j)) (fun k j => x3 (ix2 k j)) (fun j => x2 (ix1 j)) (fun j => x4 (ix1 j))
    (fun i j => x7 (ix2 i j))

/-- `refX` written out. -/
theorem refX_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 : (⟨S100000x128, .f32⟩ : BufTy).Contents (Elt Ideal))
    (x8 x9 : (⟨S1600000, .i32⟩ : BufTy).Contents (Elt Ideal)) :
    refX x0 x1 x2 x3 x4 x7 x8 x9
      = Cert.Spec.xOf (fun i k => val_main_v26 (F := Ideal) x0 x8 x9 (ix2 i k)) (fun i k => x0 (ix2 i k))
          (fun k j => x1 (ix2 k j)) (fun k j => x3 (ix2 k j)) (fun j => x2 (ix1 j)) (fun j => x4 (ix1 j))
          (fun i j => x7 (ix2 i j)) := rfl

/-- Stage main_v36 at (i, j) is `refX` there. -/
theorem x_apply_refX (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 : (⟨S100000x128, .f32⟩ : BufTy).Contents (Elt Ideal))
    (x8 x9 : (⟨S1600000, .i32⟩ : BufTy).Contents (Elt Ideal)) (i : Fin 100000) (j : Fin 128) :
    val_main_v36 (F := Ideal) x0 x1 x2 x3 x4 x7 x8 x9 (ix2 i j) = refX x0 x1 x2 x3 x4 x7 x8 x9 i j :=
  x_apply x0 x1 x2 x3 x4 x7 x8 x9 i j

/-! ## The column statistics -/

/-- Summand k of a column sum at column j sits at (k, j). -/
theorem sidx37 (j : Fin 128) (k : Fin 100000) : idx_main_v37 (ix1 j) k = ix2 k j :=
  funext fun a => by match a with | ⟨0, _⟩ => rfl | ⟨1, _⟩ => rfl
theorem sidx44 (j : Fin 128) (k : Fin 100000) : idx_main_v44 (ix1 j) k = ix2 k j :=
  funext fun a => by match a with | ⟨0, _⟩ => rfl | ⟨1, _⟩ => rfl
/-- A per-column quantity spread over the rows is read at the column. -/
theorem bidx41 (i : Fin 100000) (j : Fin 128) : idx_main_v40 (idx_main_v41 (ix2 i j)) = ix1 j :=
  funext fun a => by match a with | ⟨0, _⟩ => rfl
theorem bidx48 (i : Fin 100000) (j : Fin 128) : idx_main_v47 (idx_main_v48 (ix2 i j)) = ix1 j :=
  funext fun a => by match a with | ⟨0, _⟩ => rfl
theorem bidx51 (i : Fin 100000) (j : Fin 128) : idx_main_v50 (idx_main_v51 (ix2 i j)) = ix1 j :=
  funext fun a => by match a with | ⟨0, _⟩ => rfl
theorem bidx57 (i : Fin 100000) (j : Fin 128) : idx_main_v56 (idx_main_v57 (ix2 i j)) = ix1 j :=
  funext fun a => by match a with | ⟨0, _⟩ => rfl
theorem bidx60 (i : Fin 100000) (j : Fin 128) : idx_main_v59 (idx_main_v60 (ix2 i j)) = ix1 j :=
  funext fun a => by match a with | ⟨0, _⟩ => rfl

/-- The reference's column mean (stage main_v39): the column's sum over the rows, from zero, over the row count. -/
theorem mean_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 : (⟨S100000x128, .f32⟩ : BufTy).Contents (Elt Ideal))
    (x8 x9 : (⟨S1600000, .i32⟩ : BufTy).Contents (Elt Ideal)) (j : Fin 128) :
    val_main_v39 (F := Ideal) x0 x1 x2 x3 x4 x7 x8 x9 (ix1 j) = Cert.Spec.mean (refX x0 x1 x2 x3 x4 x7 x8 x9) j := by
  rw [val_main_v39_apply, val_main_v37_apply, val_main_v38_apply, val_main_cst_6_apply, val_main_cst_7_apply,
    Ideal.hostDivf_def, Ideal.ofBits_def, Ideal.ofBits_def, Ideal.ofBits_zero_f32, zero_add]
  unfold Cert.Spec.mean
  simp only [sidx37, x_apply_refX]

/-- The squared deviation (stage main_v43) at (k, j). -/
theorem sq_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 : (⟨S100000x128, .f32⟩ : BufTy).Contents (Elt Ideal))
    (x8 x9 : (⟨S1600000, .i32⟩ : BufTy).Contents (Elt Ideal)) (k : Fin 100000) (j : Fin 128) :
    val_main_v43 (F := Ideal) x0 x1 x2 x3 x4 x7 x8 x9 (ix2 k j)
      = (refX x0 x1 x2 x3 x4 x7 x8 x9 k j - Cert.Spec.mean (refX x0 x1 x2 x3 x4 x7 x8 x9) j)
        * (refX x0 x1 x2 x3 x4 x7 x8 x9 k j - Cert.Spec.mean (refX x0 x1 x2 x3 x4 x7 x8 x9) j) := by
  rw [val_main_v43_apply, val_main_v42_apply, val_main_v41_apply, val_main_v40_apply, bidx41, mean_apply, x_apply_refX,
    Ideal.mulf_def, Ideal.subf_def]

/-- The reference's column variance (stage main_v46): the mean of the squared deviations from the column mean. -/
theorem var_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x7 : (⟨S100000x128, .f32⟩ : BufTy).Contents (Elt Ideal))
    (x8 x9 : (⟨S1600000, .i32⟩ : BufTy).Contents (Elt Ideal)) (j : Fin 128) :
    val_main_v46 (F := Ideal) x0 x1 x2 x3 x4 x7 x8 x9 (ix1 j) = Cert.Spec.varDev (refX x0 x1 x2 x3 x4 x7 x8 x9) j := by
  rw [val_main_v46_apply, val_main_v44_apply, val_main_v45_apply, val_main_cst_8_apply, val_main_cst_9_apply,
    Ideal.hostDivf_def, Ideal.ofBits_def, Ideal.ofBits_def, Ideal.ofBits_zero_f32, zero_add]
  unfold Cert.Spec.varDev
  simp only [sidx44, sq_apply]

/-! ## The result -/

/-- The reference's result (stage main_v61) at (i, j) is the normalised, scaled and shifted entry of x, with the
    column's mean and its deviation-form variance. -/
theorem out_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 x5 x6 : (⟨S128, .f32⟩ : BufTy).Contents (Elt Ideal)) (x7 : (⟨S100000x128, .f32⟩ : BufTy).Contents (Elt Ideal))
    (x8 x9 : (⟨S1600000, .i32⟩ : BufTy).Contents (Elt Ideal)) (i : Fin 100000) (j : Fin 128) :
    val_main_v61 (F := Ideal) x0 x1 x2 x3 x4 x5 x6 x7 x8 x9 (ix2 i j)
      = Cert.Spec.norm (refX x0 x1 x2 x3 x4 x7 x8 x9) (Cert.Spec.mean (refX x0 x1 x2 x3 x4 x7 x8 x9))
          (Cert.Spec.varDev (refX x0 x1 x2 x3 x4 x7 x8 x9)) (fun j => x5 (ix1 j)) (fun j => x6 (ix1 j)) i j := by
  rw [val_main_v61_apply, val_main_v58_apply, val_main_v60_apply, val_main_v59_apply, val_main_v52_apply,
    val_main_v57_apply, val_main_v56_apply, val_main_v55_apply, val_main_v54_apply, val_main_v53_apply,
    val_main_cst_10_apply, val_main_v51_apply, val_main_v50_apply, val_main_v49_apply, val_main_v48_apply,
    val_main_v47_apply, bidx60, bidx57, bidx51, bidx48, mean_apply, var_apply, x_apply_refX]
  simp only [Ideal.addf_def, Ideal.mulf_def, Ideal.subf_def, Ideal.hostUnary_rsqrt_def, Ideal.ofBits_def]
  unfold Cert.Spec.norm
  with_reducible rfl

end Cert.ReferenceIdeal.RefValue

end
-- ==== Proof.LibRows.lean ====
/-
  ROWS OF A TABLE, READ AND ADDED INTO.

  Taking rows of a table by an integer index array (x[idx]) is a gather whose start word names the row: the word is
  read as a signed integer and clamped into the table (grow). Adding rows into a table (a segment sum: each update
  row is added to the table row its index names) is a scatter whose start word names the row the update lands on:
  the word is read as a signed integer and the update is dropped when the row is outside the table (srow). This
  file reads both operations at one index for the dimension numbers those two idioms carry, and collects the sum
  laws on the extended reals that a value proof over such sums uses: a finite nonnegative factor distributes over a
  finite sum, a sum over Fin (a * b) splits into blocks, and the reciprocal square root of a number at least 1 is
  such a factor.
-/
import Idealize.ShloMosaic.PureOps
import Idealize.ShloMosaic.PureOps.Ideal
import Idealize.ShloMosaic.PureOps.Ideal.Laws
import Idealize.ShloMosaic.Lib.ValueIdx
import Mathlib.Data.EReal.Operations
import Mathlib.Logic.Equiv.Fin.Basic
import Mathlib.Algebra.BigOperators.Fin

noncomputable section

open scoped BigOperators

namespace Idealize.ShloMosaic.Rows

open Idealize.ShloMosaic Idealize.ShloMosaic.ValueIdx

/-! ## The row a start word names -/

/-- The row a gather reads for a start word: the word as a signed integer, clamped into [0, N - 1]. -/
def grow (N : ℕ) (hN : 0 < N) {w : ℕ} (v : BitVec w) : Fin N := ⟨min v.toInt.toNat (N - 1), by omega⟩

/-- The row a scatter's update lands on: the word as a signed integer, and no row at all when that integer is
    outside [0, N). -/
def srow (N : ℕ) {w : ℕ} (v : BitVec w) : Option (Fin N) :=
  if h : 0 ≤ v.toInt ∧ v.toInt < N then some ⟨v.toInt.toNat, by omega⟩ else none

/-- Where the scatter's row exists, the gather's clamped row is the same row: inside the table the clamp does
    nothing. -/
theorem grow_of_srow {N : ℕ} (hN : 0 < N) {w : ℕ} {v : BitVec w} {n : Fin N} (h : srow N v = some n) :
    grow N hN v = n := by
  unfold srow at h
  split at h
  · rename_i hv
    obtain rfl := Option.some.inj h
    refine Fin.ext ?_
    show min v.toInt.toNat (N - 1) = v.toInt.toNat
    omega
  · exact absurd h (by simp)

/-- A start word whose scatter row exists is nonnegative as a signed integer. -/
theorem srow_nonneg {N w : ℕ} {v : BitVec w} {n : Fin N} (h : srow N v = some n) : 0 ≤ v.toInt := by
  unfold srow at h
  split at h
  · rename_i hv
    exact hv.1
  · exact absurd h (by simp)

/-- The scatter's row is r exactly when the start word, as a signed integer, is r. -/
theorem srow_eq_some_iff {N w : ℕ} {v : BitVec w} {r : Fin N} : srow N v = some r ↔ v.toInt = (r.val : ℤ) := by
  have hr := r.isLt
  unfold srow
  constructor
  · intro h
    split at h
    · rename_i hv
      obtain rfl := Option.some.inj h
      show v.toInt = ((v.toInt.toNat : ℕ) : ℤ)
      omega
    · exact absurd h (by simp)
  · intro h
    rw [dif_pos ⟨by omega, by omega⟩]
    congr 1
    refine Fin.ext ?_
    show v.toInt.toNat = r.val
    omega

/-! ## Gathering rows of a rank-2 table -/

/-- The dimension numbers of taking rows of an [N, C] table at start indices [n, 1] into an [n, C] result: the
    result's axis 1 is the offset axis, the table's axis 0 is collapsed and is the one the start index names, the
    index vector lies on axis 1 of the start indices, and a slice is one row, [1, C]. -/
abbrev rowGatherDims (N n C : ℕ)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (e, c): the table at the row the start word idx[e, 0] names (signed, clamped) and at
    column c. -/
theorem gather_rows_apply {α : Type} {N n C w : ℕ} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (j : (⟨2, ![n, C]⟩ : Shape).Idx) :
    Host.gather (rowGatherDims N n C wf) x idx j
      = x (ix2 (grow N hN (idx (ix2 ⟨(j 0).val, idx2_lt0 j⟩ ⟨0, Nat.one_pos⟩))) ⟨(j 1).val, idx2_lt1 j⟩) := by
  unfold Host.gather
  congr 1
  funext a
  refine Fin.ext ?_
  show (rowGatherDims N n C wf).start j idx a + (rowGatherDims N n C wf).batchCoord j a
    + (rowGatherDims N n C wf).offCoord j a = _
  rw [GatherDims.batchCoord_eq_zero _ _ _ List.not_mem_nil]
  match a with
  | ⟨0, h0⟩ =>
    -- the collapsed axis: the clamped start, no offset
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N n C wf).startIndexMap from List.mem_singleton.mpr rfl)]
    have hsi : (rowGatherDims N n C wf).siIdx j ⟨List.idxOf (⟨0, h0⟩ : Fin 2) (rowGatherDims N n C wf).startIndexMap,
        List.idxOf_lt_length_iff.2 (List.mem_singleton.mpr rfl)⟩ = ix2 ⟨(j 0).val, idx2_lt0 j⟩ ⟨0, Nat.one_pos⟩ := by
      funext b; refine Fin.ext ?_
      match b with
      | ⟨0, _⟩ => rfl
      | ⟨1, _⟩ => rfl
    rw [hsi]
    rfl
  | ⟨1, h1⟩ =>
    -- the offset axis: no start, the result's column
    have hns : (⟨1, h1⟩ : Fin 2) ∉ (rowGatherDims N n C wf).startIndexMap :=
      fun h => Nat.one_ne_zero (congrArg Fin.val (List.mem_singleton.mp h))
    have hk : (⟨1, h1⟩ : Fin 2) ∈ (rowGatherDims N n C wf).sKept :=
      (GatherDims.mem_sKept _ _).mpr
        ⟨fun h => Nat.one_ne_zero (congrArg Fin.val (List.mem_singleton.mp h)), List.not_mem_nil⟩
    unfold GatherDims.start GatherDims.offCoord
    rw [dif_neg hns, dif_pos hk]
    simp only [Nat.zero_add, Nat.add_zero]
    rfl

/-! ## Gathering entries of a rank-1 table at a column of start indices -/

/-- The dimension numbers of taking entries of an [N] table at start indices [n, 1] into an [n] result: no offset
    axis, the table's one axis collapsed and named by the start index, the index vector on axis 1 of the start
    indices, and a slice is one entry. -/
abbrev colGatherDims (N n : ℕ) (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- That gather read at e: the table at the entry the start word idx[e, 0] names (signed, clamped). -/
theorem gather_col_apply {α : Type} {N n w : ℕ} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (j : (⟨1, ![n]⟩ : Shape).Idx) :
    Host.gather (colGatherDims N n wf) x idx j
      = x (ix1 (grow N hN (idx (ix2 ⟨(j 0).val, (j 0).isLt⟩ ⟨0, Nat.one_pos⟩)))) := by
  unfold Host.gather
  congr 1
  funext a
  obtain rfl : a = 0 := Subsingleton.elim _ _
  refine Fin.ext ?_
  show (colGatherDims N n wf).start j idx 0 + (colGatherDims N n wf).batchCoord j 0
    + (colGatherDims N n wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colGatherDims N n wf).startIndexMap from List.mem_singleton.mpr rfl)]
  have hsi : (colGatherDims N n wf).siIdx j ⟨List.idxOf (0 : Fin 1) (colGatherDims N n wf).startIndexMap,
      List.idxOf_lt_length_iff.2 (List.mem_singleton.mpr rfl)⟩ = ix2 ⟨(j 0).val, (j 0).isLt⟩ ⟨0, Nat.one_pos⟩ := by
    funext b; refine Fin.ext ?_
    match b with
    | ⟨0, _⟩ => rfl
    | ⟨1, _⟩ => rfl
  rw [hsi]
  rfl

/-! ## Adding rows into a rank-2 table -/

/-- The dimension numbers of adding the rows of [n, C] updates into an [N, C] table at scatter indices [n, 1]: the
    updates' axis 1 is the window axis, the table's axis 0 is the inserted one and the one the scatter index names,
    and the index vector lies on axis 1 of the scatter indices. -/
abbrev rowScatterDims (N n C : ℕ) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- Update element (e, c) lands on table element (r, c') exactly when the start word idx[e, 0] names row r (signed,
    inside the table) and the columns agree. -/
theorem resultIdx_rows {N n C w : ℕ} (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) (i : (⟨2, ![N, C]⟩ : Shape).Idx) :
    (rowScatterDims N n C wf).resultIdx? j idx = some i
      ↔ srow N (idx (ix2 ⟨(j 0).val, idx2_lt0 j⟩ ⟨0, Nat.one_pos⟩)) = some ⟨(i 0).val, idx2_lt0 i⟩
        ∧ (i 1).val = (j 1).val := by
  -- the four coordinates of the landing position: start and window on the row axis and on the column axis
  have hs0 : ∀ h0 : 0 < 2, (rowScatterDims N n C wf).start j idx ⟨0, h0⟩
      = (idx (ix2 ⟨(j 0).val, idx2_lt0 j⟩ ⟨0, Nat.one_pos⟩)).toInt := by
    intro h0
    unfold ScatterDims.start
    rw [dif_pos (show (⟨0, h0⟩ : Fin 2) ∈ (rowScatterDims N n C wf).scatterDimsToOperandDims from
      List.mem_singleton.mpr rfl)]
    have hsi : (rowScatterDims N n C wf).siIdx j
        ⟨List.idxOf (⟨0, h0⟩ : Fin 2) (rowScatterDims N n C wf).scatterDimsToOperandDims,
          List.idxOf_lt_length_iff.2 (List.mem_singleton.mpr rfl)⟩
        = ix2 ⟨(j 0).val, idx2_lt0 j⟩ ⟨0, Nat.one_pos⟩ := by
      funext b; refine Fin.ext ?_
      match b with
      | ⟨0, _⟩ => rfl
      | ⟨1, _⟩ => rfl
    rw [hsi]
  have hs1 : ∀ h1 : 1 < 2, (rowScatterDims N n C wf).start j idx ⟨1, h1⟩ = 0 := by
    intro h1
    unfold ScatterDims.start
    rw [dif_neg (fun h => Nat.one_ne_zero (congrArg Fin.val (List.mem_singleton.mp h)))]
  have hw0 : ∀ h0 : 0 < 2, (rowScatterDims N n C wf).window j ⟨0, h0⟩ = 0 := by
    intro h0
    unfold ScatterDims.window
    rw [dif_neg]
    intro h
    have := (List.mem_filter.mp h).2
    simp at this
  have hw1 : ∀ h1 : 1 < 2, (rowScatterDims N n C wf).window j ⟨1, h1⟩ = (j 1).val := by
    intro h1
    have hk : (⟨1, h1⟩ : Fin 2) ∈ (rowScatterDims N n C wf).sKept :=
      List.mem_filter.mpr ⟨List.mem_finRange _, by simp⟩
    unfold ScatterDims.window
    rw [dif_pos hk]
    rfl
  have hi0 := idx2_lt0 i
  have hj1 := idx2_lt1 j
  rw [srow_eq_some_iff]
  show _ ↔ (idx (ix2 ⟨(j 0).val, idx2_lt0 j⟩ ⟨0, Nat.one_pos⟩)).toInt = ((i 0).val : ℤ) ∧ (i 1).val = (j 1).val
  unfold ScatterDims.resultIdx?
  constructor
  · -- a landing position inside the table: read its two coordinates
    intro h
    by_cases hall : ∀ a, 0 ≤ (rowScatterDims N n C wf).start j idx a + ((rowScatterDims N n C wf).window j a : ℕ)
        ∧ (rowScatterDims N n C wf).start j idx a + ((rowScatterDims N n C wf).window j a : ℕ)
          < ((⟨2, ![N, C]⟩ : Shape).size a : ℕ)
    · rw [dif_pos hall] at h
      have hi := Option.some.inj h
      have a0 := hall ⟨0, Nat.zero_lt_two⟩
      have e0 : ((rowScatterDims N n C wf).start j idx ⟨0, Nat.zero_lt_two⟩
          + ((rowScatterDims N n C wf).window j ⟨0, Nat.zero_lt_two⟩ : ℕ)).toNat = (i 0).val :=
        congrArg (fun f => (f 0).val) hi
      have e1 : ((rowScatterDims N n C wf).start j idx ⟨1, Nat.one_lt_two⟩
          + ((rowScatterDims N n C wf).window j ⟨1, Nat.one_lt_two⟩ : ℕ)).toNat = (i 1).val :=
        congrArg (fun f => (f 1).val) hi
      rw [hs0, hw0] at a0 e0
      rw [hs1, hw1] at e1
      constructor <;> omega
    · rw [dif_neg hall] at h
      exact absurd h (by simp)
  · -- a row inside the table and the same column: the position is inside on both axes, and it is that one
    rintro ⟨hv, hc⟩
    have hall : ∀ a, 0 ≤ (rowScatterDims N n C wf).start j idx a + ((rowScatterDims N n C wf).window j a : ℕ)
        ∧ (rowScatterDims N n C wf).start j idx a + ((rowScatterDims N n C wf).window j a : ℕ)
          < ((⟨2, ![N, C]⟩ : Shape).size a : ℕ) := by
      intro a
      match a with
      | ⟨0, h0⟩ =>
        rw [hs0, hw0]
        show _ ∧ _ < ((N : ℕ) : ℤ)
        omega
      | ⟨1, h1⟩ =>
        rw [hs1, hw1]
        show _ ∧ _ < ((C : ℕ) : ℤ)
        omega
    rw [dif_pos hall]
    congr 1
    funext a
    refine Fin.ext ?_
    match a with
    | ⟨0, h0⟩ =>
      show ((rowScatterDims N n C wf).start j idx ⟨0, h0⟩
        + ((rowScatterDims N n C wf).window j ⟨0, h0⟩ : ℕ)).toNat = (i 0).val
      rw [hs0, hw0]
      omega
    | ⟨1, h1⟩ =>
      show ((rowScatterDims N n C wf).start j idx ⟨1, h1⟩
        + ((rowScatterDims N n C wf).window j ⟨1, h1⟩ : ℕ)).toNat = (i 1).val
      rw [hs1, hw1]
      omega

/-- THE ROW SCATTER-ADD AT AN INDEX, on the extended reals: the table's element there plus the sum over the update
    rows e of the update's element at (e, that column) when row e lands on that row, and of 0 when it does not. -/
theorem scatterAdd_rows_apply {N n C w : ℕ}
    (wf : ScatterDims.WF ⟨2, ![N, C]⟩ ⟨2, ![n, 1]⟩ ⟨2, ![n, C]⟩ [1] [0] [0] 1)
    (x : FVec Ideal ⟨2, ![N, C]⟩ .f32) (idx : IVec ⟨2, ![n, 1]⟩ w) (upd : FVec Ideal ⟨2, ![n, C]⟩ .f32)
    (i : (⟨2, ![N, C]⟩ : Shape).Idx) :
    Host.scatterAdd (F := Ideal) (φ := .f32) (rowScatterDims N n C wf) x idx upd i
      = x i + ∑ e : Fin n,
          if srow N (idx (ix2 e ⟨0, Nat.one_pos⟩)) = some ⟨(i 0).val, idx2_lt0 i⟩
          then upd (ix2 e ⟨(i 1).val, idx2_lt1 i⟩) else 0 := by
  show Ideal.hostScatterAdd (rowScatterDims N n C wf) x idx upd i = _
  unfold Ideal.hostScatterAdd
  congr 1
  rw [Finset.sum_filter, sum_idx2]
  refine Finset.sum_congr rfl fun e _ => ?_
  -- inside update row e: the landing test is the row test and the column test
  have key : ∀ b : Fin C, (rowScatterDims N n C wf).resultIdx? (ix2 e b) idx = some i
      ↔ srow N (idx (ix2 e ⟨0, Nat.one_pos⟩)) = some ⟨(i 0).val, idx2_lt0 i⟩ ∧ (i 1).val = b.val :=
    fun b => resultIdx_rows wf idx (ix2 e b) i
  by_cases hrow : srow N (idx (ix2 e ⟨0, Nat.one_pos⟩)) = some ⟨(i 0).val, idx2_lt0 i⟩
  · -- the row lands here: of its C elements the one in this column is added
    rw [if_pos hrow, Finset.sum_eq_single (⟨(i 1).val, idx2_lt1 i⟩ : Fin C)]
    · exact if_pos ((key ⟨(i 1).val, idx2_lt1 i⟩).mpr ⟨hrow, rfl⟩)
    · intro b _ hb
      exact if_neg fun h => hb (Fin.ext ((key b).mp h).2.symm)
    · intro h
      exact absurd (Finset.mem_univ _) h
  · -- the row lands elsewhere or nowhere: nothing of it is added
    rw [if_neg hrow]
    exact Finset.sum_eq_zero fun b _ => if_neg fun h => hrow ((key b).mp h).1

/-! ## Sums on the extended reals -/

/-- A finite nonnegative factor distributes over a finite sum of extended reals (the two-term law is Mathlib's
    EReal.right_distrib_of_nonneg_of_ne_top). -/
theorem sum_mul_of_nonneg_ne_top {ι : Type} (s : Finset ι) (f : ι → EReal) {d : EReal} (h0 : 0 ≤ d) (ht : d ≠ ⊤) :
    (∑ i ∈ s, f i) * d = ∑ i ∈ s, f i * d := by
  classical
  induction s using Finset.induction_on with
  | empty => simp
  | insert a s ha ih =>
    rw [Finset.sum_insert ha, Finset.sum_insert ha, EReal.right_distrib_of_nonneg_of_ne_top h0 ht, ih]

/-- The same for a sum of terms each present under a condition and 0 otherwise: the factor goes inside the
    condition. -/
theorem sum_ite_mul_of_nonneg_ne_top {ι : Type} [Fintype ι] (p : ι → Prop) [DecidablePred p] (f : ι → EReal)
    {d : EReal} (h0 : 0 ≤ d) (ht : d ≠ ⊤) :
    (∑ i, if p i then f i else 0) * d = ∑ i, if p i then f i * d else 0 := by
  rw [sum_mul_of_nonneg_ne_top _ _ h0 ht]
  refine Finset.sum_congr rfl fun i _ => ?_
  by_cases h : p i
  · rw [if_pos h, if_pos h]
  · rw [if_neg h, if_neg h, zero_mul]

/-- Position p of block c of a range of a blocks of b lies in the range of a * b. -/
theorem block_lt {a b : ℕ} (c : Fin a) (p : Fin b) : c.val * b + p.val < a * b :=
  calc c.val * b + p.val < c.val * b + b := Nat.add_lt_add_left p.isLt _
    _ = (c.val + 1) * b := (Nat.succ_mul _ _).symm
    _ ≤ a * b := Nat.mul_le_mul_right _ c.isLt

/-- A sum over Fin (a * b) is the sum over the a blocks of the sums over the b positions inside each block. -/
theorem sum_fin_mul {M : Type} [AddCommMonoid M] (a b : ℕ) (f : Fin (a * b) → M) :
    ∑ e : Fin (a * b), f e = ∑ c : Fin a, ∑ p : Fin b, f ⟨c.val * b + p.val, block_lt c p⟩ := by
  rw [← Equiv.sum_comp finProdFinEquiv f, Fintype.sum_prod_type]
  refine Finset.sum_congr rfl fun c _ => Finset.sum_congr rfl fun p _ => ?_
  congr 1
  refine Fin.ext ?_
  show p.val + b * c.val = c.val * b + p.val
  rw [Nat.mul_comm, Nat.add_comm]

/-- The reciprocal square root of an extended real at least 1 is a finite nonnegative number. -/
theorem rsqrt_nonneg_ne_top {x : EReal} (hx : 1 ≤ x) : 0 ≤ Ideal.rsqrt x ∧ Ideal.rsqrt x ≠ ⊤ := by
  induction x using EReal.rec with
  | bot => exact absurd hx (not_le.mpr (by exact_mod_cast EReal.bot_lt_coe 1))
  | top => exact ⟨by rw [Ideal.rsqrt_top], by rw [Ideal.rsqrt_top]; exact EReal.zero_ne_top⟩
  | coe r =>
    have hr : (1 : ℝ) ≤ r := by exact_mod_cast hx
    rw [Ideal.rsqrt_coe, if_neg (by linarith), if_neg (by linarith)]
    exact ⟨by exact_mod_cast inv_nonneg.mpr (Real.sqrt_nonneg r), EReal.coe_ne_top _⟩

end Idealize.ShloMosaic.Rows

end
-- ==== Proof.AggReal.lean ====
/-
  THE AGGREGATED FEATURES ARE REAL NUMBERS.

  A node's aggregated feature is a sum, over the edges that end at the node, of the feature row of the edge's
  starting node scaled by the reciprocal square root of that node's out-degree, the whole sum scaled by the
  reciprocal square root of the node's own in-degree; both degrees are clipped below at 1 before the root is taken.

  Whatever a degree count comes to as an extended real, max 1 of it is at least 1, so its reciprocal square root lies
  in [0, ⊤) and is a real number. A real feature times such a factor is real; a row taken from a table of reals is a
  row of reals; a table of zeros with finitely many reals added into each entry is a table of reals; and that table
  times the second real factor is real again. No value is computed here: only membership in ℝ is carried along the
  stages.
-/
import proofs.«167465_j80161269613387_1_alg».proof.Proof.Gen.ReferenceIdeal.Read
import proofs.«167465_j80161269613387_1_alg».proof.Proof.Spec
import proofs.«167465_j80161269613387_1_alg».proof.Proof.LibRows
import Mathlib.Data.EReal.Operations

noncomputable section

open scoped BigOperators

namespace Cert.ReferenceIdeal.AggReal

open Cert.ReferenceIdeal Cert.ReferenceIdeal.Gen Cert.ReferenceIdeal.Read Idealize.ShloMosaic
  Idealize.ShloMosaic.ValueIdx Idealize.ShloMosaic.Rows

/-! ## Real numbers among the extended reals -/

/-- An extended real that is a real number. -/
def IsReal (x : EReal) : Prop := ∃ r : ℝ, x = (r : EReal)

theorem isReal_zero : IsReal 0 := ⟨0, EReal.coe_zero.symm⟩

/-- A product of two reals is a real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A sum of two reals is a real. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- A finite sum of reals is a real. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A nonnegative extended real other than ⊤ is a real. -/
theorem isReal_of_nonneg_ne_top {x : EReal} (h0 : 0 ≤ x) (ht : x ≠ ⊤) : IsReal x :=
  ⟨x.toReal, (EReal.coe_toReal ht (ne_of_gt (lt_of_lt_of_le EReal.bot_lt_zero h0))).symm⟩

/-- The reciprocal square root of max 1 x is a real, whatever x is: max 1 x is at least 1. -/
theorem isReal_rsqrt_max_one (x : EReal) : IsReal (Ideal.rsqrt (max 1 x)) :=
  isReal_of_nonneg_ne_top (rsqrt_nonneg_ne_top (le_max_left 1 x)).1 (rsqrt_nonneg_ne_top (le_max_left 1 x)).2

/-- The float 1.0 is the number 1. -/
theorem ofBits_one_f32 : Ideal.ofBits .f32 0x3F800000#32 = (1 : EReal) := by
  simp [Ideal.ofBits, Ideal.ieee, -EReal.coe_mul]
  norm_num

/-! ## The two operations whose element read depends on index values -/

/-- Rows, or entries, taken from a table of reals are reals: every element of a gather is an element of its
    operand. -/
theorem gather_isReal {s si t : Shape} {w : ℕ} (d : GatherDims s si t) (x : s.Idx → EReal) (idx : IVec si w)
    (hx : ∀ i, IsReal (x i)) (j : t.Idx) : IsReal (Host.gather d x idx j) := by
  unfold Host.gather
  exact hx _

/-- Adding real updates into a table of reals leaves a table of reals: an element of the result is the table's
    element plus the finite sum of the updates that land on it. -/
theorem scatterAdd_isReal {s si su : Shape} {w : ℕ} (d : ScatterDims s si su) (x : FVec Ideal s .f32)
    (idx : IVec si w) (upd : FVec Ideal su .f32) (hx : ∀ i, IsReal (x i)) (hu : ∀ j, IsReal (upd j)) (i : s.Idx) :
    IsReal (Host.scatterAdd (F := Ideal) (φ := .f32) d x idx upd i) := by
  show IsReal (Ideal.hostScatterAdd d x idx upd i)
  unfold Ideal.hostScatterAdd
  exact (hx i).add (isReal_sum _ _ fun j _ => hu j)

/-! ## The stages -/

section stages

variable (x0 : (⟨S100000x128, .f32⟩ : BufTy).Contents (Elt Ideal))
  (x8 x9 : (⟨S1600000, .i32⟩ : BufTy).Contents (Elt Ideal))

/-- The out-degree after the clip is max 1 of the count. -/
theorem v4_eq (i : S100000.Idx) :
    val_main_v4 (F := Ideal) x8 i = max 1 (val_main_v3 (F := Ideal) x8 i) := by
  rw [val_main_v4_apply, val_main_call0_v1_apply, val_main_call0_v0_apply, val_main_cst_1_apply,
    Ideal.maximumf_def, Ideal.ofBits_def, ofBits_one_f32]

/-- The in-degree after the clip is max 1 of the count. -/
theorem v8_eq (i : S100000.Idx) :
    val_main_v8 (F := Ideal) x9 i = max 1 (val_main_v7 (F := Ideal) x9 i) := by
  rw [val_main_v8_apply, val_main_call1_v1_apply, val_main_call1_v0_apply, val_main_cst_3_apply,
    Ideal.maximumf_def, Ideal.ofBits_def, ofBits_one_f32]

/-- The out-degree factor, broadcast along the columns, is real. -/
theorem v11_isReal (i : S100000x128.Idx) : IsReal (val_main_v11 (F := Ideal) x8 i) := by
  rw [val_main_v11_apply, val_main_v10_apply, val_main_v9_apply, Ideal.hostUnary_rsqrt_def, v4_eq]
  exact isReal_rsqrt_max_one _

/-- The in-degree factor, broadcast along the columns, is real. -/
theorem v25_isReal (i : S100000x128.Idx) : IsReal (val_main_v25 (F := Ideal) x9 i) := by
  rw [val_main_v25_apply, val_main_v24_apply, val_main_v23_apply, Ideal.hostUnary_rsqrt_def, v8_eq]
  exact isReal_rsqrt_max_one _

/-- The scaled features are real. -/
theorem v12_isReal (h0 : ∀ i, IsReal (x0 i)) (i : S100000x128.Idx) :
    IsReal (val_main_v12 (F := Ideal) x0 x8 i) := by
  rw [val_main_v12_apply, Ideal.mulf_def]
  exact (h0 i).mul (v11_isReal x8 i)

/-- The messages, rows of the scaled features taken at the edges' starting nodes, are real. -/
theorem v19_isReal (h0 : ∀ i, IsReal (x0 i)) (j : S1600000x128.Idx) :
    IsReal (val_main_v19 (F := Ideal) x0 x8 j) := by
  unfold val_main_v19
  exact gather_isReal _ _ _ (v12_isReal x0 x8 h0) j

/-- The table the messages are added into is zero, so real. -/
theorem v20_isReal (i : S100000x128.Idx) : IsReal (val_main_v20 (F := Ideal) i) := by
  rw [val_main_v20_apply, val_main_cst_5_apply, Ideal.ofBits_def, Ideal.ofBits_zero_f32]
  exact isReal_zero

/-- The sums of the messages over the edges ending at each node are real. -/
theorem v22_isReal (h0 : ∀ i, IsReal (x0 i)) (i : S100000x128.Idx) :
    IsReal (val_main_v22 (F := Ideal) x0 x8 x9 i) := by
  unfold val_main_v22
  exact scatterAdd_isReal _ _ _ _ v20_isReal (v19_isReal x0 x8 h0) i

/-- The aggregated features are real. -/
theorem v26_isReal (h0 : ∀ i, IsReal (x0 i)) (i : S100000x128.Idx) :
    IsReal (val_main_v26 (F := Ideal) x0 x8 x9 i) := by
  rw [val_main_v26_apply, Ideal.mulf_def]
  exact (v22_isReal x0 x8 x9 h0 i).mul (v25_isReal x9 i)

end stages

/-- THE AGGREGATED FEATURES ARE REAL NUMBERS: with real node features, every entry of the aggregated features is a
    real number, for any edge endpoints. -/
theorem agg_allReal (x0 : (⟨S100000x128, .f32⟩ : BufTy).Contents (Elt Ideal))
    (x8 x9 : (⟨S1600000, .i32⟩ : BufTy).Contents (Elt Ideal)) (h0 : ∀ i, ∃ r : ℝ, x0 i = (r : EReal)) :
    Cert.Spec.AllReal (fun (i : Fin 100000) (k : Fin 128) =>
      val_main_v26 (F := Ideal) x0 x8 x9 (ValueIdx.ix2 i k)) :=
  fun i k => v26_isReal x0 x8 x9 h0 (ix2 i k)

end Cert.ReferenceIdeal.AggReal

end
-- ==== Proof.PreReal.lean ====
/-
  The precondition read back at the extended reals. The printed predicate is the conjunction, over the eight float
  arrays, of "every entry x has |x| < +∞"; the claim's hypothesis says that conjunction is the word 1. On the extended
  reals |x| = max x (−x) and the comparison is the order's, so |x| < ⊤ excludes x = ⊤ (then |x| = ⊤) and x = ⊥ (then
  −x = ⊤): what is left is a real number. The two integer arrays carry no condition.
-/
import proofs.«167465_j80161269613387_1_alg».proof.Defs
import proofs.«167465_j80161269613387_1_alg».proof.Proof.Gen.Pre_finite_inputs
import Idealize.ShloMosaic.Lib.ReduceAll
import Idealize.ShloMosaic.Lib.ValueIdx
import Idealize.ShloMosaic.PureOps.Ideal

noncomputable section

namespace Cert.Hand.PreReal

open Idealize.ShloMosaic Idealize.SL.Sem
open Cert.Pre_finite_inputs

/-- The scalar shape has one index. -/
instance subsingleton_scalar_idx : Subsingleton S_.Idx := ⟨fun a b => funext fun d => d.elim0⟩

/-- The word 0x7F800000 is +∞. -/
theorem inf_word : Ideal.ofBits .f32 0x7F800000#32 = (⊤ : EReal) := by simp [Ideal.ofBits, Ideal.ieee]

/-- One entry: an extended real with |x| < +∞ is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_word] at h
  unfold Ideal.cmp at h
  induction x using EReal.rec with
  | bot => simp at h
  | coe r => exact ⟨r, rfl⟩
  | top => simp at h

/-- One array: if the conjunction over all entries of "|x| < +∞" is 1, every entry is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
        (cmpf .olt (Host.absf a) (broadcastInDim s ![] hb (constant (F := Ideal) S_ .f32 0x7F800000#32))) init hr hu
        ValueIdx.ix0 = 1#1) :
    ∀ i, ∃ r : ℝ, a i = (r : EReal) := fun i =>
  real_of_abs_lt_inf (a i) (Host.reduce_andi_all _ init hr hu ValueIdx.ix0 h i)

variable [Cert.Pre_finite_inputs.Facts]

/-- THE PRECONDITION DECODED: when the printed predicate of ten arrays is all ones, each of the eight float arrays
    holds real numbers only. -/
theorem real_of_fn (a0 : FVec Ideal S100000x128 .f32) (a1 : FVec Ideal S128x128 .f32) (a2 : FVec Ideal S128 .f32)
    (a3 : FVec Ideal S128x128 .f32) (a4 a5 a6 : FVec Ideal S128 .f32) (a7 : FVec Ideal S100000x128 .f32)
    (a8 a9 : IVec S1600000 32)
    (h : Cert.Pre_finite_inputs.fn (F := Ideal) a0 a1 a2 a3 a4 a5 a6 a7 a8 a9 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have e := congrFun h ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨h0, h1⟩, h2⟩, h3⟩, h4⟩, h5⟩, h6⟩, h7⟩ := e
  exact ⟨real_of_all a0 _ _ _ _ h0, real_of_all a1 _ _ _ _ h1, real_of_all a2 _ _ _ _ h2, real_of_all a3 _ _ _ _ h3,
    real_of_all a4 _ _ _ _ h4, real_of_all a5 _ _ _ _ h5, real_of_all a6 _ _ _ _ h6, real_of_all a7 _ _ _ _ h7⟩

/-- The same for the argument arrays of a memory the precondition holds of, on each device. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : S100000x128.Idx, ∃ r : ℝ, m ((c.tc : Thread Cert.KernelIdeal.nD Cert.KernelIdeal.τ).loc Cert.KernelIdeal.main_arg0) i = (r : EReal))
      ∧ (∀ i : S128x128.Idx, ∃ r : ℝ, m ((c.tc : Thread Cert.KernelIdeal.nD Cert.KernelIdeal.τ).loc Cert.KernelIdeal.main_arg1) i = (r : EReal))
      ∧ (∀ i : S128.Idx, ∃ r : ℝ, m ((c.tc : Thread Cert.KernelIdeal.nD Cert.KernelIdeal.τ).loc Cert.KernelIdeal.main_arg2) i = (r : EReal))
      ∧ (∀ i : S128x128.Idx, ∃ r : ℝ, m ((c.tc : Thread Cert.KernelIdeal.nD Cert.KernelIdeal.τ).loc Cert.KernelIdeal.main_arg3) i = (r : EReal))
      ∧ (∀ i : S128.Idx, ∃ r : ℝ, m ((c.tc : Thread Cert.KernelIdeal.nD Cert.KernelIdeal.τ).loc Cert.KernelIdeal.main_arg4) i = (r : EReal))
      ∧ (∀ i : S128.Idx, ∃ r : ℝ, m ((c.tc : Thread Cert.KernelIdeal.nD Cert.KernelIdeal.τ).loc Cert.KernelIdeal.main_arg5) i = (r : EReal))
      ∧ (∀ i : S128.Idx, ∃ r : ℝ, m ((c.tc : Thread Cert.KernelIdeal.nD Cert.KernelIdeal.τ).loc Cert.KernelIdeal.main_arg6) i = (r : EReal))
      ∧ (∀ i : S100000x128.Idx, ∃ r : ℝ, m ((c.tc : Thread Cert.KernelIdeal.nD Cert.KernelIdeal.τ).loc Cert.KernelIdeal.main_arg7) i = (r : EReal)) :=
  real_of_fn _ _ _ _ _ _ _ _ _ _ (h c)

/-! The same facts one argument at a time, at an index given by its coordinates. -/

theorem arg0_real (m : (ℓ : Loc Cert.KernelIdeal.nD Cert.KernelIdeal.τ Cert.KernelIdeal.sig) → Buf (Elt Ideal) ℓ)
    (h : Cert.Pre_KernelIdeal m) (c : Dev Cert.KernelIdeal.nD) (i : Fin 100000) (j : Fin 128) :
    ∃ r : ℝ, m ((c.tc : Thread Cert.KernelIdeal.nD Cert.KernelIdeal.τ).loc Cert.KernelIdeal.main_arg0) (ValueIdx.ix2 i j) = (r : EReal) :=
  (args_real m h c).1 (ValueIdx.ix2 i j)

theorem arg1_real (m : (ℓ : Loc Cert.KernelIdeal.nD Cert.KernelIdeal.τ Cert.KernelIdeal.sig) → Buf (Elt Ideal) ℓ)
    (h : Cert.Pre_KernelIdeal m) (c : Dev Cert.KernelIdeal.nD) (i : Fin 128) (j : Fin 128) :
    ∃ r : ℝ, m ((c.tc : Thread Cert.KernelIdeal.nD Cert.KernelIdeal.τ).loc Cert.KernelIdeal.main_arg1) (ValueIdx.ix2 i j) = (r : EReal) :=
  (args_real m h c).2.1 (ValueIdx.ix2 i j)

theorem arg2_real (m : (ℓ : Loc Cert.KernelIdeal.nD Cert.KernelIdeal.τ Cert.KernelIdeal.sig) → Buf (Elt Ideal) ℓ)
    (h : Cert.Pre_KernelIdeal m) (c : Dev Cert.KernelIdeal.nD) (j : Fin 128) :
    ∃ r : ℝ, m ((c.tc : Thread Cert.KernelIdeal.nD Cert.KernelIdeal.τ).loc Cert.KernelIdeal.main_arg2) (ValueIdx.ix1 j) = (r : EReal) :=
  (args_real m h c).2.2.1 (ValueIdx.ix1 j)

theorem arg3_real (m : (ℓ : Loc Cert.KernelIdeal.nD Cert.KernelIdeal.τ Cert.KernelIdeal.sig) → Buf (Elt Ideal) ℓ)
    (h : Cert.Pre_KernelIdeal m) (c : Dev Cert.KernelIdeal.nD) (i : Fin 128) (j : Fin 128) :
    ∃ r : ℝ, m ((c.tc : Thread Cert.KernelIdeal.nD Cert.KernelIdeal.τ).loc Cert.KernelIdeal.main_arg3) (ValueIdx.ix2 i j) = (r : EReal) :=
  (args_real m h c).2.2.2.1 (ValueIdx.ix2 i j)

theorem arg4_real (m : (ℓ : Loc Cert.KernelIdeal.nD Cert.KernelIdeal.τ Cert.KernelIdeal.sig) → Buf (Elt Ideal) ℓ)
    (h : Cert.Pre_KernelIdeal m) (c : Dev Cert.KernelIdeal.nD) (j : Fin 128) :
    ∃ r : ℝ, m ((c.tc : Thread Cert.KernelIdeal.nD Cert.KernelIdeal.τ).loc Cert.KernelIdeal.main_arg4) (ValueIdx.ix1 j) = (r : EReal) :=
  (args_real m h c).2.2.2.2.1 (ValueIdx.ix1 j)

theorem arg5_real (m : (ℓ : Loc Cert.KernelIdeal.nD Cert.KernelIdeal.τ Cert.KernelIdeal.sig) → Buf (Elt Ideal) ℓ)
    (h : Cert.Pre_KernelIdeal m) (c : Dev Cert.KernelIdeal.nD) (j : Fin 128) :
    ∃ r : ℝ, m ((c.tc : Thread Cert.KernelIdeal.nD Cert.KernelIdeal.τ).loc Cert.KernelIdeal.main_arg5) (ValueIdx.ix1 j) = (r : EReal) :=
  (args_real m h c).2.2.2.2.2.1 (ValueIdx.ix1 j)

theorem arg6_real (m : (ℓ : Loc Cert.KernelIdeal.nD Cert.KernelIdeal.τ Cert.KernelIdeal.sig) → Buf (Elt Ideal) ℓ)
    (h : Cert.Pre_KernelIdeal m) (c : Dev Cert.KernelIdeal.nD) (j : Fin 128) :
    ∃ r : ℝ, m ((c.tc : Thread Cert.KernelIdeal.nD Cert.KernelIdeal.τ).loc Cert.KernelIdeal.main_arg6) (ValueIdx.ix1 j) = (r : EReal) :=
  (args_real m h c).2.2.2.2.2.2.1 (ValueIdx.ix1 j)

theorem arg7_real (m : (ℓ : Loc Cert.KernelIdeal.nD Cert.KernelIdeal.τ Cert.KernelIdeal.sig) → Buf (Elt Ideal) ℓ)
    (h : Cert.Pre_KernelIdeal m) (c : Dev Cert.KernelIdeal.nD) (i : Fin 100000) (j : Fin 128) :
    ∃ r : ℝ, m ((c.tc : Thread Cert.KernelIdeal.nD Cert.KernelIdeal.τ).loc Cert.KernelIdeal.main_arg7) (ValueIdx.ix2 i j) = (r : EReal) :=
  (args_real m h c).2.2.2.2.2.2.2 (ValueIdx.ix2 i j)

end Cert.Hand.PreReal

end
-- ==== Proof.KernelValue.lean ====
/-
  The equivalence over the extended reals. The kernel program's result, entry (i, j), is the normalisation
  γ[j]·(x[i, j] − μ[j])·(σ²[j] + ε)^(−1/2) + β[j] of the specification's x, with μ the column mean and σ² the mean of the
  squares less the squared mean; the reference's is the same with σ² the mean of the squared deviations. Under the
  precondition x is a real at every entry (the aggregated features are: the degrees are clipped to at least 1), so the
  two variances are one number, and the results agree entry by entry.
-/
import proofs.«167465_j80161269613387_1_alg».proof.Defs
import proofs.«167465_j80161269613387_1_alg».proof.Proof.KI.ValueSegs
import proofs.«167465_j80161269613387_1_alg».proof.Proof.KI.StatsPieces
import proofs.«167465_j80161269613387_1_alg».proof.Proof.StatsValue
import proofs.«167465_j80161269613387_1_alg».proof.Proof.BnValue
import proofs.«167465_j80161269613387_1_alg».proof.Proof.PayloadValue
import proofs.«167465_j80161269613387_1_alg».proof.Proof.HostValue
import proofs.«167465_j80161269613387_1_alg».proof.Proof.RefValue
import proofs.«167465_j80161269613387_1_alg».proof.Proof.AggReal
import proofs.«167465_j80161269613387_1_alg».proof.Proof.PreReal
import proofs.«167465_j80161269613387_1_alg».proof.Proof.SpecLaws
import proofs.«167465_j80161269613387_1_alg».proof.Proof.Gen.ReferenceIdeal.Run
import proofs.«167465_j80161269613387_1_alg».proof.Proof.Gen.ReferenceIdeal.Read

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ)

/-! ## Region 0's three result arrays, as the specification's functions of what the region finds -/

theorem x_arr (c : Dev nD) : (dat0 (Vin0 m) c).arrAt 7 cfg0.N = StatsValue.xArr (Vin0 m) c :=
  StatsValue.final7 (Vin0 m) (piece_x (Vin0 m)) PayloadValue.pay6_apply c

theorem mean_arr (c : Dev nD) : (dat0 (Vin0 m) c).arrAt 8 cfg0.N = StatsValue.meanArr (Vin0 m) c :=
  StatsValue.final8 (Vin0 m) (piece_s0_zero (Vin0 m)) (piece_s0_succ (Vin0 m)) (piece_mean (Vin0 m))
    PayloadValue.pay6_apply PayloadValue.pay7_apply PayloadValue.pay4_apply PayloadValue.pay2_apply c

theorem var_arr (c : Dev nD) : (dat0 (Vin0 m) c).arrAt 9 cfg0.N = StatsValue.varArr (Vin0 m) c :=
  StatsValue.final9 (Vin0 m) (piece_s0_zero (Vin0 m)) (piece_s0_succ (Vin0 m)) (piece_s1_zero (Vin0 m)) (piece_s1_succ (Vin0 m))
    (piece_var (Vin0 m)) PayloadValue.pay6_apply PayloadValue.pay7_apply PayloadValue.pay1_apply PayloadValue.pay4_apply
    PayloadValue.pay5_apply PayloadValue.pay3_apply c

/-! ## The result buffer, entry by entry -/

/-- The specification's x of the launch memory: the kernel program's host stretches compute the reference's aggregation. -/
abbrev X (c : Dev nD) : Fin 100000 → Fin 128 → EReal :=
  Cert.ReferenceIdeal.RefValue.refX (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg7)) (m ((c.tc : Thread nD τ).loc main_arg8)) (m ((c.tc : Thread nD τ).loc main_arg9))

/-- What region 0 finds is the launch memory's arguments and the reference's aggregation stage of them. -/
theorem specX_eq (c : Dev nD) : StatsValue.specX (Vin0 m) c = X m c := by
  unfold StatsValue.specX X Cert.ReferenceIdeal.RefValue.refX
  refine congr (congr (congr (congr (congr (congr (congrArg Cert.Spec.xOf ?_) ?_) ?_) ?_) ?_) ?_) ?_
  · funext i k; exact congrFun (HostValue.host_agg (F := Ideal) m c) (ix2 i k)
  · funext i k; exact congrFun (HostValue.host_arg0 (F := Ideal) m c) (ix2 i k)
  · funext k j; exact congrFun (HostValue.host_arg1 (F := Ideal) m c) (ix2 k j)
  · funext k j; exact congrFun (HostValue.host_arg3 (F := Ideal) m c) (ix2 k j)
  · funext j; exact HostValue.host_b (F := Ideal) m c j
  · funext j; exact HostValue.host_bres (F := Ideal) m c j
  · funext i j; exact congrFun (HostValue.host_arg7 (F := Ideal) m c) (ix2 i j)

/-- The kernel program's result at (i, j): the normalisation of x by the column mean and the mean of squares less the
    squared mean. -/
theorem out_apply (c : Dev nD) (i : Fin 100000) (j : Fin 128) :
    (Gen.V7 m (outs m) c main_v32 : S100000x128.Idx → EReal) (ix2 i j)
      = Cert.Spec.norm (X m c) (Cert.Spec.mean (X m c)) (Cert.Spec.varSq (X m c))
          (fun j => m ((c.tc : Thread nD τ).loc main_arg5) (ix1 j)) (fun j => m ((c.tc : Thread nD τ).loc main_arg6) (ix1 j)) i j := by
  rw [result_eq m c]
  refine (BnValue.bn_final_apply_of (Vin1 m) PayloadValue.bn_apply c i j (StatsValue.xArr (Vin0 m) c)
    (StatsValue.meanArr (Vin0 m) c) (StatsValue.varArr (Vin0 m) c) (Gen.V5 m c main_v29) (Gen.V5 m c main_v30)
    ((Vin1_x m c).trans (x_arr m c)) ((Vin1_mean m c).trans (mean_arr m c)) ((Vin1_var m c).trans (var_arr m c))
    (Vin1_gamma m c) (Vin1_beta m c)).trans ?_
  unfold Cert.Spec.norm StatsValue.xArr StatsValue.meanArr StatsValue.varArr
  rw [HostValue.host_gamma (F := Ideal) m c j, HostValue.host_beta (F := Ideal) m c j, specX_eq m c]

/-! ## x is real under the precondition -/

theorem X_allReal [Cert.Pre_finite_inputs.Facts] (h : Cert.Pre_KernelIdeal m) (c : Dev nD) : Cert.Spec.AllReal (X m c) := by
  obtain ⟨h0, h1, h2, h3, h4, -, -, h7⟩ := Cert.Hand.PreReal.args_real m h c
  unfold X Cert.ReferenceIdeal.RefValue.refX
  exact Cert.Spec.xOf_allReal (Cert.ReferenceIdeal.AggReal.agg_allReal _ _ _ h0) (fun i k => h0 _) (fun k j => h1 _) (fun k j => h3 _)
    (fun j => h2 _) (fun j => h4 _) (fun i j => h7 _)

/-! ## The two programs end with equal results -/

/-- Two [100000, 128] arrays of extended reals that agree at every (i, j) are one array. -/
theorem ext2 (f g : (⟨2, ![100000, 128]⟩ : Shape).Idx → EReal) (h : ∀ (i : Fin 100000) (j : Fin 128), f (ix2 i j) = g (ix2 i j)) : f = g :=
  funext fun idx => by rw [eq_ix2 idx]; exact h _ _

theorem algebraic : Cert.algebraic_KernelIdeal_ReferenceIdeal := by
  intro m ρ m' ρ' hpre hagree
  refine ⟨fun c => Gen.V7 m (outs m) c main_v32, value_run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v61 m' c = Gen.V7 m (outs m) c main_v32
  obtain ⟨e0, e1, e2, e3, e4, e5, e6, e7, e8, e9⟩ := hagree c
  rw [Cert.ReferenceIdeal.Read.val_main_v61_eq m' c, e0, e1, e2, e3, e4, e5, e6, e7, e8, e9]
  refine ext2 _ _ fun i j => ?_
  rw [Cert.ReferenceIdeal.RefValue.out_apply]
  refine Eq.trans ?_ (out_apply m c i j).symm
  unfold Cert.Spec.norm
  rw [Cert.Spec.varDev_eq_varSq _ (X_allReal m hpre c) j]

end Cert.KernelIdeal.KernelValue

end
-- ==== Proof.lean ====
/-
  The certificate: the two programs' frames, the idealization's (empty) ledger, and the equivalence over the extended
  reals. The kernel program runs the graph aggregation as host operations, then two tiled kernels: the first computes
  x = ((agg·W + b) + (feats·W_res + b_res)) ∘ mask block by block while accumulating each column's sum and sum of squares
  over the 50 blocks, and at the last block turns them into the column mean and the variance E[x²] − E[x]²; the second
  normalises each block with them. The reference computes the same x at once and the variance as E[(x − μ)²]. The
  two variances agree because, under the precondition, every entry of x is a real number: the degrees are clipped to
  at least 1, so their reciprocal square roots are finite, and sums and products of reals are reals.
-/
import proofs.«167465_j80161269613387_1_alg».proof.Defs
import proofs.«167465_j80161269613387_1_alg».proof.Proof.Gen.Kernel
import proofs.«167465_j80161269613387_1_alg».proof.Proof.Gen.KernelIdeal
import proofs.«167465_j80161269613387_1_alg».proof.Proof.Gen.ReferenceIdeal
import proofs.«167465_j80161269613387_1_alg».proof.Proof.Gen.Pre_finite_inputs
import proofs.«167465_j80161269613387_1_alg».proof.Proof.Gen.ReferenceIdeal.Run
import proofs.«167465_j80161269613387_1_alg».proof.Proof.K.Segments
import proofs.«167465_j80161269613387_1_alg».proof.Proof.KI.Segments
import proofs.«167465_j80161269613387_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.KernelIdeal.KernelValue.algebraic⟩

end Cert.Proof

end
